-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x256 : Shape := ⟨2, ![512, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S256x64 .f32) (main_arg5 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg4
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S8192x512 .f32) (main_arg1 : FVec F S8192x8192 .f32) (main_arg2 : FVec F S512x256 .f32) (main_arg3 : FVec F S256 .f32) (main_arg4 : FVec F S256x64 .f32) (main_arg5 : FVec F S64 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S8192x512 : Shape := ⟨2, ![8192, 512]⟩
abbrev S8192x8192 : Shape := ⟨2, ![8192, 8192]⟩
abbrev S512x256 : Shape := ⟨2, ![512, 256]⟩
abbrev S256 : Shape := ⟨1, ![256]⟩
abbrev S256x64 : Shape := ⟨2, ![256, 64]⟩
abbrev S64 : Shape := ⟨1, ![64]⟩
abbrev S_ : Shape := ⟨0, ![]⟩
abbrev S8192x256 : Shape := ⟨2, ![8192, 256]⟩
abbrev S1024x512 : Shape := ⟨2, ![1024, 512]⟩
abbrev S1024x256 : Shape := ⟨2, ![1024, 256]⟩
abbrev S1x256 : Shape := ⟨2, ![1, 256]⟩
abbrev S1024x2048 : Shape := ⟨2, ![1024, 2048]⟩
abbrev S2048x256 : Shape := ⟨2, ![2048, 256]⟩
abbrev S8192x64 : Shape := ⟨2, ![8192, 64]⟩
abbrev S1024x64 : Shape := ⟨2, ![1024, 64]⟩
abbrev S1x64 : Shape := ⟨2, ![1, 64]⟩
abbrev S2048x64 : Shape := ⟨2, ![2048, 64]⟩
abbrev S1024x1024 : Shape := ⟨2, ![1024, 1024]⟩

abbrev nBuf : Space → Nat
  | .hbm => 15
  | .vmem => 36
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S_, .f32⟩
  | .hbm, ⟨7, _⟩ => ⟨S256, .f32⟩
  | .hbm, ⟨8, _⟩ => ⟨S_, .f32⟩
  | .hbm, ⟨9, _⟩ => ⟨S64, .f32⟩
  | .hbm, ⟨10, _⟩ => ⟨S8192x256, .f32⟩
  | .hbm, ⟨11, _⟩ => ⟨S8192x256, .f32⟩
  | .hbm, ⟨12, _⟩ => ⟨S8192x64, .f32⟩
  | .hbm, ⟨13, _⟩ => ⟨S8192x64, .f32⟩
  | .hbm, ⟨14, _⟩ => ⟨S8192x8192, .f32⟩
  | .local _ .vmem, ⟨0, _⟩ => ⟨S1024x512, .f32⟩
  | .local _ .vmem, ⟨1, _⟩ => ⟨S1024x512, .f32⟩
  | .local _ .vmem, ⟨2, _⟩ => ⟨S512x256, .f32⟩
  | .local _ .vmem, ⟨3, _⟩ => ⟨S256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x2048, .f32⟩
  | .local _ .vmem, ⟨8, _⟩ => ⟨S1024x2048, .f32⟩
  | .local _ .vmem, ⟨9, _⟩ => ⟨S2048x256, .f32⟩
  | .local _ .vmem, ⟨10, _⟩ => ⟨S2048x256, .f32⟩
  | .local _ .vmem, ⟨11, _⟩ => ⟨S256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S256x64, .f32⟩
  | .local _ .vmem, ⟨18, _⟩ => ⟨S64, .f32⟩
  | .local _ .vmem, ⟨19, _⟩ => ⟨S1024x64, .f32⟩
  | .local _ .vmem, ⟨20, _⟩ => ⟨S1024x64, .f32⟩
  | .local _ .vmem, ⟨21, _⟩ => ⟨S1024x64, .f32⟩
  | .local _ .vmem, ⟨22, _⟩ => ⟨S1024x2048, .f32⟩
  | .local _ .vmem, ⟨23, _⟩ => ⟨S1024x2048, .f32⟩
  | .local _ .vmem, ⟨24, _⟩ => ⟨S2048x64, .f32⟩
  | .local _ .vmem, ⟨25, _⟩ => ⟨S2048x64, .f32⟩
  | .local _ .vmem, ⟨26, _⟩ => ⟨S64, .f32⟩
  | .local _ .vmem, ⟨27, _⟩ => ⟨S1024x64, .f32⟩
  | .local _ .vmem, ⟨28, _⟩ => ⟨S1024x64, .f32⟩
  | .local _ .vmem, ⟨29, _⟩ => ⟨S1024x64, .f32⟩
  | .local _ .vmem, ⟨30, _⟩ => ⟨S1024x64, .f32⟩
  | .local _ .vmem, ⟨31, _⟩ => ⟨S1024x64, .f32⟩
  | .local _ .vmem, ⟨32, _⟩ => ⟨S1024x64, .f32⟩
  | .local _ .vmem, ⟨33, _⟩ => ⟨S1024x64, .f32⟩
  | .local _ .vmem, ⟨34, _⟩ => ⟨S1024x1024, .f32⟩
  | .local _ .vmem, ⟨35, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_scratch0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg3_1 : Ref sig .tc := ⟨.vmem, 28, rfl⟩
abbrev cc3_scratch0 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg2_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![8, 1], ![false, false]⟩

def k2_cond2 (i : grid2.Coords) : BitVec 1 :=
  let arg1 : BitVec 32 := BitVec.ofNat 32 (i 1).val
  let c0_i32_8 : BitVec 32 := 0#32
  let v14 : BitVec 1 := Scalar.cmpi .eq arg1 c0_i32_8
  let v15 : BitVec 32 := Scalar.extui v14
  let c0_i32_9 : BitVec 32 := 0#32
  let v16 : BitVec 1 := Scalar.cmpi .ne v15 c0_i32_9
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S256x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1024x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![8, 4], ![false, false]⟩

def k3_cond2 (i : grid3.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S1024x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨2, ![8, 8], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1024x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

class Facts₀ : Prop where
  bcast_S_S256 : S_.BroadcastsInDim S256 (![] : Fin 0 → Fin S256.rank)
  bcast_S_S64 : S_.BroadcastsInDim S64 (![] : Fin 0 → Fin S64.rank)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S1024x256 : S1x256.Broadcasts S1024x256
  inb_S1024x2048_S1024x2048_0_0 : ∀ a, (![0, 0] : Fin 2 → Nat) a + S1024x2048.size a ≤ S1024x2048.size a
  h_S1024x2048 : 0 < S1024x2048.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S256x64_S256x64_0_0 : ∀ a, (![0, 0] : Fin 2 → Nat) a + S256x64.size a ≤ S256x64.size a
  h_S256x64 : 0 < S256x64.numel
  inb_S64_S64_0 : ∀ a, (![0] : Fin 1 → Nat) a + S64.size a ≤ S64.size a
  h_S64 : 0 < S64.numel
  shapeCasts_S64_S64 : S64.ShapeCasts S64
  shapeCasts_S64_S1x64 : S64.ShapeCasts S1x64
  broadcasts_S1x64_S1024x64 : S1x64.Broadcasts S1024x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1024x1024_S1024x1024_0_0 : ∀ a, (![0, 0] : Fin 2 → Nat) a + S1024x1024.size a ≤ S1024x1024.size a
  h_S1024x1024 : 0 < S1024x1024.numel
  dot_S1024x512_S512x256_S1024x256_1_0_0_1_n_n_wf : DotDims.WF S1024x512 S512x256 S1024x256 [1] [0] [0] [1] [] []
  dot_S1024x2048_S2048x256_S1024x256_1_0_0_1_n_n_wf : DotDims.WF S1024x2048 S2048x256 S1024x256 [1] [0] [0] [1] [] []
  dot_S1024x256_S256x64_S1024x64_1_0_0_1_n_n_wf : DotDims.WF S1024x256 S256x64 S1024x64 [1] [0] [0] [1] [] []
  dot_S1024x2048_S2048x64_S1024x64_1_0_0_1_n_n_wf : DotDims.WF S1024x2048 S2048x64 S1024x64 [1] [0] [0] [1] [] []
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x256.size a
  hwx0_3 : ∀ i : grid0.Coords, EltTy.bits .f32 = 32 ∨ (Rect.block (s := S8192x256) S1024x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S8192x256.size a
  hwx1_1 : ∀ i : grid1.Coords, EltTy.bits .f32 = 32 ∨ (Rect.block (s := S8192x256) S2048x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S8192x256.size a
  hwx1_3 : ∀ i : grid1.Coords, EltTy.bits .f32 = 32 ∨ (Rect.block (s := S8192x256) S1024x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S8192x256.size a
  hwx2_0 : ∀ i : grid2.Coords, EltTy.bits .f32 = 32 ∨ (Rect.block (s := S8192x256) S1024x256.size (cc2_transform_0 i) (hinb2_0 i)).WholeWords (EltTy.packing .f32)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S256x64.size a ≤ S256x64.size a
  hwx2_1 : ∀ i : grid2.Coords, EltTy.bits .f32 = 32 ∨ (Rect.block (s := S256x64) S256x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x64.size a ≤ S8192x64.size a
  hwx2_3 : ∀ i : grid2.Coords, EltTy.bits .f32 = 32 ∨ (Rect.block (s := S8192x64) S1024x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x2048.size a ≤ S8192x8192.size a
  hwx3_0 : ∀ i : grid3.Coords, EltTy.bits .f32 = 32 ∨ (Rect.block (s := S8192x8192) S1024x2048.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x64.size a ≤ S8192x64.size a
  hwx3_1 : ∀ i : grid3.Coords, EltTy.bits .f32 = 32 ∨ (Rect.block (s := S8192x64) S2048x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x64.size a ≤ S8192x64.size a
  hwx3_3 : ∀ i : grid3.Coords, EltTy.bits .f32 = 32 ∨ (Rect.block (s := S8192x64) S1024x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x64.size a ≤ S8192x64.size a
  hwx4_0 : ∀ i : grid4.Coords, EltTy.bits .f32 = 32 ∨ (Rect.block (s := S8192x64) S1024x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x64.size a ≤ S8192x64.size a
  hwx4_1 : ∀ i : grid4.Coords, EltTy.bits .f32 = 32 ∨ (Rect.block (s := S8192x64) S1024x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x1024.size a ≤ S8192x8192.size a
  hwx4_2 : ∀ i : grid4.Coords, EltTy.bits .f32 = 32 ∨ (Rect.block (s := S8192x8192) S1024x1024.size (cc4_transform_2 i) (hinb4_2 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v3) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x64.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v1) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S1024x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_arg1) S1024x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S2048x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v5) S1024x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v5) S1024x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v5) S1024x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v6) S1024x1024.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S8192x512 : Shape := ⟨2, ![8192, 512]⟩
abbrev S8192x8192 : Shape := ⟨2, ![8192, 8192]⟩
abbrev S512x256 : Shape := ⟨2, ![512, 256]⟩
abbrev S256 : Shape := ⟨1, ![256]⟩
abbrev S256x64 : Shape := ⟨2, ![256, 64]⟩
abbrev S64 : Shape := ⟨1, ![64]⟩
abbrev S8192x256 : Shape := ⟨2, ![8192, 256]⟩
abbrev S1x256 : Shape := ⟨2, ![1, 256]⟩
abbrev S_ : Shape := ⟨0, ![]⟩
abbrev S8192x64 : Shape := ⟨2, ![8192, 64]⟩
abbrev S1x64 : Shape := ⟨2, ![1, 64]⟩
abbrev S64x8192 : Shape := ⟨2, ![64, 8192]⟩

abbrev nBuf : Space → Nat
  | .hbm => 29
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S8192x256, .f32⟩
  | .hbm, ⟨7, _⟩ => ⟨S8192x256, .f32⟩
  | .hbm, ⟨8, _⟩ => ⟨S1x256, .f32⟩
  | .hbm, ⟨9, _⟩ => ⟨S8192x256, .f32⟩
  | .hbm, ⟨10, _⟩ => ⟨S8192x256, .f32⟩
  | .hbm, ⟨11, _⟩ => ⟨S_, .f32⟩
  | .hbm, ⟨12, _⟩ => ⟨S8192x256, .f32⟩
  | .hbm, ⟨13, _⟩ => ⟨S8192x256, .f32⟩
  | .hbm, ⟨14, _⟩ => ⟨S8192x64, .f32⟩
  | .hbm, ⟨15, _⟩ => ⟨S8192x64, .f32⟩
  | .hbm, ⟨16, _⟩ => ⟨S1x64, .f32⟩
  | .hbm, ⟨17, _⟩ => ⟨S8192x64, .f32⟩
  | .hbm, ⟨18, _⟩ => ⟨S8192x64, .f32⟩
  | .hbm, ⟨19, _⟩ => ⟨S64x8192, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  transposes_S8192x64_S64x8192_1_0 : S8192x64.Transposes [1, 0] S64x8192
  bcast_S_S8192x8192 : S_.BroadcastsInDim S8192x8192 (![] : Fin 0 → Fin S8192x8192.rank)
  dot_S8192x512_S512x256_S8192x256_1_0_0_1_n_n_wf : DotDims.WF S8192x512 S512x256 S8192x256 [1] [0] [0] [1] [] []
  dot_S8192x8192_S8192x256_S8192x256_1_0_0_1_n_n_wf : DotDims.WF S8192x8192 S8192x256 S8192x256 [1] [0] [0] [1] [] []
  dot_S8192x256_S256x64_S8192x64_1_0_0_1_n_n_wf : DotDims.WF S8192x256 S256x64 S8192x64 [1] [0] [0] [1] [] []
  dot_S8192x8192_S8192x64_S8192x64_1_0_0_1_n_n_wf : DotDims.WF S8192x8192 S8192x64 S8192x64 [1] [0] [0] [1] [] []
  dot_S8192x64_S64x8192_S8192x8192_1_0_0_1_n_n_wf : DotDims.WF S8192x64 S64x8192 S8192x8192 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.KB.D0.lean ====
/-
  Region 0 (the features times the first weight matrix): what the pipeline's proof data say.
  The grid is 8 row blocks by one block of the contracted axis, so every point is both the first and the last step of its
  row block: the body resets the accumulator kept in scratch, adds the product of the point's [1024, 512] block and the
  whole [512, 256] right operand into it, adds the bias row (here all zeros) and stores the row block of the result.
-/
import proofs.«121749_j28346784154172_1_alg».proof.Proof.Gen.Kernel.Launch
import proofs.«121749_j28346784154172_1_alg».proof.Proof.Gen.Kernel.Skeleton
import proofs.«121749_j28346784154172_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator's memref. -/
abbrev scM0 : Memref sig .tc .vmem S1024x256 .f32 := Memref.whole cc0_scratch0

/-- What the accumulator holds after the body at point `t`: the point's product added into zero. -/
def sc0 (c : Dev nD) (t : Fin cfg0.N) : Vec F S1024x256 .f32 :=
  k0_pay2 (iblk0 V c 0 t) (iblk0 V c 1 t) k0_pay1

/-- What the body stores into the result's staging buffer at point `t`. -/
def out0 (c : Dev nD) (t : Fin cfg0.N) : Vec F S1024x256 .f32 :=
  k0_pay3 (sc0 V c t) (iblk0 V c 2 t)

/-- The class's invariant with the accumulator as a memref owned at some contents. -/
theorem PhiA0_eq (c : Dev nD) :
    (Pipeline.ΦA spec0 c : sProp 𝕄)
      = iprop(iprop((∃ d, owns (c : Thread nD τ) scM0 fullShare d)
          ∗ Pipeline.scopedRestBut (Ix := Unit) (Name := ℕ) (U := UR sig nD τ) (Lvl := ℕ) (Val := Elt F) spec0 c [cc0_scratch0])
          ∗ (∃ r, prngReg c r)) := by
  unfold Pipeline.ΦA; rw [scopedRest0_split]; simp only [scM0, owns_whole]; rfl

/-- The proof data of pipeline 0 on core `c`: the arrays as the region finds them; after the body each input's buffer at
    its block and the result's at `out0`; the invariant the scoped buffers that are no staging buffer at any contents and the
    generator register at some state; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0 V c t := by dsimp only [dat0]

end Cert.Kernel.Hand

end
-- ==== Proof.KB.B0.lean ====
/-
  Region 0: the kernel body meets the pipeline's obligation at every grid point.
-/
import proofs.«121749_j28346784154172_1_alg».proof.Proof.Gen.Kernel.Launch
import proofs.«121749_j28346784154172_1_alg».proof.Proof.Gen.Kernel.Skeleton
import proofs.«121749_j28346784154172_1_alg».proof.Proof.Gen.Kernel.Points
import proofs.«121749_j28346784154172_1_alg».proof.Proof.KB.D0
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The body's branch conditions -/

/-- The condition of the body's first `scf.if` (the reset of the accumulator), from the grid coordinates. -/
abbrev cond0_0 (i : grid0.Coords) : Prop := (Scalar.cmpi .ne (Scalar.extui (Scalar.cmpi .eq (BitVec.ofNat 32 (i 1).val) 0#32)) 0#32) = 1#1
/-- It holds at every point: the contracted axis has one block. -/
theorem hcond0_0 : ∀ t : Fin cfg0.N, cond0_0 (grid0.coords t) :=
  (by decide +kernel : ∀ t : Fin grid0.N, cond0_0 (grid0.coords t))

/-- The condition of the body's second `scf.if` (the store of the result block), from the grid coordinates. -/
abbrev cond0_1 (i : grid0.Coords) : Prop := k0_cond2 i = 1#1
/-- It holds at every point. -/
theorem hcond0_1 : ∀ t : Fin cfg0.N, cond0_1 (grid0.coords t) :=
  (by decide +kernel : ∀ t : Fin grid0.N, cond0_1 (grid0.coords t))

/-! ## No window is idle at any point -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

/-! ## The input windows' buffers hold their blocks -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## Whole-rectangle stores and loads -/

theorem offZ0_a : (![0, 0] : Fin 2 → Nat) = fun _ => 0 := funext fun a => by fin_cases a <;> rfl
theorem offZ0_b : (![0] : Fin 1 → Nat) = fun _ => 0 := funext fun a => by fin_cases a <;> rfl

/-- A load of the whole rectangle, after stores the last of which filled the whole rectangle, reads that store's payload. -/
theorem readCov_last0 {S : Shape} {e : EltTy} {κ : Kind} {sp : Space} (v : View sig κ sp S e)
    {off : Fin S.rank → Nat} (h : off = fun _ => 0) (inb : ∀ a, off a + S.size a ≤ S.size a)
    (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

/-- What a buffer holds after stores the last of which filled the whole rectangle: that store's payload. -/
theorem read_writes_last0 {S : Shape} {e : EltTy} {κ : Kind} {sp : Space} (v : View sig κ sp S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

/-- A load of the whole rectangle of a whole memref reads its contents. -/
theorem readAt_whole0 {S : Shape} {e : EltTy} (m : Memref sig .tc .vmem S e) (hm : m.IsWhole)
    {off : Fin S.rank → Nat} (h : off = fun _ => 0) (inb : ∀ a, off a + S.size a ≤ S.size a) (x : S.Idx → Elt F e) :
    View.readAt (Elt F) m.view (Rect.unit off S.size inb).toLoadRect (hm.unread x) = x := by
  rw [View.readAt_eq_ld, hm.read_unread, View.ld_unit_zero h]

/-! ## The body's triple -/

set_option maxHeartbeats 4000000 in
/-- The kernel body at a point where both conditions hold, on whole staging memrefs — the inputs' at contents `x0 x1 x2`, the
    result's and the accumulator's at anything — runs to the continuation holding the inputs' as they were, the accumulator at
    the product of the first two added into zero, and the result's at that plus the broadcast third. -/
theorem sound_kernel0 (c : Dev nD) (E : Set ℕ) (i : grid0.Coords)
    (arg2 : Memref sig .tc .vmem S1024x512 .f32) (harg2 : arg2.IsWhole)
    (arg3 : Memref sig .tc .vmem S512x256 .f32) (harg3 : arg3.IsWhole)
    (arg4 : Memref sig .tc .vmem S256 .f32) (harg4 : arg4.IsWhole)
    (arg5 : Memref sig .tc .vmem S1024x256 .f32) (harg5 : arg5.IsWhole)
    (arg6 : Memref sig .tc .vmem S1024x256 .f32) (harg6 : arg6.IsWhole)
    (hc0 : cond0_0 i) (hc1 : cond0_1 i)
    (x0 : Vec F S1024x512 .f32) (x1 : Vec F S512x256 .f32) (x2 : Vec F S256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay2 x0 x1 k0_pay1) x2)
            ∗ owns (c : Thread nD τ) arg6 fullShare (k0_pay2 x0 x1 k0_pay1)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%d5, %f5, -, H5⟩, ⟨%d6, %f6, -, H6⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr
    swap; · iexact H5
    ipureintro
    sl_unfold_run_names
    rw [read_writes_last0 _ _ offZ0_a, readCov_last0 _ offZ0_a, readCov_last0 _ offZ0_a,
      readAt_whole0 _ harg2 offZ0_a, readAt_whole0 _ harg3 offZ0_a, readAt_whole0 _ harg4 offZ0_b]
  iexists _; isplitr
  swap; · iexact H6
  ipureintro
  sl_unfold_run_names
  rw [read_writes_last0 _ _ offZ0_a, readCov_last0 _ offZ0_a,
    readAt_whole0 _ harg2 offZ0_a, readAt_whole0 _ harg3 offZ0_a]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

/-- No window is idle at any point, so each current buffer is left at what the proof data name. -/
theorem leaves0_0 (c : Dev nD) (t : Fin cfg0.N) :
    (dat0 V c).leavesExact 0 t = owns (c : Thread nD τ) (st0_0 t) fullShare (iblk0 V c 0 t) := by
  unfold Dat.leavesExact; rw [liveAt0_0 t, after0_0]
theorem leaves0_1 (c : Dev nD) (t : Fin cfg0.N) :
    (dat0 V c).leavesExact 1 t = owns (c : Thread nD τ) (st0_1 t) fullShare (iblk0 V c 1 t) := by
  unfold Dat.leavesExact; rw [liveAt0_1 t, after0_1]
theorem leaves0_2 (c : Dev nD) (t : Fin cfg0.N) :
    (dat0 V c).leavesExact 2 t = owns (c : Thread nD τ) (st0_2 t) fullShare (iblk0 V c 2 t) := by
  unfold Dat.leavesExact; rw [liveAt0_2 t, after0_2]
theorem leaves0_3 (c : Dev nD) (t : Fin cfg0.N) :
    (dat0 V c).leavesExact 3 t = owns (c : Thread nD τ) (st0_3 t) fullShare (out0 V c t) := by
  unfold Dat.leavesExact; rw [liveAt0_3 t, after0_3]

set_option maxHeartbeats 4000000 in
/-- The body at any point: the inputs' memrefs hold their blocks, both conditions hold, so the kernel's triple applies; the
    invariant hands the body the accumulator at some contents and takes it back at some contents; nothing is owed throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [leaves0_0, leaves0_1, leaves0_2, leaves0_3]
  rw [show (dat0 V c).owesAt () t.succ = (dat0 V c).owesAt () t.castSucc from rfl,
    show (dat0 V c).Φ t.succ = Pipeline.ΦA spec0 c from rfl,
    show (dat0 V c).Φ t.castSucc = Pipeline.ΦA spec0 c from rfl, PhiA0_eq]
  unfold out0 sc0
  iintro ⟨⟨⟨HS, Hrest⟩, Hg⟩, Ho, ⟨%d0, H0⟩, ⟨%d1, H1⟩, ⟨%d2, H2⟩, ⟨%d3, H3⟩⟩
  iapply (sound_kernel0 c Set.univ (grid0.coords t) _ _ _ _ _ _ _ _ _ _ (hcond0_0 t) (hcond0_1 t)
    (iblk0 V c 0 t) (iblk0 V c 1 t) (iblk0 V c 2 t) _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS Hrest Hg]
  · isplitl [HS Hrest]
    · isplitl [HS]; · iexists _; iexact HS
      iexact Hrest
    iexact Hg
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.D1.lean ====
/-
  Region 1 (the first product with the adjacency matrix): what the pipeline's proof data say.
  The grid is 8 row blocks by 4 blocks of the contracted axis. At a point the body adds the product of the point's
  [1024, 2048] block of the left operand and [2048, 256] block of the right operand into a [1024, 256] accumulator kept
  in scratch, which it resets at the first of the four steps; at the fourth it adds the bias row, clamps at zero and
  stores the row block of the result.
-/
import proofs.«121749_j28346784154172_1_alg».proof.Proof.Gen.Kernel.Launch
import proofs.«121749_j28346784154172_1_alg».proof.Proof.Gen.Kernel.Skeleton
import proofs.«121749_j28346784154172_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator's memref. -/
abbrev scM1 : Memref sig .tc .vmem S1024x256 .f32 := Memref.whole cc1_scratch0

/-! ## The accumulator and the result block, point by point -/

/-- What the accumulator holds after the body at position `n`: the point's product added into zero at the first of the
    four steps along the contracted axis, into what the step before left at the others. -/
def sc1 (c : Dev nD) : (n : ℕ) → n < cfg1.N → Vec F S1024x256 .f32
  | 0, hn => k1_pay2 (iblk1 V c 0 ⟨0, hn⟩) (iblk1 V c 1 ⟨0, hn⟩) k1_pay1
  | n + 1, hn =>
    if (n + 1) % 4 = 0 then k1_pay2 (iblk1 V c 0 ⟨n + 1, hn⟩) (iblk1 V c 1 ⟨n + 1, hn⟩) k1_pay1
    else k1_pay2 (iblk1 V c 0 ⟨n + 1, hn⟩) (iblk1 V c 1 ⟨n + 1, hn⟩) (sc1 c n (Nat.lt_of_succ_lt hn))

theorem sc1_reset (c : Dev nD) (t : Fin cfg1.N) (h : t.val % 4 = 0) :
    sc1 V c t.val t.isLt = k1_pay2 (iblk1 V c 0 t) (iblk1 V c 1 t) k1_pay1 := by
  obtain ⟨n, hn⟩ := t
  cases n with
  | zero => rfl
  | succ n => exact if_pos h

theorem sc1_step (c : Dev nD) (t : Fin cfg1.N) (h : ¬ t.val % 4 = 0) :
    sc1 V c t.val t.isLt = k1_pay2 (iblk1 V c 0 t) (iblk1 V c 1 t)
      (sc1 V c (t.val - 1) (Nat.lt_of_le_of_lt (Nat.sub_le _ _) t.isLt)) := by
  obtain ⟨n, hn⟩ := t
  cases n with
  | zero => exact absurd (Nat.zero_mod _) h
  | succ n => exact if_neg h

/-- What the body stores into the result's staging buffer at point `t` (consulted only at the fourth steps, where the
    block is stored and written back). -/
def out1 (c : Dev nD) (t : Fin cfg1.N) : Vec F S1024x256 .f32 :=
  k1_pay3 (sc1 V c t.val t.isLt) (iblk1 V c 2 t)

/-! ## The invariant and the proof data -/

/-- The region's invariant before position `n`: at the start the scoped buffers that are no staging buffer at any contents and
    the generator register at some state; afterwards the same with the accumulator at what the point before left. -/
def Phi1 (c : Dev nD) : (n : ℕ) → n ≤ cfg1.N → sProp 𝕄
  | 0, _ => Pipeline.ΦA spec1 c
  | n + 1, hn => iprop(owns (c : Thread nD τ) scM1 fullShare (sc1 V c n hn)
      ∗ Pipeline.scopedRestBut (Ix := Unit) (Name := ℕ) (U := UR sig nD τ) (Lvl := ℕ) (Val := Elt F) spec1 c [cc1_scratch0]
      ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(owns (c : Thread nD τ) scM1 fullShare (sc1 V c n hn)
      ∗ Pipeline.scopedRestBut (Ix := Unit) (Name := ℕ) (U := UR sig nD τ) (Lvl := ℕ) (Val := Elt F) spec1 c [cc1_scratch0]
      ∗ (∃ r, prngReg c r)) := rfl

theorem Phi1_pos (c : Dev nD) (n : ℕ) (h : n ≤ cfg1.N) (hz : n ≠ 0) :
    Phi1 V c n h = iprop(owns (c : Thread nD τ) scM1 fullShare (sc1 V c (n - 1) (by omega))
      ∗ Pipeline.scopedRestBut (Ix := Unit) (Name := ℕ) (U := UR sig nD τ) (Lvl := ℕ) (Val := Elt F) spec1 c [cc1_scratch0]
      ∗ (∃ r, prngReg c r)) := by
  cases n with
  | zero => exact absurd rfl hz
  | succ n => rfl

/-- The class's invariant with the accumulator as a memref owned at some contents. -/
theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0])
          ∗ (∃ r, prngReg c r)) := by
  unfold Pipeline.ΦA; rw [scopedRest1_split]; simp only [scM1, owns_whole]; rfl

/-- The proof data of pipeline 1 on core `c`: the arrays as the region finds them; after the body each input's buffer at
    its block and the result's at `out1`; the invariant carrying the accumulator; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1 V c t := by dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

end Cert.Kernel.Hand

end
-- ==== Proof.KB.B1.lean ====
/-
  Region 1: the kernel body meets the pipeline's obligation at every grid point.
-/
import proofs.«121749_j28346784154172_1_alg».proof.Proof.Gen.Kernel.Launch
import proofs.«121749_j28346784154172_1_alg».proof.Proof.Gen.Kernel.Skeleton
import proofs.«121749_j28346784154172_1_alg».proof.Proof.Gen.Kernel.Points
import proofs.«121749_j28346784154172_1_alg».proof.Proof.KB.D1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The two conditions of the body, in closed form over the grid -/

/-- The first conditional's test: the step along the contracted axis is the first. -/
abbrev cond1_0 (i : grid1.Coords) : Prop :=
  (Scalar.cmpi .ne (Scalar.extui (Scalar.cmpi .eq (BitVec.ofNat 32 (i 1).val) 0#32)) 0#32) = 1#1

/-- The second conditional's test: the step along the contracted axis is the last. -/
abbrev cond1_1 (i : grid1.Coords) : Prop := k1_cond2 i = 1#1

theorem hcond1_0 : ∀ t : Fin cfg1.N, cond1_0 (grid1.coords t) ↔ t.val % 4 = 0 :=
  (by decide +kernel : ∀ t : Fin grid1.N, cond1_0 (grid1.coords t) ↔ t.val % 4 = 0)

theorem hcond1_1 : ∀ t : Fin cfg1.N, cond1_1 (grid1.coords t) ↔ t.val % 4 = 3 :=
  (by decide +kernel : ∀ t : Fin grid1.N, cond1_1 (grid1.coords t) ↔ t.val % 4 = 3)

/-- The inputs are live at every point. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- The result window is idle exactly off the last steps, and is written back exactly at them. -/
theorem idleAt1_3 : ∀ t : Fin cfg1.N, ¬ t.val % 4 = 3 → cfg1.idle 3 (grid1.coords t) = true := by decide +kernel
theorem liveAt1_3 : ∀ t : Fin cfg1.N, t.val % 4 = 3 → cfg1.idle 3 (grid1.coords t) = false := by decide +kernel
theorem noFlush1_3 : ∀ t : Fin cfg1.N, ¬ t.val % 4 = 3 → (cfg1.win 3).flush t = false := by decide +kernel

/-! ## Whole-rectangle stores and loads

Every access of the body is through the rectangle of the buffer's own sizes at zero offsets. -/

private theorem hz1 : (![0] : Fin 1 → Nat) = fun _ => 0 := funext fun a => by fin_cases a <;> rfl
private theorem hz2 : (![0, 0] : Fin 2 → Nat) = fun _ => 0 := funext fun a => by fin_cases a <;> rfl

section Whole

variable {Val : EltTy → Type} [∀ e, Nonempty (Val e)] {sg : RefSig} {κ : Kind} {sp : Space} {S : Shape} {e : EltTy}

/-- A store through the whole rectangle, made last, leaves its payload, whatever was stored before it. -/
private theorem read_writes_whole_cons (v : View sg κ sp S e) (f : v.ty.Contents Val) {off : Fin S.rank → Nat}
    (hz : off = fun _ => 0) (inb : ∀ a, off a + S.size a ≤ S.size a) (w : S.Idx → Val e)
    (L : List (View.Piece Val S e)) :
    v.read Val (v.writes Val f (⟨Rect.unit off S.size inb, w⟩ :: L)) = w := by
  rw [View.read_writes_eq_canon _ _ _
      (fun y => ⟨_, List.mem_cons_self, View.mem_set_unit_zero hz inb y⟩),
    View.canon_cons_unit_zero hz]

/-- A load through the whole rectangle right after such a store reads the payload back. -/
private theorem readCov_whole_cons (v : View sg κ sp S e) {off : Fin S.rank → Nat}
    (hz : off = fun _ => 0) (inb : ∀ a, off a + S.size a ≤ S.size a) (w : S.Idx → Val e)
    (L : List (View.Piece Val S e)) :
    v.readCov (⟨Rect.unit off S.size inb, w⟩ :: L) (Rect.unit off S.size inb).toLoadRect = w := by
  unfold View.readCov
  rw [View.readAt_eq_ld, read_writes_whole_cons v _ hz inb w L, View.ld_unit_zero hz]

/-- A load through the whole rectangle of a whole memref reads what the memref reads. -/
private theorem readAt_whole_unread {m : Memref sg κ sp S e} (h : m.IsWhole) {off : Fin S.rank → Nat}
    (hz : off = fun _ => 0) (inb : ∀ a, off a + S.size a ≤ S.size a) (X : S.Idx → Val e) :
    View.readAt Val m.view (Rect.unit off S.size inb).toLoadRect (h.unread X) = X := by
  rw [View.readAt_eq_ld, h.read_unread, View.ld_unit_zero hz]

end Whole

/-! ## The body on any whole memrefs, case by case -/

set_option maxHeartbeats 4000000 in
/-- First step along the contracted axis: the accumulator, at anything, is zeroed and the point's product added
    into the zeros. The bias row and the result buffer are not touched. -/
theorem sound_kernel1_A (c : Dev nD) (E : Set ℕ) (i : grid1.Coords)
    (arg2 : Memref sig .tc .vmem S1024x2048 .f32) (harg2 : arg2.IsWhole)
    (arg3 : Memref sig .tc .vmem S2048x256 .f32) (harg3 : arg3.IsWhole)
    (arg4 : Memref sig .tc .vmem S256 .f32) (harg4 : arg4.IsWhole)
    (arg5 : Memref sig .tc .vmem S1024x256 .f32) (harg5 : arg5.IsWhole)
    (arg6 : Memref sig .tc .vmem S1024x256 .f32) (harg6 : arg6.IsWhole)
    (hc0 : cond1_0 i) (hc1 : ¬ cond1_1 i)
    (x0 : Vec F S1024x2048 .f32) (x1 : Vec F S2048x256 .f32) (K : PUnit → sProp 𝕄) :
    iprop(owns (c : Thread nD τ) arg2 fullShare x0 ∗ owns (c : Thread nD τ) arg3 fullShare x1
        ∗ (∃ d, owns (c : Thread nD τ) arg6 fullShare d)
        ∗ (iprop(owns (c : Thread nD τ) arg2 fullShare x0 ∗ owns (c : Thread nD τ) arg3 fullShare x1
            ∗ owns (c : Thread nD τ) arg6 fullShare (k1_pay2 x0 x1 k1_pay1)) -∗ K ⟨⟩))
      ⊢ wp frame (wpE (defs₀ (F := F)) Variants.none c none) E
          (cc1_kernel i arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_run_names
  rw [read_writes_whole_cons _ _ hz2, readCov_whole_cons _ hz2,
    readAt_whole_unread harg2 hz2, readAt_whole_unread harg3 hz2]

set_option maxHeartbeats 4000000 in
/-- A middle step: the point's product is added into the accumulator. The bias row and the result buffer are not
    touched. -/
theorem sound_kernel1_B (c : Dev nD) (E : Set ℕ) (i : grid1.Coords)
    (arg2 : Memref sig .tc .vmem S1024x2048 .f32) (harg2 : arg2.IsWhole)
    (arg3 : Memref sig .tc .vmem S2048x256 .f32) (harg3 : arg3.IsWhole)
    (arg4 : Memref sig .tc .vmem S256 .f32) (harg4 : arg4.IsWhole)
    (arg5 : Memref sig .tc .vmem S1024x256 .f32) (harg5 : arg5.IsWhole)
    (arg6 : Memref sig .tc .vmem S1024x256 .f32) (harg6 : arg6.IsWhole)
    (hc0 : ¬ cond1_0 i) (hc1 : ¬ cond1_1 i)
    (x0 : Vec F S1024x2048 .f32) (x1 : Vec F S2048x256 .f32) (xs : Vec F S1024x256 .f32) (K : PUnit → sProp 𝕄) :
    iprop(owns (c : Thread nD τ) arg2 fullShare x0 ∗ owns (c : Thread nD τ) arg3 fullShare x1
        ∗ owns (c : Thread nD τ) arg6 fullShare xs
        ∗ (iprop(owns (c : Thread nD τ) arg2 fullShare x0 ∗ owns (c : Thread nD τ) arg3 fullShare x1
            ∗ owns (c : Thread nD τ) arg6 fullShare (k1_pay2 x0 x1 xs)) -∗ K ⟨⟩))
      ⊢ wp frame (wpE (defs₀ (F := F)) Variants.none c none) E
          (cc1_kernel i arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_run_names
  rw [read_writes_whole_cons _ _ hz2,
    readAt_whole_unread harg2 hz2, readAt_whole_unread harg3 hz2, readAt_whole_unread harg6 hz2]

set_option maxHeartbeats 4000000 in
/-- Last step: the point's product is added into the accumulator, and what the closing payload makes of the new
    accumulator and the bias row is stored into the result buffer, which may hold anything. -/
theorem sound_kernel1_C (c : Dev nD) (E : Set ℕ) (i : grid1.Coords)
    (arg2 : Memref sig .tc .vmem S1024x2048 .f32) (harg2 : arg2.IsWhole)
    (arg3 : Memref sig .tc .vmem S2048x256 .f32) (harg3 : arg3.IsWhole)
    (arg4 : Memref sig .tc .vmem S256 .f32) (harg4 : arg4.IsWhole)
    (arg5 : Memref sig .tc .vmem S1024x256 .f32) (harg5 : arg5.IsWhole)
    (arg6 : Memref sig .tc .vmem S1024x256 .f32) (harg6 : arg6.IsWhole)
    (hc0 : ¬ cond1_0 i) (hc1 : cond1_1 i)
    (x0 : Vec F S1024x2048 .f32) (x1 : Vec F S2048x256 .f32) (x2 : Vec F S256 .f32) (xs : Vec F S1024x256 .f32)
    (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ owns (c : Thread nD τ) arg6 fullShare xs
        ∗ (iprop(owns (c : Thread nD τ) arg2 fullShare x0 ∗ owns (c : Thread nD τ) arg3 fullShare x1
            ∗ owns (c : Thread nD τ) arg4 fullShare x2
            ∗ owns (c : Thread nD τ) arg5 fullShare (k1_pay3 (k1_pay2 x0 x1 xs) x2)
            ∗ owns (c : Thread nD τ) arg6 fullShare (k1_pay2 x0 x1 xs)) -∗ K ⟨⟩))
      ⊢ wp frame (wpE (defs₀ (F := F)) Variants.none c none) E
          (cc1_kernel i arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1
  obtain rfl := harg4.eq_unread hf2; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_run_names
    rw [read_writes_whole_cons _ _ hz2, readCov_whole_cons _ hz2, readAt_whole_unread harg4 hz1,
      readAt_whole_unread harg2 hz2, readAt_whole_unread harg3 hz2, readAt_whole_unread harg6 hz2]
  iexists _; isplitr
  swap; · iexact HS
  ipureintro
  sl_unfold_run_names
  rw [read_writes_whole_cons _ _ hz2,
    readAt_whole_unread harg2 hz2, readAt_whole_unread harg3 hz2, readAt_whole_unread harg6 hz2]

/-! ## What the input windows hold when the body runs -/

/-- The left operand's buffer holds its block at every point. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The right operand's buffer holds its block at every point. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- The bias row's buffer, fetched once, holds the row at every point: the block index never moves. -/
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-! ## The body obligation at a point -/

/-- What the body is handed at point `t`: the invariant, nothing owed, each window's current buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it hands back. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point. The position along the contracted axis, `t mod 4`, selects the case; the invariant lends
    the accumulator — at anything before the first point, at what the point before left afterwards — and takes it
    back at this point's contents; off the last steps the result buffer goes back as it came. -/
theorem sound_body1 (c : Dev nD) (t : Fin cfg1.N) :
    bodyPre1 V c t ⊢ wp frame (wpE (defs₀ (F := F)) Variants.none c none) Set.univ (bodyAt1 t)
      (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) t.isLt from rfl, Phi1_succ, Phi1_castSucc]
  rw [show (dat1 V c).leavesExact 0 t = owns (c : Thread nD τ) (st1_0 t) fullShare ((dat1 V c).after 0 t) from by
      unfold Dat.leavesExact; rw [liveAt1_0 t], after1_0]
  rw [show (dat1 V c).leavesExact 1 t = owns (c : Thread nD τ) (st1_1 t) fullShare ((dat1 V c).after 1 t) from by
      unfold Dat.leavesExact; rw [liveAt1_1 t], after1_1]
  rw [show (dat1 V c).leavesExact 2 t = owns (c : Thread nD τ) (st1_2 t) fullShare ((dat1 V c).after 2 t) from by
      unfold Dat.leavesExact; rw [liveAt1_2 t], after1_2]
  have hN : t.val < 32 := lt_of_lt_of_eq t.isLt (show cfg1.N = 32 from N_1)
  by_cases h0 : t.val % 4 = 0
  · -- first step: the accumulator is reset
    have h3 : ¬ t.val % 4 = 3 := by omega
    rw [Dat.leavesExact_idle (dat1 V c) 3 t (idleAt1_3 t h3) (noFlush1_3 t h3), sc1_reset V c t h0]
    by_cases hz : t.val = 0
    · rw [Phi1_zero V c _ _ hz, PhiA1_eq]
      iintro ⟨⟨⟨HS, HR⟩, Hg⟩, Ho, ⟨%d0, H0⟩, ⟨%d1, H1⟩, ⟨%d2, H2⟩, H3⟩
      iapply (sound_kernel1_A c Set.univ (grid1.coords t) _ _ _ _ _ _ _ _ _ _ ((hcond1_0 t).mpr h0)
        (fun h => h3 ((hcond1_1 t).mp h)) (iblk1 V c 0 t) (iblk1 V c 1 t) _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · rw [Phi1_pos V c _ _ hz]
      iintro ⟨⟨HS, HR, Hg⟩, Ho, ⟨%d0, H0⟩, ⟨%d1, H1⟩, ⟨%d2, H2⟩, H3⟩
      iapply (sound_kernel1_A c Set.univ (grid1.coords t) _ _ _ _ _ _ _ _ _ _ ((hcond1_0 t).mpr h0)
        (fun h => h3 ((hcond1_1 t).mp h)) (iblk1 V c 0 t) (iblk1 V c 1 t) _)
      isplitl [H0]; · iexact H0
      isplitl [H1]; · iexact H1
      isplitl [HS]; · iexists _; iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
  · have hz : t.val ≠ 0 := fun e => h0 (by rw [e])
    rw [Phi1_pos V c _ _ hz]
    by_cases h3 : t.val % 4 = 3
    · -- last step: the result block is stored
      rw [show (dat1 V c).leavesExact 3 t = owns (c : Thread nD τ) (st1_3 t) fullShare ((dat1 V c).after 3 t) from by
          unfold Dat.leavesExact; rw [liveAt1_3 t h3], after1_3]
      unfold out1
      rw [sc1_step V c t h0]
      iintro ⟨⟨HS, HR, Hg⟩, Ho, ⟨%d0, H0⟩, ⟨%d1, H1⟩, ⟨%d2, H2⟩, ⟨%d3, H3⟩⟩
      iapply (sound_kernel1_C c Set.univ (grid1.coords t) _ _ _ _ _ _ _ _ _ _ (fun h => h0 ((hcond1_0 t).mp h))
        ((hcond1_1 t).mpr h3) (iblk1 V c 0 t) (iblk1 V c 1 t) (iblk1 V c 2 t)
        (sc1 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · -- a middle step
      rw [Dat.leavesExact_idle (dat1 V c) 3 t (idleAt1_3 t h3) (noFlush1_3 t h3), sc1_step V c t h0]
      iintro ⟨⟨HS, HR, Hg⟩, Ho, ⟨%d0, H0⟩, ⟨%d1, H1⟩, ⟨%d2, H2⟩, H3⟩
      iapply (sound_kernel1_B c Set.univ (grid1.coords t) _ _ _ _ _ _ _ _ _ _ (fun h => h0 ((hcond1_0 t).mp h))
        (fun h => h3 ((hcond1_1 t).mp h)) (iblk1 V c 0 t) (iblk1 V c 1 t)
        (sc1 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = Phi1 V c 0 (Nat.zero_le _) from rfl, Phi1_zero V c 0 _ rfl]

/-- After the last point the invariant gives the class's back: the accumulator's named contents are forgotten. -/
theorem hout1 (c : Dev nD) : (dat1 V c).Φ (Fin.last cfg1.N) ⊢ (Pipeline.ΦA spec1 c : sProp 𝕄) := by
  have hne : (Fin.last cfg1.N).val ≠ 0 := by
    rw [Fin.val_last]; have : cfg1.N = 32 := N_1; omega
  rw [show (dat1 V c).Φ (Fin.last cfg1.N) = Phi1 V c (Fin.last cfg1.N).val (Nat.le_of_lt_succ (Fin.last cfg1.N).isLt) from rfl,
    Phi1_pos V c _ _ hne, PhiA1_eq]
  iintro ⟨HS, HR, Hg⟩
  isplitr [Hg]
  · isplitl [HS]
    · iexists _; iexact HS
    iexact HR
  iexact Hg

end Cert.Kernel.Hand

end
-- ==== Proof.KB.D2.lean ====
/-
  Region 2 (the hidden layer times the second weight matrix): what the pipeline's proof data say.
  The grid is 8 row blocks by one block of the contracted axis, so every point is both the first and the last step of its
  row block: the body resets the accumulator kept in scratch, adds the product of the point's [1024, 256] block and the
  whole [256, 64] right operand into it, adds the bias row (here all zeros) and stores the row block of the result.
-/
import proofs.«121749_j28346784154172_1_alg».proof.Proof.Gen.Kernel.Launch
import proofs.«121749_j28346784154172_1_alg».proof.Proof.Gen.Kernel.Skeleton
import proofs.«121749_j28346784154172_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator's memref. -/
abbrev scM2 : Memref sig .tc .vmem S1024x64 .f32 := Memref.whole cc2_scratch0

/-- What the accumulator holds after the body at point `t`: the point's product added into zero. -/
def sc2 (c : Dev nD) (t : Fin cfg2.N) : Vec F S1024x64 .f32 :=
  k2_pay2 (iblk2 V c 0 t) (iblk2 V c 1 t) k2_pay1

/-- What the body stores into the result's staging buffer at point `t`. -/
def out2 (c : Dev nD) (t : Fin cfg2.N) : Vec F S1024x64 .f32 :=
  k2_pay3 (sc2 V c t) (iblk2 V c 2 t)

/-- The class's invariant with the accumulator as a memref owned at some contents. -/
theorem PhiA2_eq (c : Dev nD) :
    (Pipeline.ΦA spec2 c : sProp 𝕄)
      = iprop(iprop((∃ d, owns (c : Thread nD τ) scM2 fullShare d)
          ∗ Pipeline.scopedRestBut (Ix := Unit) (Name := ℕ) (U := UR sig nD τ) (Lvl := ℕ) (Val := Elt F) spec2 c [cc2_scratch0])
          ∗ (∃ r, prngReg c r)) := by
  unfold Pipeline.ΦA; rw [scopedRest2_split]; simp only [scM2, owns_whole]; rfl

/-- The proof data of pipeline 2 on core `c`: the arrays as the region finds them; after the body each input's buffer at
    its block and the result's at `out2`; the invariant the scoped buffers that are no staging buffer at any contents and the
    generator register at some state; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 V c t
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2 V c t := by dsimp only [dat2]

end Cert.Kernel.Hand

end
-- ==== Proof.KB.B2.lean ====
/-
  Region 2: the kernel body meets the pipeline's obligation at every grid point.
-/
import proofs.«121749_j28346784154172_1_alg».proof.Proof.Gen.Kernel.Launch
import proofs.«121749_j28346784154172_1_alg».proof.Proof.Gen.Kernel.Skeleton
import proofs.«121749_j28346784154172_1_alg».proof.Proof.Gen.Kernel.Points
import proofs.«121749_j28346784154172_1_alg».proof.Proof.KB.D2
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The body's branch conditions -/

/-- The condition of the body's first `scf.if` (the reset of the accumulator), from the grid coordinates. -/
abbrev cond2_0 (i : grid2.Coords) : Prop := (Scalar.cmpi .ne (Scalar.extui (Scalar.cmpi .eq (BitVec.ofNat 32 (i 1).val) 0#32)) 0#32) = 1#1
/-- It holds at every point: the contracted axis has one block. -/
theorem hcond2_0 : ∀ t : Fin cfg2.N, cond2_0 (grid2.coords t) :=
  (by decide +kernel : ∀ t : Fin grid2.N, cond2_0 (grid2.coords t))

/-- The condition of the body's second `scf.if` (the store of the result block), from the grid coordinates. -/
abbrev cond2_1 (i : grid2.Coords) : Prop := k2_cond2 i = 1#1
/-- It holds at every point. -/
theorem hcond2_1 : ∀ t : Fin cfg2.N, cond2_1 (grid2.coords t) :=
  (by decide +kernel : ∀ t : Fin grid2.N, cond2_1 (grid2.coords t))

/-! ## No window is idle at any point -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel

/-! ## The input windows' buffers hold their blocks -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## Whole-rectangle stores and loads -/

theorem offZ2_a : (![0, 0] : Fin 2 → Nat) = fun _ => 0 := funext fun a => by fin_cases a <;> rfl
theorem offZ2_b : (![0] : Fin 1 → Nat) = fun _ => 0 := funext fun a => by fin_cases a <;> rfl

/-- A load of the whole rectangle, after stores the last of which filled the whole rectangle, reads that store's payload. -/
theorem readCov_last2 {S : Shape} {e : EltTy} {κ : Kind} {sp : Space} (v : View sig κ sp S e)
    {off : Fin S.rank → Nat} (h : off = fun _ => 0) (inb : ∀ a, off a + S.size a ≤ S.size a)
    (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

/-- What a buffer holds after stores the last of which filled the whole rectangle: that store's payload. -/
theorem read_writes_last2 {S : Shape} {e : EltTy} {κ : Kind} {sp : Space} (v : View sig κ sp S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

/-- A load of the whole rectangle of a whole memref reads its contents. -/
theorem readAt_whole2 {S : Shape} {e : EltTy} (m : Memref sig .tc .vmem S e) (hm : m.IsWhole)
    {off : Fin S.rank → Nat} (h : off = fun _ => 0) (inb : ∀ a, off a + S.size a ≤ S.size a) (x : S.Idx → Elt F e) :
    View.readAt (Elt F) m.view (Rect.unit off S.size inb).toLoadRect (hm.unread x) = x := by
  rw [View.readAt_eq_ld, hm.read_unread, View.ld_unit_zero h]

/-! ## The body's triple -/

set_option maxHeartbeats 4000000 in
/-- The kernel body at a point where both conditions hold, on whole staging memrefs — the inputs' at contents `x0 x1 x2`, the
    result's and the accumulator's at anything — runs to the continuation holding the inputs' as they were, the accumulator at
    the product of the first two added into zero, and the result's at that plus the broadcast third. -/
theorem sound_kernel2 (c : Dev nD) (E : Set ℕ) (i : grid2.Coords)
    (arg2 : Memref sig .tc .vmem S1024x256 .f32) (harg2 : arg2.IsWhole)
    (arg3 : Memref sig .tc .vmem S256x64 .f32) (harg3 : arg3.IsWhole)
    (arg4 : Memref sig .tc .vmem S64 .f32) (harg4 : arg4.IsWhole)
    (arg5 : Memref sig .tc .vmem S1024x64 .f32) (harg5 : arg5.IsWhole)
    (arg6 : Memref sig .tc .vmem S1024x64 .f32) (harg6 : arg6.IsWhole)
    (hc0 : cond2_0 i) (hc1 : cond2_1 i)
    (x0 : Vec F S1024x256 .f32) (x1 : Vec F S256x64 .f32) (x2 : Vec F S64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k2_pay3 (k2_pay2 x0 x1 k2_pay1) x2)
            ∗ owns (c : Thread nD τ) arg6 fullShare (k2_pay2 x0 x1 k2_pay1)) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%d5, %f5, -, H5⟩, ⟨%d6, %f6, -, H6⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr
    swap; · iexact H5
    ipureintro
    sl_unfold_run_names
    rw [read_writes_last2 _ _ offZ2_a, readCov_last2 _ offZ2_a, readCov_last2 _ offZ2_a,
      readAt_whole2 _ harg2 offZ2_a, readAt_whole2 _ harg3 offZ2_a, readAt_whole2 _ harg4 offZ2_b]
  iexists _; isplitr
  swap; · iexact H6
  ipureintro
  sl_unfold_run_names
  rw [read_writes_last2 _ _ offZ2_a, readCov_last2 _ offZ2_a,
    readAt_whole2 _ harg2 offZ2_a, readAt_whole2 _ harg3 offZ2_a]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

/-- No window is idle at any point, so each current buffer is left at what the proof data name. -/
theorem leaves2_0 (c : Dev nD) (t : Fin cfg2.N) :
    (dat2 V c).leavesExact 0 t = owns (c : Thread nD τ) (st2_0 t) fullShare (iblk2 V c 0 t) := by
  unfold Dat.leavesExact; rw [liveAt2_0 t, after2_0]
theorem leaves2_1 (c : Dev nD) (t : Fin cfg2.N) :
    (dat2 V c).leavesExact 1 t = owns (c : Thread nD τ) (st2_1 t) fullShare (iblk2 V c 1 t) := by
  unfold Dat.leavesExact; rw [liveAt2_1 t, after2_1]
theorem leaves2_2 (c : Dev nD) (t : Fin cfg2.N) :
    (dat2 V c).leavesExact 2 t = owns (c : Thread nD τ) (st2_2 t) fullShare (iblk2 V c 2 t) := by
  unfold Dat.leavesExact; rw [liveAt2_2 t, after2_2]
theorem leaves2_3 (c : Dev nD) (t : Fin cfg2.N) :
    (dat2 V c).leavesExact 3 t = owns (c : Thread nD τ) (st2_3 t) fullShare (out2 V c t) := by
  unfold Dat.leavesExact; rw [liveAt2_3 t, after2_3]

set_option maxHeartbeats 4000000 in
/-- The body at any point: the inputs' memrefs hold their blocks, both conditions hold, so the kernel's triple applies; the
    invariant hands the body the accumulator at some contents and takes it back at some contents; nothing is owed throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [leaves2_0, leaves2_1, leaves2_2, leaves2_3]
  rw [show (dat2 V c).owesAt () t.succ = (dat2 V c).owesAt () t.castSucc from rfl,
    show (dat2 V c).Φ t.succ = Pipeline.ΦA spec2 c from rfl,
    show (dat2 V c).Φ t.castSucc = Pipeline.ΦA spec2 c from rfl, PhiA2_eq]
  unfold out2 sc2
  iintro ⟨⟨⟨HS, Hrest⟩, Hg⟩, Ho, ⟨%d0, H0⟩, ⟨%d1, H1⟩, ⟨%d2, H2⟩, ⟨%d3, H3⟩⟩
  iapply (sound_kernel2 c Set.univ (grid2.coords t) _ _ _ _ _ _ _ _ _ _ (hcond2_0 t) (hcond2_1 t)
    (iblk2 V c 0 t) (iblk2 V c 1 t) (iblk2 V c 2 t) _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS Hrest Hg]
  · isplitl [HS Hrest]
    · isplitl [HS]; · iexists _; iexact HS
      iexact Hrest
    iexact Hg
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.D3.lean ====
/-
  Region 3 (the second product with the adjacency matrix): what the pipeline's proof data say.
  The grid is 8 row blocks by 4 blocks of the contracted axis. At a point the body adds the product of the point's
  [1024, 2048] block of the left operand and [2048, 64] block of the right operand into a [1024, 64] accumulator kept
  in scratch, which it resets at the first of the four steps; at the fourth it adds the bias row and
  stores the row block of the result.
-/
import proofs.«121749_j28346784154172_1_alg».proof.Proof.Gen.Kernel.Launch
import proofs.«121749_j28346784154172_1_alg».proof.Proof.Gen.Kernel.Skeleton
import proofs.«121749_j28346784154172_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The accumulator's memref. -/
abbrev scM3 : Memref sig .tc .vmem S1024x64 .f32 := Memref.whole cc3_scratch0

/-! ## The accumulator and the result block, point by point -/

/-- What the accumulator holds after the body at position `n`: the point's product added into zero at the first of the
    four steps along the contracted axis, into what the step before left at the others. -/
def sc3 (c : Dev nD) : (n : ℕ) → n < cfg3.N → Vec F S1024x64 .f32
  | 0, hn => k3_pay2 (iblk3 V c 0 ⟨0, hn⟩) (iblk3 V c 1 ⟨0, hn⟩) k3_pay1
  | n + 1, hn =>
    if (n + 1) % 4 = 0 then k3_pay2 (iblk3 V c 0 ⟨n + 1, hn⟩) (iblk3 V c 1 ⟨n + 1, hn⟩) k3_pay1
    else k3_pay2 (iblk3 V c 0 ⟨n + 1, hn⟩) (iblk3 V c 1 ⟨n + 1, hn⟩) (sc3 c n (Nat.lt_of_succ_lt hn))

theorem sc3_reset (c : Dev nD) (t : Fin cfg3.N) (h : t.val % 4 = 0) :
    sc3 V c t.val t.isLt = k3_pay2 (iblk3 V c 0 t) (iblk3 V c 1 t) k3_pay1 := by
  obtain ⟨n, hn⟩ := t
  cases n with
  | zero => rfl
  | succ n => exact if_pos h

theorem sc3_step (c : Dev nD) (t : Fin cfg3.N) (h : ¬ t.val % 4 = 0) :
    sc3 V c t.val t.isLt = k3_pay2 (iblk3 V c 0 t) (iblk3 V c 1 t)
      (sc3 V c (t.val - 1) (Nat.lt_of_le_of_lt (Nat.sub_le _ _) t.isLt)) := by
  obtain ⟨n, hn⟩ := t
  cases n with
  | zero => exact absurd (Nat.zero_mod _) h
  | succ n => exact if_neg h

/-- What the body stores into the result's staging buffer at point `t` (consulted only at the fourth steps, where the
    block is stored and written back). -/
def out3 (c : Dev nD) (t : Fin cfg3.N) : Vec F S1024x64 .f32 :=
  k3_pay3 (sc3 V c t.val t.isLt) (iblk3 V c 2 t)

/-! ## The invariant and the proof data -/

/-- The region's invariant before position `n`: at the start the scoped buffers that are no staging buffer at any contents and
    the generator register at some state; afterwards the same with the accumulator at what the point before left. -/
def Phi3 (c : Dev nD) : (n : ℕ) → n ≤ cfg3.N → sProp 𝕄
  | 0, _ => Pipeline.ΦA spec3 c
  | n + 1, hn => iprop(owns (c : Thread nD τ) scM3 fullShare (sc3 V c n hn)
      ∗ Pipeline.scopedRestBut (Ix := Unit) (Name := ℕ) (U := UR sig nD τ) (Lvl := ℕ) (Val := Elt F) spec3 c [cc3_scratch0]
      ∗ (∃ r, prngReg c r))

theorem Phi3_zero (c : Dev nD) (n : ℕ) (h : n ≤ cfg3.N) (hz : n = 0) : Phi3 V c n h = Pipeline.ΦA spec3 c := by
  subst hz; rfl

theorem Phi3_succ (c : Dev nD) (n : ℕ) (hn : n < cfg3.N) :
    Phi3 V c (n + 1) hn = iprop(owns (c : Thread nD τ) scM3 fullShare (sc3 V c n hn)
      ∗ Pipeline.scopedRestBut (Ix := Unit) (Name := ℕ) (U := UR sig nD τ) (Lvl := ℕ) (Val := Elt F) spec3 c [cc3_scratch0]
      ∗ (∃ r, prngReg c r)) := rfl

theorem Phi3_pos (c : Dev nD) (n : ℕ) (h : n ≤ cfg3.N) (hz : n ≠ 0) :
    Phi3 V c n h = iprop(owns (c : Thread nD τ) scM3 fullShare (sc3 V c (n - 1) (by omega))
      ∗ Pipeline.scopedRestBut (Ix := Unit) (Name := ℕ) (U := UR sig nD τ) (Lvl := ℕ) (Val := Elt F) spec3 c [cc3_scratch0]
      ∗ (∃ r, prngReg c r)) := by
  cases n with
  | zero => exact absurd rfl hz
  | succ n => rfl

/-- The class's invariant with the accumulator as a memref owned at some contents. -/
theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0])
          ∗ (∃ r, prngReg c r)) := by
  unfold Pipeline.ΦA; rw [scopedRest3_split]; simp only [scM3, owns_whole]; rfl

/-- The proof data of pipeline 3 on core `c`: the arrays as the region finds them; after the body each input's buffer at
    its block and the result's at `out3`; the invariant carrying the accumulator; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3 V c t
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3 V c t := by dsimp only [dat3]

theorem Phi3_castSucc (c : Dev nD) (t : Fin cfg3.N) :
    (dat3 V c).Φ t.castSucc = Phi3 V c t.val (Nat.le_of_lt t.isLt) := by
  dsimp only [dat3]; simp only [Fin.coe_castSucc]

end Cert.Kernel.Hand

end
-- ==== Proof.KB.B3.lean ====
/-
  Region 3: the kernel body meets the pipeline's obligation at every grid point.
-/
import proofs.«121749_j28346784154172_1_alg».proof.Proof.Gen.Kernel.Launch
import proofs.«121749_j28346784154172_1_alg».proof.Proof.Gen.Kernel.Skeleton
import proofs.«121749_j28346784154172_1_alg».proof.Proof.Gen.Kernel.Points
import proofs.«121749_j28346784154172_1_alg».proof.Proof.KB.D3
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The two conditions of the body, in closed form over the grid -/

/-- The first conditional's test: the step along the contracted axis is the first. -/
abbrev cond3_0 (i : grid3.Coords) : Prop :=
  (Scalar.cmpi .ne (Scalar.extui (Scalar.cmpi .eq (BitVec.ofNat 32 (i 1).val) 0#32)) 0#32) = 1#1

/-- The second conditional's test: the step along the contracted axis is the last. -/
abbrev cond3_1 (i : grid3.Coords) : Prop := k3_cond2 i = 1#1

theorem hcond3_0 : ∀ t : Fin cfg3.N, cond3_0 (grid3.coords t) ↔ t.val % 4 = 0 :=
  (by decide +kernel : ∀ t : Fin grid3.N, cond3_0 (grid3.coords t) ↔ t.val % 4 = 0)

theorem hcond3_1 : ∀ t : Fin cfg3.N, cond3_1 (grid3.coords t) ↔ t.val % 4 = 3 :=
  (by decide +kernel : ∀ t : Fin grid3.N, cond3_1 (grid3.coords t) ↔ t.val % 4 = 3)

/-- The inputs are live at every point. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- The result window is idle exactly off the last steps, and is written back exactly at them. -/
theorem idleAt3_3 : ∀ t : Fin cfg3.N, ¬ t.val % 4 = 3 → cfg3.idle 3 (grid3.coords t) = true := by decide +kernel
theorem liveAt3_3 : ∀ t : Fin cfg3.N, t.val % 4 = 3 → cfg3.idle 3 (grid3.coords t) = false := by decide +kernel
theorem noFlush3_3 : ∀ t : Fin cfg3.N, ¬ t.val % 4 = 3 → (cfg3.win 3).flush t = false := by decide +kernel

/-! ## Whole-rectangle stores and loads

Every access of the body is through the rectangle of the buffer's own sizes at zero offsets. -/

private theorem hz1 : (![0] : Fin 1 → Nat) = fun _ => 0 := funext fun a => by fin_cases a <;> rfl
private theorem hz2 : (![0, 0] : Fin 2 → Nat) = fun _ => 0 := funext fun a => by fin_cases a <;> rfl

section Whole

variable {Val : EltTy → Type} [∀ e, Nonempty (Val e)] {sg : RefSig} {κ : Kind} {sp : Space} {S : Shape} {e : EltTy}

/-- A store through the whole rectangle, made last, leaves its payload, whatever was stored before it. -/
private theorem read_writes_whole_cons (v : View sg κ sp S e) (f : v.ty.Contents Val) {off : Fin S.rank → Nat}
    (hz : off = fun _ => 0) (inb : ∀ a, off a + S.size a ≤ S.size a) (w : S.Idx → Val e)
    (L : List (View.Piece Val S e)) :
    v.read Val (v.writes Val f (⟨Rect.unit off S.size inb, w⟩ :: L)) = w := by
  rw [View.read_writes_eq_canon _ _ _
      (fun y => ⟨_, List.mem_cons_self, View.mem_set_unit_zero hz inb y⟩),
    View.canon_cons_unit_zero hz]

/-- A load through the whole rectangle right after such a store reads the payload back. -/
private theorem readCov_whole_cons (v : View sg κ sp S e) {off : Fin S.rank → Nat}
    (hz : off = fun _ => 0) (inb : ∀ a, off a + S.size a ≤ S.size a) (w : S.Idx → Val e)
    (L : List (View.Piece Val S e)) :
    v.readCov (⟨Rect.unit off S.size inb, w⟩ :: L) (Rect.unit off S.size inb).toLoadRect = w := by
  unfold View.readCov
  rw [View.readAt_eq_ld, read_writes_whole_cons v _ hz inb w L, View.ld_unit_zero hz]

/-- A load through the whole rectangle of a whole memref reads what the memref reads. -/
private theorem readAt_whole_unread {m : Memref sg κ sp S e} (h : m.IsWhole) {off : Fin S.rank → Nat}
    (hz : off = fun _ => 0) (inb : ∀ a, off a + S.size a ≤ S.size a) (X : S.Idx → Val e) :
    View.readAt Val m.view (Rect.unit off S.size inb).toLoadRect (h.unread X) = X := by
  rw [View.readAt_eq_ld, h.read_unread, View.ld_unit_zero hz]

end Whole

/-! ## The body on any whole memrefs, case by case -/

set_option maxHeartbeats 4000000 in
/-- First step along the contracted axis: the accumulator, at anything, is zeroed and the point's product added
    into the zeros. The bias row and the result buffer are not touched. -/
theorem sound_kernel3_A (c : Dev nD) (E : Set ℕ) (i : grid3.Coords)
    (arg2 : Memref sig .tc .vmem S1024x2048 .f32) (harg2 : arg2.IsWhole)
    (arg3 : Memref sig .tc .vmem S2048x64 .f32) (harg3 : arg3.IsWhole)
    (arg4 : Memref sig .tc .vmem S64 .f32) (harg4 : arg4.IsWhole)
    (arg5 : Memref sig .tc .vmem S1024x64 .f32) (harg5 : arg5.IsWhole)
    (arg6 : Memref sig .tc .vmem S1024x64 .f32) (harg6 : arg6.IsWhole)
    (hc0 : cond3_0 i) (hc1 : ¬ cond3_1 i)
    (x0 : Vec F S1024x2048 .f32) (x1 : Vec F S2048x64 .f32) (K : PUnit → sProp 𝕄) :
    iprop(owns (c : Thread nD τ) arg2 fullShare x0 ∗ owns (c : Thread nD τ) arg3 fullShare x1
        ∗ (∃ d, owns (c : Thread nD τ) arg6 fullShare d)
        ∗ (iprop(owns (c : Thread nD τ) arg2 fullShare x0 ∗ owns (c : Thread nD τ) arg3 fullShare x1
            ∗ owns (c : Thread nD τ) arg6 fullShare (k3_pay2 x0 x1 k3_pay1)) -∗ K ⟨⟩))
      ⊢ wp frame (wpE (defs₀ (F := F)) Variants.none c none) E
          (cc3_kernel i arg2 harg2 arg3 harg3 arg4 harg4 arg5 harg5 arg6 harg6) K := by
  simp only [cc3_kernel_eq_skeleton]; unfold cc3_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_run_names
  rw [read_writes_whole_cons _ _ hz2, readCov_whole_cons _ hz2,
    readAt_whole_unread harg2 hz2, readAt_whole_unread harg3 hz2]

set_option maxHeartbeats 4000000 in
/-- A middle step: the point's product is added into the accumulator. The bias row and the result buffer are not
    touched. -/
theorem sound_kernel3_B (c : Dev nD) (E : Set ℕ) (i : grid3.Coords)
    (arg2 : Memref sig .tc .vmem S1024x2048 .f32) (harg2 : arg2.IsWhole)
    (arg3 : Memref sig .tc .vmem S2048x64 .f32) (harg3 : arg3.IsWhole)
    (arg4 : Memref sig .tc .vmem S64 .f32) (harg4 : arg4.IsWhole)
    (arg5 : Memref sig .tc .vmem S1024x64 .f32) (harg5 : arg5.IsWhole)
    (arg6 : Memref sig .tc .vmem S1024x64 .f32) (harg6 : arg6.IsWhole)
    (hc0 : ¬ cond3_0 i) (hc1 : ¬ cond3_1 i)
    (x0 : Vec F S1024x2048 .f32) (x1 : Vec F S2048x64 .f32) (xs : Vec F S1024x64 .f32) (K : PUnit → sProp 𝕄) :
    iprop(owns (c : Thread nD τ) arg2 fullShare x0 ∗ owns (c : Thread nD τ) arg3 fullShare x1
        ∗ owns (c : Thread nD τ) arg6 fullShare xs
        ∗ (iprop(owns (c : Thread nD τ) arg2 fullShare x0 ∗ owns (c : Thread nD τ) arg3 fullShare x1
            ∗ owns (c : Thread nD τ) arg6 fullShare (k3_pay2 x0 x1 xs)) -∗ K ⟨⟩))
      ⊢ wp frame (wpE (defs₀ (F := F)) Variants.none c none) E
          (cc3_kernel i arg2 harg2 arg3 harg3 arg4 harg4 arg5 harg5 arg6 harg6) K := by
  simp only [cc3_kernel_eq_skeleton]; unfold cc3_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_run_names
  rw [read_writes_whole_cons _ _ hz2,
    readAt_whole_unread harg2 hz2, readAt_whole_unread harg3 hz2, readAt_whole_unread harg6 hz2]

set_option maxHeartbeats 4000000 in
/-- Last step: the point's product is added into the accumulator, and what the closing payload makes of the new
    accumulator and the bias row is stored into the result buffer, which may hold anything. -/
theorem sound_kernel3_C (c : Dev nD) (E : Set ℕ) (i : grid3.Coords)
    (arg2 : Memref sig .tc .vmem S1024x2048 .f32) (harg2 : arg2.IsWhole)
    (arg3 : Memref sig .tc .vmem S2048x64 .f32) (harg3 : arg3.IsWhole)
    (arg4 : Memref sig .tc .vmem S64 .f32) (harg4 : arg4.IsWhole)
    (arg5 : Memref sig .tc .vmem S1024x64 .f32) (harg5 : arg5.IsWhole)
    (arg6 : Memref sig .tc .vmem S1024x64 .f32) (harg6 : arg6.IsWhole)
    (hc0 : ¬ cond3_0 i) (hc1 : cond3_1 i)
    (x0 : Vec F S1024x2048 .f32) (x1 : Vec F S2048x64 .f32) (x2 : Vec F S64 .f32) (xs : Vec F S1024x64 .f32)
    (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ owns (c : Thread nD τ) arg6 fullShare xs
        ∗ (iprop(owns (c : Thread nD τ) arg2 fullShare x0 ∗ owns (c : Thread nD τ) arg3 fullShare x1
            ∗ owns (c : Thread nD τ) arg4 fullShare x2
            ∗ owns (c : Thread nD τ) arg5 fullShare (k3_pay3 (k3_pay2 x0 x1 xs) x2)
            ∗ owns (c : Thread nD τ) arg6 fullShare (k3_pay2 x0 x1 xs)) -∗ K ⟨⟩))
      ⊢ wp frame (wpE (defs₀ (F := F)) Variants.none c none) E
          (cc3_kernel i arg2 harg2 arg3 harg3 arg4 harg4 arg5 harg5 arg6 harg6) K := by
  simp only [cc3_kernel_eq_skeleton]; unfold cc3_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1
  obtain rfl := harg4.eq_unread hf2; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_run_names
    rw [read_writes_whole_cons _ _ hz2, readCov_whole_cons _ hz2, readAt_whole_unread harg4 hz1,
      readAt_whole_unread harg2 hz2, readAt_whole_unread harg3 hz2, readAt_whole_unread harg6 hz2]
  iexists _; isplitr
  swap; · iexact HS
  ipureintro
  sl_unfold_run_names
  rw [read_writes_whole_cons _ _ hz2,
    readAt_whole_unread harg2 hz2, readAt_whole_unread harg3 hz2, readAt_whole_unread harg6 hz2]

/-! ## What the input windows hold when the body runs -/

/-- The left operand's buffer holds its block at every point. -/
theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)

/-- The right operand's buffer holds its block at every point. -/
theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)

/-- The bias row's buffer, fetched once, holds the row at every point: the block index never moves. -/
theorem before3_2 (c : Dev nD) (t : Fin cfg3.N) (d) : (dat3 V c).before 2 t d = iblk3 V c 2 t :=
  ((dat3 V c).before_in_eq_fetched 2 rfl (fun _ => rfl) (fun _ _ _ => rfl)
      (fun t => by rw [after3_2]; unfold Dat.blockOf iblk3; rw [A_eq3]; try rfl) t d).trans
    (by unfold Dat.fetched Dat.blockOf iblk3; rw [A_eq3]; try rfl)

/-! ## The body obligation at a point -/

/-- What the body is handed at point `t`: the invariant, nothing owed, each window's current buffer. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- What it hands back. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4000000 in
/-- The body at any point. The position along the contracted axis, `t mod 4`, selects the case; the invariant lends
    the accumulator — at anything before the first point, at what the point before left afterwards — and takes it
    back at this point's contents; off the last steps the result buffer goes back as it came. -/
theorem sound_body3 (c : Dev nD) (t : Fin cfg3.N) :
    bodyPre3 V c t ⊢ wp frame (wpE (defs₀ (F := F)) Variants.none c none) Set.univ (bodyAt3 t)
      (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = Phi3 V c (t.val + 1) t.isLt from rfl, Phi3_succ, Phi3_castSucc]
  rw [show (dat3 V c).leavesExact 0 t = owns (c : Thread nD τ) (st3_0 t) fullShare ((dat3 V c).after 0 t) from by
      unfold Dat.leavesExact; rw [liveAt3_0 t], after3_0]
  rw [show (dat3 V c).leavesExact 1 t = owns (c : Thread nD τ) (st3_1 t) fullShare ((dat3 V c).after 1 t) from by
      unfold Dat.leavesExact; rw [liveAt3_1 t], after3_1]
  rw [show (dat3 V c).leavesExact 2 t = owns (c : Thread nD τ) (st3_2 t) fullShare ((dat3 V c).after 2 t) from by
      unfold Dat.leavesExact; rw [liveAt3_2 t], after3_2]
  have hN : t.val < 32 := lt_of_lt_of_eq t.isLt (show cfg3.N = 32 from N_3)
  by_cases h0 : t.val % 4 = 0
  · -- first step: the accumulator is reset
    have h3 : ¬ t.val % 4 = 3 := by omega
    rw [Dat.leavesExact_idle (dat3 V c) 3 t (idleAt3_3 t h3) (noFlush3_3 t h3), sc3_reset V c t h0]
    by_cases hz : t.val = 0
    · rw [Phi3_zero V c _ _ hz, PhiA3_eq]
      iintro ⟨⟨⟨HS, HR⟩, Hg⟩, Ho, ⟨%d0, H0⟩, ⟨%d1, H1⟩, ⟨%d2, H2⟩, H3⟩
      iapply (sound_kernel3_A c Set.univ (grid3.coords t) _ _ _ _ _ _ _ _ _ _ ((hcond3_0 t).mpr h0)
        (fun h => h3 ((hcond3_1 t).mp h)) (iblk3 V c 0 t) (iblk3 V c 1 t) _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · rw [Phi3_pos V c _ _ hz]
      iintro ⟨⟨HS, HR, Hg⟩, Ho, ⟨%d0, H0⟩, ⟨%d1, H1⟩, ⟨%d2, H2⟩, H3⟩
      iapply (sound_kernel3_A c Set.univ (grid3.coords t) _ _ _ _ _ _ _ _ _ _ ((hcond3_0 t).mpr h0)
        (fun h => h3 ((hcond3_1 t).mp h)) (iblk3 V c 0 t) (iblk3 V c 1 t) _)
      isplitl [H0]; · iexact H0
      isplitl [H1]; · iexact H1
      isplitl [HS]; · iexists _; iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
  · have hz : t.val ≠ 0 := fun e => h0 (by rw [e])
    rw [Phi3_pos V c _ _ hz]
    by_cases h3 : t.val % 4 = 3
    · -- last step: the result block is stored
      rw [show (dat3 V c).leavesExact 3 t = owns (c : Thread nD τ) (st3_3 t) fullShare ((dat3 V c).after 3 t) from by
          unfold Dat.leavesExact; rw [liveAt3_3 t h3], after3_3]
      unfold out3
      rw [sc3_step V c t h0]
      iintro ⟨⟨HS, HR, Hg⟩, Ho, ⟨%d0, H0⟩, ⟨%d1, H1⟩, ⟨%d2, H2⟩, ⟨%d3, H3⟩⟩
      iapply (sound_kernel3_C c Set.univ (grid3.coords t) _ _ _ _ _ _ _ _ _ _ (fun h => h0 ((hcond3_0 t).mp h))
        ((hcond3_1 t).mpr h3) (iblk3 V c 0 t) (iblk3 V c 1 t) (iblk3 V c 2 t)
        (sc3 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · -- a middle step
      rw [Dat.leavesExact_idle (dat3 V c) 3 t (idleAt3_3 t h3) (noFlush3_3 t h3), sc3_step V c t h0]
      iintro ⟨⟨HS, HR, Hg⟩, Ho, ⟨%d0, H0⟩, ⟨%d1, H1⟩, ⟨%d2, H2⟩, H3⟩
      iapply (sound_kernel3_B c Set.univ (grid3.coords t) _ _ _ _ _ _ _ _ _ _ (fun h => h0 ((hcond3_0 t).mp h))
        (fun h => h3 ((hcond3_1 t).mp h)) (iblk3 V c 0 t) (iblk3 V c 1 t)
        (sc3 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : (Pipeline.ΦA spec3 c : sProp 𝕄) ⊢ (dat3 V c).Φ 0 := by
  rw [show (dat3 V c).Φ 0 = Phi3 V c 0 (Nat.zero_le _) from rfl, Phi3_zero V c 0 _ rfl]

/-- After the last point the invariant gives the class's back: the accumulator's named contents are forgotten. -/
theorem hout3 (c : Dev nD) : (dat3 V c).Φ (Fin.last cfg3.N) ⊢ (Pipeline.ΦA spec3 c : sProp 𝕄) := by
  have hne : (Fin.last cfg3.N).val ≠ 0 := by
    rw [Fin.val_last]; have : cfg3.N = 32 := N_3; omega
  rw [show (dat3 V c).Φ (Fin.last cfg3.N) = Phi3 V c (Fin.last cfg3.N).val (Nat.le_of_lt_succ (Fin.last cfg3.N).isLt) from rfl,
    Phi3_pos V c _ _ hne, PhiA3_eq]
  iintro ⟨HS, HR, Hg⟩
  isplitr [Hg]
  · isplitl [HS]
    · iexists _; iexact HS
    iexact HR
  iexact Hg

end Cert.Kernel.Hand

end
-- ==== Proof.KB.D4.lean ====
/-
  Region 4 (the decoder): what the pipeline's proof data say.
  The grid is 8 by 8 blocks of the [8192, 8192] result. At point (i, j) the body multiplies row block i of the embedding by
  the transpose of row block j of the same embedding and applies the logistic function. Both input windows read ONE array,
  so each holds half of it.
-/
import proofs.«121749_j28346784154172_1_alg».proof.Proof.Gen.Kernel.Launch
import proofs.«121749_j28346784154172_1_alg».proof.Proof.Gen.Kernel.Skeleton
import proofs.«121749_j28346784154172_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- What the body stores into the result's staging buffer at point `t`. -/
def out4 (c : Dev nD) (t : Fin cfg4.N) : Vec F S1024x1024 .f32 :=
  k4_pay1 (iblk4 V c 0 t) (iblk4 V c 1 t)

/-- The proof data of pipeline 4 on core `c`: the arrays as the region finds them; after the body each input's buffer at
    its block and the result's at `out4`; the class's invariant; nothing owed; the two input windows on the one array hold
    its two halves, the result's window the whole of its array. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4 V c t
  Φ _ := Pipeline.ΦA spec4 c
  q w := match w with
    | ⟨0, _⟩ => fullShare.left
    | ⟨1, _⟩ => fullShare.right
    | ⟨2, _⟩ => fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4 V c t := by dsimp only [dat4]

end Cert.Kernel.Hand

end
-- ==== Proof.KB.B4.lean ====
/-
  Region 4: the kernel body meets the pipeline's obligation at every grid point.
-/
import proofs.«121749_j28346784154172_1_alg».proof.Proof.Gen.Kernel.Launch
import proofs.«121749_j28346784154172_1_alg».proof.Proof.Gen.Kernel.Skeleton
import proofs.«121749_j28346784154172_1_alg».proof.Proof.Gen.Kernel.Points
import proofs.«121749_j28346784154172_1_alg».proof.Proof.KB.D4
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What the body finds in its two input buffers -/

/-- Both input windows are uncut and live at every point, and the body leaves each one's block where it found it. So each
    holds its block of the embedding at every point, whether or not the pipeline moved it there: a window not fetched at a
    point has the block index of the point before. Window 0's block index is the row coordinate, constant along a row of
    the grid; window 1's is the column coordinate. -/
theorem before4_0 (c : Dev nD) (t : Fin cfg4.N) (d) : (dat4 V c).before 0 t d = iblk4 V c 0 t := by
  have hkeep : ∀ s, (cfg4.win 0).cut (cfg4.grid.coords s) ((dat4 V c).after 0 s) = (dat4 V c).blockOf 0 s := fun s => by
    rw [after4_0]; unfold Dat.blockOf iblk4; rw [A_eq4]; try rfl
  rw [(dat4 V c).before_in_eq_fetched 0 rfl (fun _ => rfl) (fun _ _ _ => rfl) hkeep t d]
  unfold Dat.fetched Dat.blockOf iblk4; rw [A_eq4]; try rfl

theorem before4_1 (c : Dev nD) (t : Fin cfg4.N) (d) : (dat4 V c).before 1 t d = iblk4 V c 1 t := by
  have hkeep : ∀ s, (cfg4.win 1).cut (cfg4.grid.coords s) ((dat4 V c).after 1 s) = (dat4 V c).blockOf 1 s := fun s => by
    rw [after4_1]; unfold Dat.blockOf iblk4; rw [A_eq4]; try rfl
  rw [(dat4 V c).before_in_eq_fetched 1 rfl (fun _ => rfl) (fun _ _ _ => rfl) hkeep t d]
  unfold Dat.fetched Dat.blockOf iblk4; rw [A_eq4]; try rfl

/-! ## Whole-buffer accesses -/

/-- The two offsets of every access of this body are zero. -/
theorem zeros4 : (![0, 0] : Fin 2 → ℕ) = fun _ => 0 := by funext a; fin_cases a <;> rfl

/-- A load through the rectangle of a buffer's own extents at zero offsets reads the buffer's contents. -/
theorem readAt_whole4 {S : Shape} {e : EltTy} {κ : Kind} {sp : Space} (v : View sig κ sp S e) (f : v.ty.Contents (Elt F))
    {off : Fin S.rank → ℕ} (hz : off = fun _ => 0) (inb : ∀ a, off a + S.size a ≤ S.size a) :
    View.readAt (Elt F) v (Rect.unit off S.size inb).toLoadRect f = v.read (Elt F) f :=
  View.ld_unit_zero hz inb (v.read (Elt F) f)

/-- One store through that rectangle leaves its payload as the buffer's contents, whatever the buffer held: the
    rectangle holds every index, so the payload is what any read finds. -/
theorem read_write_whole4 {S : Shape} {e : EltTy} {κ : Kind} {sp : Space} (v : View sig κ sp S e) (f : v.ty.Contents (Elt F))
    {off : Fin S.rank → ℕ} (hz : off = fun _ => 0) (inb : ∀ a, off a + S.size a ≤ S.size a) (p : S.Idx → Elt F e) :
    v.read (Elt F) (v.writes (Elt F) f [⟨Rect.unit off S.size inb, p⟩]) = p := by
  have hcov : ∀ y : S.Idx, ∃ pc ∈ ([⟨Rect.unit off S.size inb, p⟩] : List (View.Piece (Elt F) S e)), y ∈ pc.1.set :=
    fun y => ⟨_, List.mem_singleton_self _, View.mem_set_unit_zero hz inb y⟩
  rw [View.read_writes_eq_canon v f _ hcov]
  exact View.canon_unit_zero hz inb p

/-! ## The body's triple -/

set_option maxHeartbeats 1000000 in
/-- The decoder's body on three whole buffers, the inputs' reading `x0` and `x1` and the result's holding anything: it
    loads both inputs, multiplies the first by the transpose of the second, applies the logistic function and stores the
    product over the whole result buffer. The inputs are left as read; the result buffer reads `k4_pay1 x0 x1`. -/
theorem sound_kernel4 (c : Dev nD) (E : Set ℕ) (i : grid4.Coords)
    (arg2 : Memref sig .tc .vmem S1024x64 .f32) (harg2 : arg2.IsWhole)
    (arg3 : Memref sig .tc .vmem S1024x64 .f32) (harg3 : arg3.IsWhole)
    (arg4 : Memref sig .tc .vmem S1024x1024 .f32) (harg4 : arg4.IsWhole)
    (x0 x1 : Vec F S1024x64 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (k4_pay1 x0 x1)) -∗ K ⟨⟩))
      ⊢ wp frame (wpE (defs₀ (F := F)) Variants.none c none) E (cc4_kernel i arg2 harg2 arg3 harg3 arg4 harg4) K := by
  simp only [cc4_kernel_eq_skeleton]; unfold cc4_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [read_write_whole4 arg4.view f2 zeros4, readAt_whole4 arg2.view f0 zeros4, readAt_whole4 arg3.view f1 zeros4]

/-! ## The body obligation, at a generic point -/

/-- What the body is called with at point `t`: the invariant, what the core owes, and each window's current staging
    buffer at what the pipeline left in it, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns: the same invariant and debt, each buffer at what the proof data say the body leaves. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point. The two input buffers hold their blocks (`before4_0`, `before4_1`), the result's holds
    something, so the body's triple applies with `x0`, `x1` the blocks, and what it stores is `out4` by definition. The
    invariant is constant in the point and nothing is owed, so both pass through untouched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  unfold out4
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KB.Fold.lean ====
/-
  The buffers' contents at every boundary between @main's items, as a fold from the launch memory: the host stretch
  that makes the two zero bias rows, then the five regions, each of which changes only its own result buffer — to what
  the pipeline's write-backs leave in it. Every argument buffer reaches the end as launched.
-/
import proofs.«121749_j28346784154172_1_alg».proof.Proof.Gen.Kernel.Launch
import proofs.«121749_j28346784154172_1_alg».proof.Proof.Gen.Kernel.Skeleton
import proofs.«121749_j28346784154172_1_alg».proof.Proof.Gen.Kernel.Points
import proofs.«121749_j28346784154172_1_alg».proof.Proof.Gen.Kernel.Regions
import proofs.«121749_j28346784154172_1_alg».proof.Proof.KB.D0
import proofs.«121749_j28346784154172_1_alg».proof.Proof.KB.D1
import proofs.«121749_j28346784154172_1_alg».proof.Proof.KB.D2
import proofs.«121749_j28346784154172_1_alg».proof.Proof.KB.D3
import proofs.«121749_j28346784154172_1_alg».proof.Proof.KB.D4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.StableHlo.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The contents at each boundary -/

/-- Core `c`'s buffers at launch. -/
abbrev W0 (c : Dev nD) : Valuation τ sig (Elt F) := fun b => m (c, b)
/-- After the host stretch (region 0's entry). -/
abbrev W1 (c : Dev nD) : Valuation τ sig (Elt F) := StableHlo.after hostOps0 (W0 m c)
/-- The same read at the TensorCore's references. -/
abbrev V1 (c : Dev nD) (b : Ref sig .tc) : Buf (Elt F) ((c : Thread nD τ).loc b) := W1 m c b
/-- After region 0: `main_v2` at what its write-backs leave. -/
def W2 (c : Dev nD) : Valuation τ sig (Elt F) := Function.update (W1 m c) main_v2 ((dat0 (V1 m) c).arrAt 3 cfg0.N)
abbrev V2 (c : Dev nD) (b : Ref sig .tc) : Buf (Elt F) ((c : Thread nD τ).loc b) := W2 m c b
/-- After region 1: `main_v3` at what its write-backs leave. -/
def W3 (c : Dev nD) : Valuation τ sig (Elt F) := Function.update (W2 m c) main_v3 ((dat1 (V2 m) c).arrAt 3 cfg1.N)
abbrev V3 (c : Dev nD) (b : Ref sig .tc) : Buf (Elt F) ((c : Thread nD τ).loc b) := W3 m c b
/-- After region 2: `main_v4` at what its write-backs leave. -/
def W4 (c : Dev nD) : Valuation τ sig (Elt F) := Function.update (W3 m c) main_v4 ((dat2 (V3 m) c).arrAt 3 cfg2.N)
abbrev V4 (c : Dev nD) (b : Ref sig .tc) : Buf (Elt F) ((c : Thread nD τ).loc b) := W4 m c b
/-- After region 3: `main_v5` at what its write-backs leave. -/
def W5 (c : Dev nD) : Valuation τ sig (Elt F) := Function.update (W4 m c) main_v5 ((dat3 (V4 m) c).arrAt 3 cfg3.N)
abbrev V5 (c : Dev nD) (b : Ref sig .tc) : Buf (Elt F) ((c : Thread nD τ).loc b) := W5 m c b
/-- After region 4: `main_v6` at what its write-backs leave. -/
def W6 (c : Dev nD) : Valuation τ sig (Elt F) := Function.update (W5 m c) main_v6 ((dat4 (V5 m) c).arrAt 2 cfg4.N)
abbrev V6 (c : Dev nD) (b : Ref sig .tc) : Buf (Elt F) ((c : Thread nD τ).loc b) := W6 m c b

/-! ## A region changes its result buffer only -/

theorem W2_self (c : Dev nD) : W2 m c main_v2 = (dat0 (V1 m) c).arrAt 3 cfg0.N := by
  unfold W2; exact Function.update_self ..
theorem W2_of_ne (c : Dev nD) (b : Ref sig .tc) (h : b ≠ main_v2) : W2 m c b = W1 m c b := by
  unfold W2; exact Function.update_of_ne (StableHlo.devRef_ne_of_ne h) ..
theorem W3_self (c : Dev nD) : W3 m c main_v3 = (dat1 (V2 m) c).arrAt 3 cfg1.N := by
  unfold W3; exact Function.update_self ..
theorem W3_of_ne (c : Dev nD) (b : Ref sig .tc) (h : b ≠ main_v3) : W3 m c b = W2 m c b := by
  unfold W3; exact Function.update_of_ne (StableHlo.devRef_ne_of_ne h) ..
theorem W4_self (c : Dev nD) : W4 m c main_v4 = (dat2 (V3 m) c).arrAt 3 cfg2.N := by
  unfold W4; exact Function.update_self ..
theorem W4_of_ne (c : Dev nD) (b : Ref sig .tc) (h : b ≠ main_v4) : W4 m c b = W3 m c b := by
  unfold W4; exact Function.update_of_ne (StableHlo.devRef_ne_of_ne h) ..
theorem W5_self (c : Dev nD) : W5 m c main_v5 = (dat3 (V4 m) c).arrAt 3 cfg3.N := by
  unfold W5; exact Function.update_self ..
theorem W5_of_ne (c : Dev nD) (b : Ref sig .tc) (h : b ≠ main_v5) : W5 m c b = W4 m c b := by
  unfold W5; exact Function.update_of_ne (StableHlo.devRef_ne_of_ne h) ..
theorem W6_self (c : Dev nD) : W6 m c main_v6 = (dat4 (V5 m) c).arrAt 2 cfg4.N := by
  unfold W6; exact Function.update_self ..
theorem W6_of_ne (c : Dev nD) (b : Ref sig .tc) (h : b ≠ main_v6) : W6 m c b = W5 m c b := by
  unfold W6; exact Function.update_of_ne (StableHlo.devRef_ne_of_ne h) ..

/-! ## What the host stretch writes -/

/-- A buffer the host stretch does not write holds its launch contents at region 0's entry. -/
theorem W1_of (c : Dev nD) (r : Ref sig .tc) (h : r ∉ Gen.hostOps0_W) : W1 m c r = m ((c : Thread nD τ).loc r) :=
  Gen.V1_of m c r h

/-- The first zero bias row. -/
theorem W1_main_v0 (c : Dev nD) :
    (V1 m c main_v0 : Vec F S256 .f32) = broadcastInDim S256 ![] bcast_S_S256 (constant (F := F) S_ .f32 0x00000000#32) := by
  show StableHlo.after hostOps0 (fun b => m (c, b)) (Proc.devRef .tc main_v0) = _
  after_results

/-- The second zero bias row. -/
theorem W1_main_v1 (c : Dev nD) :
    (V1 m c main_v1 : Vec F S64 .f32) = broadcastInDim S64 ![] bcast_S_S64 (constant (F := F) S_ .f32 0x00000000#32) := by
  show StableHlo.after hostOps0 (fun b => m (c, b)) (Proc.devRef .tc main_v1) = _
  after_results

/-! ## The arguments end as launched -/

theorem W6_arg (c : Dev nD) (r : Ref sig .tc) (h0 : r ∉ Gen.hostOps0_W) (h2 : r ≠ main_v2) (h3 : r ≠ main_v3) (h4 : r ≠ main_v4)
    (h5 : r ≠ main_v5) (h6 : r ≠ main_v6) : W6 m c r = m ((c : Thread nD τ).loc r) :=
  (W6_of_ne m c r h6).trans <| (W5_of_ne m c r h5).trans <| (W4_of_ne m c r h4).trans <| (W3_of_ne m c r h3).trans <|
    (W2_of_ne m c r h2).trans (W1_of m c r h0)

theorem W6_main_arg0 (c : Dev nD) : W6 m c main_arg0 = m ((c : Thread nD τ).loc main_arg0) :=
  W6_arg m c main_arg0 (by decide) (by decide) (by decide) (by decide) (by decide) (by decide)
theorem W6_main_arg1 (c : Dev nD) : W6 m c main_arg1 = m ((c : Thread nD τ).loc main_arg1) :=
  W6_arg m c main_arg1 (by decide) (by decide) (by decide) (by decide) (by decide) (by decide)
theorem W6_main_arg2 (c : Dev nD) : W6 m c main_arg2 = m ((c : Thread nD τ).loc main_arg2) :=
  W6_arg m c main_arg2 (by decide) (by decide) (by decide) (by decide) (by decide) (by decide)
theorem W6_main_arg3 (c : Dev nD) : W6 m c main_arg3 = m ((c : Thread nD τ).loc main_arg3) :=
  W6_arg m c main_arg3 (by decide) (by decide) (by decide) (by decide) (by decide) (by decide)
theorem W6_main_arg4 (c : Dev nD) : W6 m c main_arg4 = m ((c : Thread nD τ).loc main_arg4) :=
  W6_arg m c main_arg4 (by decide) (by decide) (by decide) (by decide) (by decide) (by decide)
theorem W6_main_arg5 (c : Dev nD) : W6 m c main_arg5 = m ((c : Thread nD τ).loc main_arg5) :=
  W6_arg m c main_arg5 (by decide) (by decide) (by decide) (by decide) (by decide) (by decide)

/-! ## At a region's exit: its arrays hold what the pipeline leaves, every other buffer what it held at entry -/

theorem hF0 (c : Dev nD) (w : Fin cfg0.W) : (dat0 (V1 m) c).arrAt w cfg0.N = V2 m c (Pipeline.arrRef spec0 w) := by
  match w with
  | ⟨0, _⟩ => exact (((dat0 (V1 m) c).arrAt_in 0 rfl _).trans (A_eq0 (V1 m) c 0)).trans (W2_of_ne m c _ (by decide)).symm
  | ⟨1, _⟩ => exact (((dat0 (V1 m) c).arrAt_in 1 rfl _).trans (A_eq0 (V1 m) c 1)).trans (W2_of_ne m c _ (by decide)).symm
  | ⟨2, _⟩ => exact (((dat0 (V1 m) c).arrAt_in 2 rfl _).trans (A_eq0 (V1 m) c 2)).trans (W2_of_ne m c _ (by decide)).symm
  | ⟨3, _⟩ => exact (W2_self m c).symm
theorem hrest0 (c : Dev nD) : ∀ b, b ∉ Finset.univ.image (Pipeline.arrRef spec0) → V2 m c b = V1 m c b :=
  fun b hb => W2_of_ne m c b fun e => hb (Finset.mem_image.mpr ⟨3, Finset.mem_univ _, e.symm⟩)

theorem hF1 (c : Dev nD) (w : Fin cfg1.W) : (dat1 (V2 m) c).arrAt w cfg1.N = V3 m c (Pipeline.arrRef spec1 w) := by
  match w with
  | ⟨0, _⟩ => exact (((dat1 (V2 m) c).arrAt_in 0 rfl _).trans (A_eq1 (V2 m) c 0)).trans (W3_of_ne m c _ (by decide)).symm
  | ⟨1, _⟩ => exact (((dat1 (V2 m) c).arrAt_in 1 rfl _).trans (A_eq1 (V2 m) c 1)).trans (W3_of_ne m c _ (by decide)).symm
  | ⟨2, _⟩ => exact (((dat1 (V2 m) c).arrAt_in 2 rfl _).trans (A_eq1 (V2 m) c 2)).trans (W3_of_ne m c _ (by decide)).symm
  | ⟨3, _⟩ => exact (W3_self m c).symm
theorem hrest1 (c : Dev nD) : ∀ b, b ∉ Finset.univ.image (Pipeline.arrRef spec1) → V3 m c b = V2 m c b :=
  fun b hb => W3_of_ne m c b fun e => hb (Finset.mem_image.mpr ⟨3, Finset.mem_univ _, e.symm⟩)

theorem hF2 (c : Dev nD) (w : Fin cfg2.W) : (dat2 (V3 m) c).arrAt w cfg2.N = V4 m c (Pipeline.arrRef spec2 w) := by
  match w with
  | ⟨0, _⟩ => exact (((dat2 (V3 m) c).arrAt_in 0 rfl _).trans (A_eq2 (V3 m) c 0)).trans (W4_of_ne m c _ (by decide)).symm
  | ⟨1, _⟩ => exact (((dat2 (V3 m) c).arrAt_in 1 rfl _).trans (A_eq2 (V3 m) c 1)).trans (W4_of_ne m c _ (by decide)).symm
  | ⟨2, _⟩ => exact (((dat2 (V3 m) c).arrAt_in 2 rfl _).trans (A_eq2 (V3 m) c 2)).trans (W4_of_ne m c _ (by decide)).symm
  | ⟨3, _⟩ => exact (W4_self m c).symm
theorem hrest2 (c : Dev nD) : ∀ b, b ∉ Finset.univ.image (Pipeline.arrRef spec2) → V4 m c b = V3 m c b :=
  fun b hb => W4_of_ne m c b fun e => hb (Finset.mem_image.mpr ⟨3, Finset.mem_univ _, e.symm⟩)

theorem hF3 (c : Dev nD) (w : Fin cfg3.W) : (dat3 (V4 m) c).arrAt w cfg3.N = V5 m c (Pipeline.arrRef spec3 w) := by
  match w with
  | ⟨0, _⟩ => exact (((dat3 (V4 m) c).arrAt_in 0 rfl _).trans (A_eq3 (V4 m) c 0)).trans (W5_of_ne m c _ (by decide)).symm
  | ⟨1, _⟩ => exact (((dat3 (V4 m) c).arrAt_in 1 rfl _).trans (A_eq3 (V4 m) c 1)).trans (W5_of_ne m c _ (by decide)).symm
  | ⟨2, _⟩ => exact (((dat3 (V4 m) c).arrAt_in 2 rfl _).trans (A_eq3 (V4 m) c 2)).trans (W5_of_ne m c _ (by decide)).symm
  | ⟨3, _⟩ => exact (W5_self m c).symm
theorem hrest3 (c : Dev nD) : ∀ b, b ∉ Finset.univ.image (Pipeline.arrRef spec3) → V5 m c b = V4 m c b :=
  fun b hb => W5_of_ne m c b fun e => hb (Finset.mem_image.mpr ⟨3, Finset.mem_univ _, e.symm⟩)

theorem hF4 (c : Dev nD) (w : Fin cfg4.W) : (dat4 (V5 m) c).arrAt w cfg4.N = V6 m c (Pipeline.arrRef spec4 w) := by
  match w with
  | ⟨0, _⟩ => exact (((dat4 (V5 m) c).arrAt_in 0 rfl _).trans (A_eq4 (V5 m) c 0)).trans (W6_of_ne m c _ (by decide)).symm
  | ⟨1, _⟩ => exact (((dat4 (V5 m) c).arrAt_in 1 rfl _).trans (A_eq4 (V5 m) c 1)).trans (W6_of_ne m c _ (by decide)).symm
  | ⟨2, _⟩ => exact (W6_self m c).symm
theorem hrest4 (c : Dev nD) : ∀ b, b ∉ Finset.univ.image (Pipeline.arrRef spec4) → V6 m c b = V5 m c b :=
  fun b hb => W6_of_ne m c b fun e => hb (Finset.mem_image.mpr ⟨2, Finset.mem_univ _, e.symm⟩)

/-! ## The proof data family and the thread state -/

/-- The prefetched tables' admissible contents: no pipeline has a table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
  | ⟨3, _⟩ => fun c => dat3 (V4 m) c
  | ⟨4, _⟩ => fun c => dat4 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W6 m c) ∗ ∃ r, prngReg c r)

/-! ## What the regions' bodies owe (proved in the regions' own modules) -/

/-- Every region's body obligation at its entry contents, and for the two regions that carry the accumulator across points
    the invariant's two ends. -/
structure Bodies : Prop where
  b0 : ∀ c, BodyObligation (dat0 (F := F) (V1 m) c) (defs₀ (F := F)) Variants.none () Set.univ
  b1 : ∀ c, BodyObligation (dat1 (F := F) (V2 m) c) (defs₀ (F := F)) Variants.none () Set.univ
  in1 : ∀ c, (Pipeline.ΦA spec1 c : sProp 𝕄) ⊢ (dat1 (V2 m) c).Φ 0
  out1 : ∀ c, (dat1 (V2 m) c).Φ (Fin.last cfg1.N) ⊢ (Pipeline.ΦA spec1 c : sProp 𝕄)
  b2 : ∀ c, BodyObligation (dat2 (F := F) (V3 m) c) (defs₀ (F := F)) Variants.none () Set.univ
  b3 : ∀ c, BodyObligation (dat3 (F := F) (V4 m) c) (defs₀ (F := F)) Variants.none () Set.univ
  in3 : ∀ c, (Pipeline.ΦA spec3 c : sProp 𝕄) ⊢ (dat3 (V4 m) c).Φ 0
  out3 : ∀ c, (dat3 (V4 m) c).Φ (Fin.last cfg3.N) ⊢ (Pipeline.ΦA spec3 c : sProp 𝕄)
  b4 : ∀ c, BodyObligation (dat4 (F := F) (V5 m) c) (defs₀ (F := F)) Variants.none () Set.univ

end Cert.Kernel.Hand

end
-- ==== Proof.KB.Seg0.lean ====
/-
  Region 0 as a segment of @main: entered from every unscoped buffer at the contents before it, left at the contents
  after it. Its arrays are split out of the unscoped buffers at entry and put back at what the pipeline leaves at exit;
  the generator register goes into the region's invariant and comes back; nothing is owed; the kernel has no semaphore
  of its own.
-/
import proofs.«121749_j28346784154172_1_alg».proof.Proof.KB.Fold

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 0 over the thread state. -/
def reg0 (hB : Bodies m) : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hB.b0 c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Seg1.lean ====
/-
  Region 1 as a segment of @main: entered from every unscoped buffer at the contents before it, left at the contents
  after it. Its arrays are split out of the unscoped buffers at entry and put back at what the pipeline leaves at exit;
  the generator register goes into the region's invariant, which carries the accumulator from point to point, and comes back; nothing is owed; the kernel has no semaphore
  of its own.
-/
import proofs.«121749_j28346784154172_1_alg».proof.Proof.KB.Fold

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 1 over the thread state. -/
def reg1 (hB : Bodies m) : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (hB.b1 c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm 1).1
        ∗ Pipeline.scopedRest (Pipeline.pin (pcfgs (F := F)) adm 1).spec c) ⊢ (Pipeline.ΦA spec1 c : sProp 𝕄) := by
      unfold Pipeline.ΦA
      iintro ⟨Hp, -, Hr⟩
      isplitl [Hr]; · iexact Hr
      iexact Hp
    exact h.trans (hB.in1 c)
  hout c := by
    rw [Pipeline.ownSems0_none]
    have h : (Pipeline.ΦA spec1 c : sProp 𝕄) ⊢ iprop((∃ r, prngReg c r) ∗ BI.emp
        ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (hB.out1 c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Seg2.lean ====
/-
  Region 2 as a segment of @main: entered from every unscoped buffer at the contents before it, left at the contents
  after it. Its arrays are split out of the unscoped buffers at entry and put back at what the pipeline leaves at exit;
  the generator register goes into the region's invariant and comes back; nothing is owed; the kernel has no semaphore
  of its own.
-/
import proofs.«121749_j28346784154172_1_alg».proof.Proof.KB.Fold

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 2 over the thread state. -/
def reg2 (hB : Bodies m) : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (hB.b2 c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Seg3.lean ====
/-
  Region 3 as a segment of @main: entered from every unscoped buffer at the contents before it, left at the contents
  after it. Its arrays are split out of the unscoped buffers at entry and put back at what the pipeline leaves at exit;
  the generator register goes into the region's invariant, which carries the accumulator from point to point, and comes back; nothing is owed; the kernel has no semaphore
  of its own.
-/
import proofs.«121749_j28346784154172_1_alg».proof.Proof.KB.Fold

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 3 over the thread state. -/
def reg3 (hB : Bodies m) : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (hB.b3 c).loose
  hwaits := Pipeline.hwaits_of_owed_zero _ _ _ _ L lv 3 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec3 c (V4 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 3).pre c (fun _ => fullShare) (adm 3).1
        ∗ Pipeline.scopedRest (Pipeline.pin (pcfgs (F := F)) adm 3).spec c) ⊢ (Pipeline.ΦA spec3 c : sProp 𝕄) := by
      unfold Pipeline.ΦA
      iintro ⟨Hp, -, Hr⟩
      isplitl [Hr]; · iexact Hr
      iexact Hp
    exact h.trans (hB.in3 c)
  hout c := by
    rw [Pipeline.ownSems0_none]
    have h : (Pipeline.ΦA spec3 c : sProp 𝕄) ⊢ iprop((∃ r, prngReg c r) ∗ BI.emp
        ∗ Pipeline.scopedRest (Pipeline.pin (pcfgs (F := F)) adm 3).spec c) := by
      unfold Pipeline.ΦA
      iintro ⟨Hr, Hp⟩
      isplitl [Hp]; · iexact Hp
      isplitr; · iempintro
      iexact Hr
    exact (hB.out3 c).trans h
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V4 m c) (V5 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Seg4.lean ====
/-
  Region 4 as a segment of @main: entered from every unscoped buffer at the contents before it, left at the contents
  after it. Its two input windows read ONE array: at entry that buffer is split into its two halves, one for each window, and at exit the halves are joined again; the result's array is put back at what the pipeline leaves;
  the generator register goes into the region's invariant and comes back; nothing is owed; the kernel has no semaphore
  of its own.
-/
import proofs.«121749_j28346784154172_1_alg».proof.Proof.KB.Fold

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The one array behind two windows -/

/-- A whole buffer held through its view is the buffer held at every index. -/
theorem pointsTo_whole {sp : Space} {S : Shape} {e : EltTy} (c : Dev nD) (M : Memref sig .tc sp S e) (h : M.IsWhole)
    (q : PosShare TreeShare) (f : Buf (Elt F) (M.view.loc (c : Thread nD τ))) :
    ((M.view.loc (c : Thread nD τ)) ↦[M.view.set]{q} f : sProp 𝕄) = ((M.view.loc (c : Thread nD τ)) ↦{q} f) := by
  rw [h.set_eq_univ]

/-- The pipeline's arrays, window by window: the embedding's two halves and the result whole. -/
theorem arrays4_eq (c : Dev nD) (G : (w : Fin cfg4.W) → Buf (Elt F) ((cfg4.win w).arr.view.loc (c : Thread nD τ))) :
    ((pdats m 4 c).arrays G : sProp 𝕄)
      = iprop((((c : Thread nD τ).loc main_v5) ↦{fullShare.left} G 0) ∗ (((c : Thread nD τ).loc main_v5) ↦{fullShare.right} G 1)
          ∗ (((c : Thread nD τ).loc main_v6) ↦{fullShare} G 2)) := by
  unfold Dat.arrays
  refine (bigSep_W4 _).trans ?_
  exact congrArg₂ _ (pointsTo_whole c _ (arr_whole4 0) _ _) (congrArg₂ _ (pointsTo_whole c _ (arr_whole4 1) _ _) (pointsTo_whole c _ (arr_whole4 2) _ _))

/-- The buffers behind the three windows' arrays are two: the embedding and the result. -/
theorem arrRefs4 : (Finset.univ : Finset (Fin 3)).image (Pipeline.arrRef spec4) = {main_v5, main_v6} := by decide

/-- Those two buffers, each whole at the full share. -/
theorem arrBufs4_eq (c : Dev nD) (V : (b : Ref sig .tc) → Buf (Elt F) ((c : Thread nD τ).loc b)) :
    (Pipeline.arrBufs (Ix := Unit) (Name := ℕ) (U := UR sig nD τ) (Lvl := ℕ) spec4 c V : sProp 𝕄)
      = iprop((((c : Thread nD τ).loc main_v5) ↦{fullShare} V main_v5) ∗ (((c : Thread nD τ).loc main_v6) ↦{fullShare} V main_v6)) := by
  unfold Pipeline.arrBufs
  rw [arrRefs4, bigSep_insert (by decide), bigSep_singleton]
  rfl

/-- The two buffers whole are the pipeline's arrays at contents read off them: the embedding, read by two windows, is held
    as its two halves, one for each, and the halves make the whole again. -/
theorem arrays4_iff (c : Dev nD) (V : (b : Ref sig .tc) → Buf (Elt F) ((c : Thread nD τ).loc b))
    (G : (w : Fin cfg4.W) → Buf (Elt F) ((cfg4.win w).arr.view.loc (c : Thread nD τ)))
    (h0 : G 0 = V main_v5) (h1 : G 1 = V main_v5) (h2 : G 2 = V main_v6) :
    (Pipeline.arrBufs (Ix := Unit) (Name := ℕ) (U := UR sig nD τ) (Lvl := ℕ) spec4 c V : sProp 𝕄) ⊣⊢ (pdats m 4 c).arrays G := by
  rw [arrBufs4_eq, arrays4_eq, h0, h1, h2]
  constructor
  · iintro ⟨H5, H6⟩
    ihave H5 := (pointsTo_share (PosShare.mem_left_op_right fullShare)).1 $$ H5
    icases H5 with ⟨Hl, Hr⟩
    isplitl [Hl]; · iexact Hl
    isplitl [Hr] <;> iassumption
  · iintro ⟨Hl, Hr, H6⟩
    isplitl [Hl Hr]
    · iapply (pointsTo_share (PosShare.mem_left_op_right fullShare)).2
      isplitl [Hl] <;> iassumption
    iexact H6

/-- ENTRY, the arrays' part: the core's unscoped buffers at contents `V` are the pipeline's arrays at contents read off
    `V` and the unscoped rest. -/
theorem arrays4_of_unscopedBufs (c : Dev nD) (V : (b : Ref sig .tc) → Buf (Elt F) ((c : Thread nD τ).loc b))
    (G : (w : Fin cfg4.W) → Buf (Elt F) ((cfg4.win w).arr.view.loc (c : Thread nD τ)))
    (hG : ∀ w, G w = V (Pipeline.arrRef spec4 w)) :
    (unscopedBufs (Ix := Unit) (Name := ℕ) (U := UR sig nD τ) (Lvl := ℕ) c V : sProp 𝕄)
      ⊢ iprop((pdats m 4 c).arrays G ∗ Pipeline.unscopedRest (Ix := Unit) (Name := ℕ) (U := UR sig nD τ) (Lvl := ℕ) spec4 c V) := by
  rw [Pipeline.unscopedBufs_split₀ (Pipeline.pin (pcfgs (F := F)) adm) 4 winFacts₀4.arr_unscoped c V]
  exact sep_mono (arrays4_iff m c V G (hG 0) (hG 1) (hG 2)).1 .rfl

/-- EXIT, the arrays' part: the pipeline's arrays at contents `G` and the unscoped rest at `V` are the core's unscoped
    buffers at any contents `V'` that have the arrays at `G` and agree with `V` off them. -/
theorem unscopedBufs_of_arrays4 (c : Dev nD) (V V' : (b : Ref sig .tc) → Buf (Elt F) ((c : Thread nD τ).loc b))
    (G : (w : Fin cfg4.W) → Buf (Elt F) ((cfg4.win w).arr.view.loc (c : Thread nD τ)))
    (hG : ∀ w, G w = V' (Pipeline.arrRef spec4 w))
    (hrest : ∀ b, b ∉ Finset.univ.image (Pipeline.arrRef spec4) → V' b = V b) :
    iprop((pdats m 4 c).arrays G ∗ Pipeline.unscopedRest (Ix := Unit) (Name := ℕ) (U := UR sig nD τ) (Lvl := ℕ) spec4 c V)
      ⊢ (unscopedBufs (Ix := Unit) (Name := ℕ) (U := UR sig nD τ) (Lvl := ℕ) c V' : sProp 𝕄) := by
  rw [Pipeline.unscopedBufs_split₀ (Pipeline.pin (pcfgs (F := F)) adm) 4 winFacts₀4.arr_unscoped c V']
  refine sep_mono (arrays4_iff m c V' G (hG 0) (hG 1) (hG 2)).2 (Entails.of_eq ?_)
  unfold Pipeline.unscopedRest
  exact bigSep_congr fun b hb => by rw [hrest b (Finset.mem_sdiff.mp hb).2]

/-! ## The segment -/

set_option backward.isDefEq.respectTransparency.types false in
/-- Region 4 over the thread state: the last segment, left at the contents the launch reads at the end. -/
def reg4 (hB : Bodies m) : Pipeline.RegionSeg (pcfgs (F := F)) adm (pdats m) () defs₀ 𝒱₀ L lv 4 where
  win := winFacts₀4
  block_pos := block_pos4
  stage_whole := stage_whole4
  K := PEmpty
  osem k := k.elim
  ho := Pipeline.OwnSemFacts.none _
  hbody c := (hB.b4 c).loose
  hwaits := Pipeline.hwaits_of_owed_zero _ _ _ _ L lv 4 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V5 m c)
  hentry c := by
    rw [Pipeline.ownSems0_none]
    have hsplit := arrays4_of_unscopedBufs m c (V5 m c) ((pdats m 4 c).arrAt · 0) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := unscopedBufs_of_arrays4 m c (V5 m c) (V6 m c) ((pdats m 4 c).arrAt · cfg4.N) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Hand

end
-- ==== Proof.KB.Launch.lean ====
/-
  The launch: @main is its host stretch followed by the five regions, each entered from what the one before it left;
  every weakly fair execution terminates, and the final memory holds every unscoped buffer at the last boundary's
  contents. Read at the arguments this is the frame; read at the result it names what the program computes.
-/
import proofs.«121749_j28346784154172_1_alg».proof.Proof.KB.Seg0
import proofs.«121749_j28346784154172_1_alg».proof.Proof.KB.Seg1
import proofs.«121749_j28346784154172_1_alg».proof.Proof.KB.Seg2
import proofs.«121749_j28346784154172_1_alg».proof.Proof.KB.Seg3
import proofs.«121749_j28346784154172_1_alg».proof.Proof.KB.Seg4

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's six segments in order: the host stretch from the launch contents, then a region per pallas_call. -/
abbrev segs (hB : Bodies m) : List (Pipeline.Seg (pcfgs (F := F)) adm (pdats m) () defs₀ 𝒱₀ L lv) :=
  [ .host (hseg hostOps0 hostOps0_sub Gen.hostOps0_fresh (W0 m)),
    .region (reg0 m hB), .region (reg1 m hB), .region (reg2 m hB), .region (reg3 m hB), .region (reg4 m hB) ]

/-- @main is the run of the segments. -/
theorem main_run (hB : Bodies m) (c : Dev nD) : main (F := F) c = Pipeline.Seg.run (segs m hB) :=
  (main_chain c).trans (by chain_rfl)

set_option backward.isDefEq.respectTransparency.types false in
/-- Every weakly fair execution of @main from memory `m` with zero counters terminates, nothing faulting, and the final
    memory holds every unscoped buffer at the last boundary's contents. -/
theorem run_all (hB : Bodies m) : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m hB)
    (fun c Q => by rw [main_run m hB c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- The frame: every argument buffer ends as launched. -/
theorem frame (hB : Bodies m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c)⟩) (run_all m ρ hB)

/-- The run with the result named: the result buffer ends at what region 4's write-backs leave, the arguments as launched. -/
theorem run_value (hB : Bodies m) : θ_run defs (onTc (τ := τ) (main (F := F))) ⟨m, fun _ => 0, ρ⟩ (fun r => ∀ c : Dev nD,
      r.2.mem ((c.tc : Thread nD τ).loc main_v6) = (dat4 (V5 m) c).arrAt 2 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v6 (by decide))).trans (W6_self m c),
     (h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c)⟩) (run_all m ρ hB)

end Cert.Kernel.Hand

end
-- ==== Proof.KB.All.lean ====
/-
  The five regions' bodies meet their obligations, so the launch's three readings hold outright: every unscoped buffer ends
  at the last boundary's contents; the arguments end as launched; the result buffer ends at what region 4's write-backs leave.
-/
import proofs.«121749_j28346784154172_1_alg».proof.Proof.KB.B0
import proofs.«121749_j28346784154172_1_alg».proof.Proof.KB.B1
import proofs.«121749_j28346784154172_1_alg».proof.Proof.KB.B2
import proofs.«121749_j28346784154172_1_alg».proof.Proof.KB.B3
import proofs.«121749_j28346784154172_1_alg».proof.Proof.KB.B4
import proofs.«121749_j28346784154172_1_alg».proof.Proof.KB.Launch

set_option maxRecDepth 16384

noncomputable section

namespace Cert.Kernel.Hand

open Idealize.ShloMosaic Idealize.ShloMosaic.TcCoe
open Idealize.SL Idealize.SL.Sem
open Idealize.ShloMosaic.Pipeline (Dat Cfg Window BodyObligation)
open Cert.Kernel Cert.Kernel.Gen

variable {F : FTy → Type} [FloatOps F]

variable (m : (ℓ : Loc nD τ sig) → Buf (Elt F) ℓ) (ρ : Dev nD → PrngReg)

/-- Every region's body obligation, each at its region's entry contents. -/
theorem bodies : Bodies (F := F) m where
  b0 c := body_obligation0 (V1 m) c
  b1 c := body_obligation1 (V2 m) c
  in1 c := hin1 (V2 m) c
  out1 c := hout1 (V2 m) c
  b2 c := body_obligation2 (V3 m) c
  b3 c := body_obligation3 (V4 m) c
  in3 c := hin3 (V4 m) c
  out3 c := hout3 (V4 m) c
  b4 c := body_obligation4 (V5 m) c

/-- The frame: every weakly fair execution of @main terminates, nothing faulting, and every argument buffer ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame m ρ (bodies m)

/-- The run with the result named. -/
theorem run_value_all : θ_run defs (onTc (τ := τ) (main (F := F))) ⟨m, fun _ => 0, ρ⟩ (fun r => ∀ c : Dev nD,
      r.2.mem ((c.tc : Thread nD τ).loc main_v6) = (dat4 (V5 m) c).arrAt 2 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_value m ρ (bodies m)

end Cert.Kernel.Hand

end
-- ==== Proof.KI.D0.lean ====
/-
  Region 0 (the features times the first weight matrix): what the pipeline's proof data say.
  The grid is 8 row blocks by one block of the contracted axis, so every point is both the first and the last step of its
  row block: the body resets the accumulator kept in scratch, adds the product of the point's [1024, 512] block and the
  whole [512, 256] right operand into it, adds the bias row (here all zeros) and stores the row block of the result.
-/
import proofs.«121749_j28346784154172_1_alg».proof.Proof.Gen.KernelIdeal.Launch
import proofs.«121749_j28346784154172_1_alg».proof.Proof.Gen.KernelIdeal.Skeleton
import proofs.«121749_j28346784154172_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator's memref. -/
abbrev scM0 : Memref sig .tc .vmem S1024x256 .f32 := Memref.whole cc0_scratch0

/-- What the accumulator holds after the body at point `t`: the point's product added into zero. -/
def sc0 (c : Dev nD) (t : Fin cfg0.N) : Vec F S1024x256 .f32 :=
  k0_pay2 (iblk0 V c 0 t) (iblk0 V c 1 t) k0_pay1

/-- What the body stores into the result's staging buffer at point `t`. -/
def out0 (c : Dev nD) (t : Fin cfg0.N) : Vec F S1024x256 .f32 :=
  k0_pay3 (sc0 V c t) (iblk0 V c 2 t)

/-- The class's invariant with the accumulator as a memref owned at some contents. -/
theorem PhiA0_eq (c : Dev nD) :
    (Pipeline.ΦA spec0 c : sProp 𝕄)
      = iprop(iprop((∃ d, owns (c : Thread nD τ) scM0 fullShare d)
          ∗ Pipeline.scopedRestBut (Ix := Unit) (Name := ℕ) (U := UR sig nD τ) (Lvl := ℕ) (Val := Elt F) spec0 c [cc0_scratch0])
          ∗ (∃ r, prngReg c r)) := by
  unfold Pipeline.ΦA; rw [scopedRest0_split]; simp only [scM0, owns_whole]; rfl

/-- The proof data of pipeline 0 on core `c`: the arrays as the region finds them; after the body each input's buffer at
    its block and the result's at `out0`; the invariant the scoped buffers that are no staging buffer at any contents and the
    generator register at some state; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0 V c t := by dsimp only [dat0]

end Cert.KernelIdeal.Hand

end
-- ==== Proof.KI.B0.lean ====
/-
  Region 0: the kernel body meets the pipeline's obligation at every grid point.
-/
import proofs.«121749_j28346784154172_1_alg».proof.Proof.Gen.KernelIdeal.Launch
import proofs.«121749_j28346784154172_1_alg».proof.Proof.Gen.KernelIdeal.Skeleton
import proofs.«121749_j28346784154172_1_alg».proof.Proof.Gen.KernelIdeal.Points
import proofs.«121749_j28346784154172_1_alg».proof.Proof.KI.D0
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The body's branch conditions -/

/-- The condition of the body's first `scf.if` (the reset of the accumulator), from the grid coordinates. -/
abbrev cond0_0 (i : grid0.Coords) : Prop := (Scalar.cmpi .ne (Scalar.extui (Scalar.cmpi .eq (BitVec.ofNat 32 (i 1).val) 0#32)) 0#32) = 1#1
/-- It holds at every point: the contracted axis has one block. -/
theorem hcond0_0 : ∀ t : Fin cfg0.N, cond0_0 (grid0.coords t) :=
  (by decide +kernel : ∀ t : Fin grid0.N, cond0_0 (grid0.coords t))

/-- The condition of the body's second `scf.if` (the store of the result block), from the grid coordinates. -/
abbrev cond0_1 (i : grid0.Coords) : Prop := k0_cond2 i = 1#1
/-- It holds at every point. -/
theorem hcond0_1 : ∀ t : Fin cfg0.N, cond0_1 (grid0.coords t) :=
  (by decide +kernel : ∀ t : Fin grid0.N, cond0_1 (grid0.coords t))

/-! ## No window is idle at any point -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

/-! ## The input windows' buffers hold their blocks -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## Whole-rectangle stores and loads -/

theorem offZ0_a : (![0, 0] : Fin 2 → Nat) = fun _ => 0 := funext fun a => by fin_cases a <;> rfl
theorem offZ0_b : (![0] : Fin 1 → Nat) = fun _ => 0 := funext fun a => by fin_cases a <;> rfl

/-- A load of the whole rectangle, after stores the last of which filled the whole rectangle, reads that store's payload. -/
theorem readCov_last0 {S : Shape} {e : EltTy} {κ : Kind} {sp : Space} (v : View sig κ sp S e)
    {off : Fin S.rank → Nat} (h : off = fun _ => 0) (inb : ∀ a, off a + S.size a ≤ S.size a)
    (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

/-- What a buffer holds after stores the last of which filled the whole rectangle: that store's payload. -/
theorem read_writes_last0 {S : Shape} {e : EltTy} {κ : Kind} {sp : Space} (v : View sig κ sp S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

/-- A load of the whole rectangle of a whole memref reads its contents. -/
theorem readAt_whole0 {S : Shape} {e : EltTy} (m : Memref sig .tc .vmem S e) (hm : m.IsWhole)
    {off : Fin S.rank → Nat} (h : off = fun _ => 0) (inb : ∀ a, off a + S.size a ≤ S.size a) (x : S.Idx → Elt F e) :
    View.readAt (Elt F) m.view (Rect.unit off S.size inb).toLoadRect (hm.unread x) = x := by
  rw [View.readAt_eq_ld, hm.read_unread, View.ld_unit_zero h]

/-! ## The body's triple -/

set_option maxHeartbeats 4000000 in
/-- The kernel body at a point where both conditions hold, on whole staging memrefs — the inputs' at contents `x0 x1 x2`, the
    result's and the accumulator's at anything — runs to the continuation holding the inputs' as they were, the accumulator at
    the product of the first two added into zero, and the result's at that plus the broadcast third. -/
theorem sound_kernel0 (c : Dev nD) (E : Set ℕ) (i : grid0.Coords)
    (arg2 : Memref sig .tc .vmem S1024x512 .f32) (harg2 : arg2.IsWhole)
    (arg3 : Memref sig .tc .vmem S512x256 .f32) (harg3 : arg3.IsWhole)
    (arg4 : Memref sig .tc .vmem S256 .f32) (harg4 : arg4.IsWhole)
    (arg5 : Memref sig .tc .vmem S1024x256 .f32) (harg5 : arg5.IsWhole)
    (arg6 : Memref sig .tc .vmem S1024x256 .f32) (harg6 : arg6.IsWhole)
    (hc0 : cond0_0 i) (hc1 : cond0_1 i)
    (x0 : Vec F S1024x512 .f32) (x1 : Vec F S512x256 .f32) (x2 : Vec F S256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay2 x0 x1 k0_pay1) x2)
            ∗ owns (c : Thread nD τ) arg6 fullShare (k0_pay2 x0 x1 k0_pay1)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%d5, %f5, -, H5⟩, ⟨%d6, %f6, -, H6⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr
    swap; · iexact H5
    ipureintro
    sl_unfold_run_names
    rw [read_writes_last0 _ _ offZ0_a, readCov_last0 _ offZ0_a, readCov_last0 _ offZ0_a,
      readAt_whole0 _ harg2 offZ0_a, readAt_whole0 _ harg3 offZ0_a, readAt_whole0 _ harg4 offZ0_b]
  iexists _; isplitr
  swap; · iexact H6
  ipureintro
  sl_unfold_run_names
  rw [read_writes_last0 _ _ offZ0_a, readCov_last0 _ offZ0_a,
    readAt_whole0 _ harg2 offZ0_a, readAt_whole0 _ harg3 offZ0_a]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

/-- No window is idle at any point, so each current buffer is left at what the proof data name. -/
theorem leaves0_0 (c : Dev nD) (t : Fin cfg0.N) :
    (dat0 V c).leavesExact 0 t = owns (c : Thread nD τ) (st0_0 t) fullShare (iblk0 V c 0 t) := by
  unfold Dat.leavesExact; rw [liveAt0_0 t, after0_0]
theorem leaves0_1 (c : Dev nD) (t : Fin cfg0.N) :
    (dat0 V c).leavesExact 1 t = owns (c : Thread nD τ) (st0_1 t) fullShare (iblk0 V c 1 t) := by
  unfold Dat.leavesExact; rw [liveAt0_1 t, after0_1]
theorem leaves0_2 (c : Dev nD) (t : Fin cfg0.N) :
    (dat0 V c).leavesExact 2 t = owns (c : Thread nD τ) (st0_2 t) fullShare (iblk0 V c 2 t) := by
  unfold Dat.leavesExact; rw [liveAt0_2 t, after0_2]
theorem leaves0_3 (c : Dev nD) (t : Fin cfg0.N) :
    (dat0 V c).leavesExact 3 t = owns (c : Thread nD τ) (st0_3 t) fullShare (out0 V c t) := by
  unfold Dat.leavesExact; rw [liveAt0_3 t, after0_3]

set_option maxHeartbeats 4000000 in
/-- The body at any point: the inputs' memrefs hold their blocks, both conditions hold, so the kernel's triple applies; the
    invariant hands the body the accumulator at some contents and takes it back at some contents; nothing is owed throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [leaves0_0, leaves0_1, leaves0_2, leaves0_3]
  rw [show (dat0 V c).owesAt () t.succ = (dat0 V c).owesAt () t.castSucc from rfl,
    show (dat0 V c).Φ t.succ = Pipeline.ΦA spec0 c from rfl,
    show (dat0 V c).Φ t.castSucc = Pipeline.ΦA spec0 c from rfl, PhiA0_eq]
  unfold out0 sc0
  iintro ⟨⟨⟨HS, Hrest⟩, Hg⟩, Ho, ⟨%d0, H0⟩, ⟨%d1, H1⟩, ⟨%d2, H2⟩, ⟨%d3, H3⟩⟩
  iapply (sound_kernel0 c Set.univ (grid0.coords t) _ _ _ _ _ _ _ _ _ _ (hcond0_0 t) (hcond0_1 t)
    (iblk0 V c 0 t) (iblk0 V c 1 t) (iblk0 V c 2 t) _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS Hrest Hg]
  · isplitl [HS Hrest]
    · isplitl [HS]; · iexists _; iexact HS
      iexact Hrest
    iexact Hg
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.D1.lean ====
/-
  Region 1 (the first product with the adjacency matrix): what the pipeline's proof data say.
  The grid is 8 row blocks by 4 blocks of the contracted axis. At a point the body adds the product of the point's
  [1024, 2048] block of the left operand and [2048, 256] block of the right operand into a [1024, 256] accumulator kept
  in scratch, which it resets at the first of the four steps; at the fourth it adds the bias row, clamps at zero and
  stores the row block of the result.
-/
import proofs.«121749_j28346784154172_1_alg».proof.Proof.Gen.KernelIdeal.Launch
import proofs.«121749_j28346784154172_1_alg».proof.Proof.Gen.KernelIdeal.Skeleton
import proofs.«121749_j28346784154172_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator's memref. -/
abbrev scM1 : Memref sig .tc .vmem S1024x256 .f32 := Memref.whole cc1_scratch0

/-! ## The accumulator and the result block, point by point -/

/-- What the accumulator holds after the body at position `n`: the point's product added into zero at the first of the
    four steps along the contracted axis, into what the step before left at the others. -/
def sc1 (c : Dev nD) : (n : ℕ) → n < cfg1.N → Vec F S1024x256 .f32
  | 0, hn => k1_pay2 (iblk1 V c 0 ⟨0, hn⟩) (iblk1 V c 1 ⟨0, hn⟩) k1_pay1
  | n + 1, hn =>
    if (n + 1) % 4 = 0 then k1_pay2 (iblk1 V c 0 ⟨n + 1, hn⟩) (iblk1 V c 1 ⟨n + 1, hn⟩) k1_pay1
    else k1_pay2 (iblk1 V c 0 ⟨n + 1, hn⟩) (iblk1 V c 1 ⟨n + 1, hn⟩) (sc1 c n (Nat.lt_of_succ_lt hn))

theorem sc1_reset (c : Dev nD) (t : Fin cfg1.N) (h : t.val % 4 = 0) :
    sc1 V c t.val t.isLt = k1_pay2 (iblk1 V c 0 t) (iblk1 V c 1 t) k1_pay1 := by
  obtain ⟨n, hn⟩ := t
  cases n with
  | zero => rfl
  | succ n => exact if_pos h

theorem sc1_step (c : Dev nD) (t : Fin cfg1.N) (h : ¬ t.val % 4 = 0) :
    sc1 V c t.val t.isLt = k1_pay2 (iblk1 V c 0 t) (iblk1 V c 1 t)
      (sc1 V c (t.val - 1) (Nat.lt_of_le_of_lt (Nat.sub_le _ _) t.isLt)) := by
  obtain ⟨n, hn⟩ := t
  cases n with
  | zero => exact absurd (Nat.zero_mod _) h
  | succ n => exact if_neg h

/-- What the body stores into the result's staging buffer at point `t` (consulted only at the fourth steps, where the
    block is stored and written back). -/
def out1 (c : Dev nD) (t : Fin cfg1.N) : Vec F S1024x256 .f32 :=
  k1_pay3 (sc1 V c t.val t.isLt) (iblk1 V c 2 t)

/-! ## The invariant and the proof data -/

/-- The region's invariant before position `n`: at the start the scoped buffers that are no staging buffer at any contents and
    the generator register at some state; afterwards the same with the accumulator at what the point before left. -/
def Phi1 (c : Dev nD) : (n : ℕ) → n ≤ cfg1.N → sProp 𝕄
  | 0, _ => Pipeline.ΦA spec1 c
  | n + 1, hn => iprop(owns (c : Thread nD τ) scM1 fullShare (sc1 V c n hn)
      ∗ Pipeline.scopedRestBut (Ix := Unit) (Name := ℕ) (U := UR sig nD τ) (Lvl := ℕ) (Val := Elt F) spec1 c [cc1_scratch0]
      ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(owns (c : Thread nD τ) scM1 fullShare (sc1 V c n hn)
      ∗ Pipeline.scopedRestBut (Ix := Unit) (Name := ℕ) (U := UR sig nD τ) (Lvl := ℕ) (Val := Elt F) spec1 c [cc1_scratch0]
      ∗ (∃ r, prngReg c r)) := rfl

theorem Phi1_pos (c : Dev nD) (n : ℕ) (h : n ≤ cfg1.N) (hz : n ≠ 0) :
    Phi1 V c n h = iprop(owns (c : Thread nD τ) scM1 fullShare (sc1 V c (n - 1) (by omega))
      ∗ Pipeline.scopedRestBut (Ix := Unit) (Name := ℕ) (U := UR sig nD τ) (Lvl := ℕ) (Val := Elt F) spec1 c [cc1_scratch0]
      ∗ (∃ r, prngReg c r)) := by
  cases n with
  | zero => exact absurd rfl hz
  | succ n => rfl

/-- The class's invariant with the accumulator as a memref owned at some contents. -/
theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0])
          ∗ (∃ r, prngReg c r)) := by
  unfold Pipeline.ΦA; rw [scopedRest1_split]; simp only [scM1, owns_whole]; rfl

/-- The proof data of pipeline 1 on core `c`: the arrays as the region finds them; after the body each input's buffer at
    its block and the result's at `out1`; the invariant carrying the accumulator; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1 V c t := by dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

end Cert.KernelIdeal.Hand

end
-- ==== Proof.KI.B1.lean ====
/-
  Region 1: the kernel body meets the pipeline's obligation at every grid point.
-/
import proofs.«121749_j28346784154172_1_alg».proof.Proof.Gen.KernelIdeal.Launch
import proofs.«121749_j28346784154172_1_alg».proof.Proof.Gen.KernelIdeal.Skeleton
import proofs.«121749_j28346784154172_1_alg».proof.Proof.Gen.KernelIdeal.Points
import proofs.«121749_j28346784154172_1_alg».proof.Proof.KI.D1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The two conditions of the body, in closed form over the grid -/

/-- The first conditional's test: the step along the contracted axis is the first. -/
abbrev cond1_0 (i : grid1.Coords) : Prop :=
  (Scalar.cmpi .ne (Scalar.extui (Scalar.cmpi .eq (BitVec.ofNat 32 (i 1).val) 0#32)) 0#32) = 1#1

/-- The second conditional's test: the step along the contracted axis is the last. -/
abbrev cond1_1 (i : grid1.Coords) : Prop := k1_cond2 i = 1#1

theorem hcond1_0 : ∀ t : Fin cfg1.N, cond1_0 (grid1.coords t) ↔ t.val % 4 = 0 :=
  (by decide +kernel : ∀ t : Fin grid1.N, cond1_0 (grid1.coords t) ↔ t.val % 4 = 0)

theorem hcond1_1 : ∀ t : Fin cfg1.N, cond1_1 (grid1.coords t) ↔ t.val % 4 = 3 :=
  (by decide +kernel : ∀ t : Fin grid1.N, cond1_1 (grid1.coords t) ↔ t.val % 4 = 3)

/-- The inputs are live at every point. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- The result window is idle exactly off the last steps, and is written back exactly at them. -/
theorem idleAt1_3 : ∀ t : Fin cfg1.N, ¬ t.val % 4 = 3 → cfg1.idle 3 (grid1.coords t) = true := by decide +kernel
theorem liveAt1_3 : ∀ t : Fin cfg1.N, t.val % 4 = 3 → cfg1.idle 3 (grid1.coords t) = false := by decide +kernel
theorem noFlush1_3 : ∀ t : Fin cfg1.N, ¬ t.val % 4 = 3 → (cfg1.win 3).flush t = false := by decide +kernel

/-! ## Whole-rectangle stores and loads

Every access of the body is through the rectangle of the buffer's own sizes at zero offsets. -/

private theorem hz1 : (![0] : Fin 1 → Nat) = fun _ => 0 := funext fun a => by fin_cases a <;> rfl
private theorem hz2 : (![0, 0] : Fin 2 → Nat) = fun _ => 0 := funext fun a => by fin_cases a <;> rfl

section Whole

variable {Val : EltTy → Type} [∀ e, Nonempty (Val e)] {sg : RefSig} {κ : Kind} {sp : Space} {S : Shape} {e : EltTy}

/-- A store through the whole rectangle, made last, leaves its payload, whatever was stored before it. -/
private theorem read_writes_whole_cons (v : View sg κ sp S e) (f : v.ty.Contents Val) {off : Fin S.rank → Nat}
    (hz : off = fun _ => 0) (inb : ∀ a, off a + S.size a ≤ S.size a) (w : S.Idx → Val e)
    (L : List (View.Piece Val S e)) :
    v.read Val (v.writes Val f (⟨Rect.unit off S.size inb, w⟩ :: L)) = w := by
  rw [View.read_writes_eq_canon _ _ _
      (fun y => ⟨_, List.mem_cons_self, View.mem_set_unit_zero hz inb y⟩),
    View.canon_cons_unit_zero hz]

/-- A load through the whole rectangle right after such a store reads the payload back. -/
private theorem readCov_whole_cons (v : View sg κ sp S e) {off : Fin S.rank → Nat}
    (hz : off = fun _ => 0) (inb : ∀ a, off a + S.size a ≤ S.size a) (w : S.Idx → Val e)
    (L : List (View.Piece Val S e)) :
    v.readCov (⟨Rect.unit off S.size inb, w⟩ :: L) (Rect.unit off S.size inb).toLoadRect = w := by
  unfold View.readCov
  rw [View.readAt_eq_ld, read_writes_whole_cons v _ hz inb w L, View.ld_unit_zero hz]

/-- A load through the whole rectangle of a whole memref reads what the memref reads. -/
private theorem readAt_whole_unread {m : Memref sg κ sp S e} (h : m.IsWhole) {off : Fin S.rank → Nat}
    (hz : off = fun _ => 0) (inb : ∀ a, off a + S.size a ≤ S.size a) (X : S.Idx → Val e) :
    View.readAt Val m.view (Rect.unit off S.size inb).toLoadRect (h.unread X) = X := by
  rw [View.readAt_eq_ld, h.read_unread, View.ld_unit_zero hz]

end Whole

/-! ## The body on any whole memrefs, case by case -/

set_option maxHeartbeats 4000000 in
/-- First step along the contracted axis: the accumulator, at anything, is zeroed and the point's product added
    into the zeros. The bias row and the result buffer are not touched. -/
theorem sound_kernel1_A (c : Dev nD) (E : Set ℕ) (i : grid1.Coords)
    (arg2 : Memref sig .tc .vmem S1024x2048 .f32) (harg2 : arg2.IsWhole)
    (arg3 : Memref sig .tc .vmem S2048x256 .f32) (harg3 : arg3.IsWhole)
    (arg4 : Memref sig .tc .vmem S256 .f32) (harg4 : arg4.IsWhole)
    (arg5 : Memref sig .tc .vmem S1024x256 .f32) (harg5 : arg5.IsWhole)
    (arg6 : Memref sig .tc .vmem S1024x256 .f32) (harg6 : arg6.IsWhole)
    (hc0 : cond1_0 i) (hc1 : ¬ cond1_1 i)
    (x0 : Vec F S1024x2048 .f32) (x1 : Vec F S2048x256 .f32) (K : PUnit → sProp 𝕄) :
    iprop(owns (c : Thread nD τ) arg2 fullShare x0 ∗ owns (c : Thread nD τ) arg3 fullShare x1
        ∗ (∃ d, owns (c : Thread nD τ) arg6 fullShare d)
        ∗ (iprop(owns (c : Thread nD τ) arg2 fullShare x0 ∗ owns (c : Thread nD τ) arg3 fullShare x1
            ∗ owns (c : Thread nD τ) arg6 fullShare (k1_pay2 x0 x1 k1_pay1)) -∗ K ⟨⟩))
      ⊢ wp frame (wpE (defs₀ (F := F)) Variants.none c none) E
          (cc1_kernel i arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_run_names
  rw [read_writes_whole_cons _ _ hz2, readCov_whole_cons _ hz2,
    readAt_whole_unread harg2 hz2, readAt_whole_unread harg3 hz2]

set_option maxHeartbeats 4000000 in
/-- A middle step: the point's product is added into the accumulator. The bias row and the result buffer are not
    touched. -/
theorem sound_kernel1_B (c : Dev nD) (E : Set ℕ) (i : grid1.Coords)
    (arg2 : Memref sig .tc .vmem S1024x2048 .f32) (harg2 : arg2.IsWhole)
    (arg3 : Memref sig .tc .vmem S2048x256 .f32) (harg3 : arg3.IsWhole)
    (arg4 : Memref sig .tc .vmem S256 .f32) (harg4 : arg4.IsWhole)
    (arg5 : Memref sig .tc .vmem S1024x256 .f32) (harg5 : arg5.IsWhole)
    (arg6 : Memref sig .tc .vmem S1024x256 .f32) (harg6 : arg6.IsWhole)
    (hc0 : ¬ cond1_0 i) (hc1 : ¬ cond1_1 i)
    (x0 : Vec F S1024x2048 .f32) (x1 : Vec F S2048x256 .f32) (xs : Vec F S1024x256 .f32) (K : PUnit → sProp 𝕄) :
    iprop(owns (c : Thread nD τ) arg2 fullShare x0 ∗ owns (c : Thread nD τ) arg3 fullShare x1
        ∗ owns (c : Thread nD τ) arg6 fullShare xs
        ∗ (iprop(owns (c : Thread nD τ) arg2 fullShare x0 ∗ owns (c : Thread nD τ) arg3 fullShare x1
            ∗ owns (c : Thread nD τ) arg6 fullShare (k1_pay2 x0 x1 xs)) -∗ K ⟨⟩))
      ⊢ wp frame (wpE (defs₀ (F := F)) Variants.none c none) E
          (cc1_kernel i arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_run_names
  rw [read_writes_whole_cons _ _ hz2,
    readAt_whole_unread harg2 hz2, readAt_whole_unread harg3 hz2, readAt_whole_unread harg6 hz2]

set_option maxHeartbeats 4000000 in
/-- Last step: the point's product is added into the accumulator, and what the closing payload makes of the new
    accumulator and the bias row is stored into the result buffer, which may hold anything. -/
theorem sound_kernel1_C (c : Dev nD) (E : Set ℕ) (i : grid1.Coords)
    (arg2 : Memref sig .tc .vmem S1024x2048 .f32) (harg2 : arg2.IsWhole)
    (arg3 : Memref sig .tc .vmem S2048x256 .f32) (harg3 : arg3.IsWhole)
    (arg4 : Memref sig .tc .vmem S256 .f32) (harg4 : arg4.IsWhole)
    (arg5 : Memref sig .tc .vmem S1024x256 .f32) (harg5 : arg5.IsWhole)
    (arg6 : Memref sig .tc .vmem S1024x256 .f32) (harg6 : arg6.IsWhole)
    (hc0 : ¬ cond1_0 i) (hc1 : cond1_1 i)
    (x0 : Vec F S1024x2048 .f32) (x1 : Vec F S2048x256 .f32) (x2 : Vec F S256 .f32) (xs : Vec F S1024x256 .f32)
    (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ owns (c : Thread nD τ) arg6 fullShare xs
        ∗ (iprop(owns (c : Thread nD τ) arg2 fullShare x0 ∗ owns (c : Thread nD τ) arg3 fullShare x1
            ∗ owns (c : Thread nD τ) arg4 fullShare x2
            ∗ owns (c : Thread nD τ) arg5 fullShare (k1_pay3 (k1_pay2 x0 x1 xs) x2)
            ∗ owns (c : Thread nD τ) arg6 fullShare (k1_pay2 x0 x1 xs)) -∗ K ⟨⟩))
      ⊢ wp frame (wpE (defs₀ (F := F)) Variants.none c none) E
          (cc1_kernel i arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1
  obtain rfl := harg4.eq_unread hf2; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_run_names
    rw [read_writes_whole_cons _ _ hz2, readCov_whole_cons _ hz2, readAt_whole_unread harg4 hz1,
      readAt_whole_unread harg2 hz2, readAt_whole_unread harg3 hz2, readAt_whole_unread harg6 hz2]
  iexists _; isplitr
  swap; · iexact HS
  ipureintro
  sl_unfold_run_names
  rw [read_writes_whole_cons _ _ hz2,
    readAt_whole_unread harg2 hz2, readAt_whole_unread harg3 hz2, readAt_whole_unread harg6 hz2]

/-! ## What the input windows hold when the body runs -/

/-- The left operand's buffer holds its block at every point. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The right operand's buffer holds its block at every point. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- The bias row's buffer, fetched once, holds the row at every point: the block index never moves. -/
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-! ## The body obligation at a point -/

/-- What the body is handed at point `t`: the invariant, nothing owed, each window's current buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it hands back. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point. The position along the contracted axis, `t mod 4`, selects the case; the invariant lends
    the accumulator — at anything before the first point, at what the point before left afterwards — and takes it
    back at this point's contents; off the last steps the result buffer goes back as it came. -/
theorem sound_body1 (c : Dev nD) (t : Fin cfg1.N) :
    bodyPre1 V c t ⊢ wp frame (wpE (defs₀ (F := F)) Variants.none c none) Set.univ (bodyAt1 t)
      (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) t.isLt from rfl, Phi1_succ, Phi1_castSucc]
  rw [show (dat1 V c).leavesExact 0 t = owns (c : Thread nD τ) (st1_0 t) fullShare ((dat1 V c).after 0 t) from by
      unfold Dat.leavesExact; rw [liveAt1_0 t], after1_0]
  rw [show (dat1 V c).leavesExact 1 t = owns (c : Thread nD τ) (st1_1 t) fullShare ((dat1 V c).after 1 t) from by
      unfold Dat.leavesExact; rw [liveAt1_1 t], after1_1]
  rw [show (dat1 V c).leavesExact 2 t = owns (c : Thread nD τ) (st1_2 t) fullShare ((dat1 V c).after 2 t) from by
      unfold Dat.leavesExact; rw [liveAt1_2 t], after1_2]
  have hN : t.val < 32 := lt_of_lt_of_eq t.isLt (show cfg1.N = 32 from N_1)
  by_cases h0 : t.val % 4 = 0
  · -- first step: the accumulator is reset
    have h3 : ¬ t.val % 4 = 3 := by omega
    rw [Dat.leavesExact_idle (dat1 V c) 3 t (idleAt1_3 t h3) (noFlush1_3 t h3), sc1_reset V c t h0]
    by_cases hz : t.val = 0
    · rw [Phi1_zero V c _ _ hz, PhiA1_eq]
      iintro ⟨⟨⟨HS, HR⟩, Hg⟩, Ho, ⟨%d0, H0⟩, ⟨%d1, H1⟩, ⟨%d2, H2⟩, H3⟩
      iapply (sound_kernel1_A c Set.univ (grid1.coords t) _ _ _ _ _ _ _ _ _ _ ((hcond1_0 t).mpr h0)
        (fun h => h3 ((hcond1_1 t).mp h)) (iblk1 V c 0 t) (iblk1 V c 1 t) _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · rw [Phi1_pos V c _ _ hz]
      iintro ⟨⟨HS, HR, Hg⟩, Ho, ⟨%d0, H0⟩, ⟨%d1, H1⟩, ⟨%d2, H2⟩, H3⟩
      iapply (sound_kernel1_A c Set.univ (grid1.coords t) _ _ _ _ _ _ _ _ _ _ ((hcond1_0 t).mpr h0)
        (fun h => h3 ((hcond1_1 t).mp h)) (iblk1 V c 0 t) (iblk1 V c 1 t) _)
      isplitl [H0]; · iexact H0
      isplitl [H1]; · iexact H1
      isplitl [HS]; · iexists _; iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
  · have hz : t.val ≠ 0 := fun e => h0 (by rw [e])
    rw [Phi1_pos V c _ _ hz]
    by_cases h3 : t.val % 4 = 3
    · -- last step: the result block is stored
      rw [show (dat1 V c).leavesExact 3 t = owns (c : Thread nD τ) (st1_3 t) fullShare ((dat1 V c).after 3 t) from by
          unfold Dat.leavesExact; rw [liveAt1_3 t h3], after1_3]
      unfold out1
      rw [sc1_step V c t h0]
      iintro ⟨⟨HS, HR, Hg⟩, Ho, ⟨%d0, H0⟩, ⟨%d1, H1⟩, ⟨%d2, H2⟩, ⟨%d3, H3⟩⟩
      iapply (sound_kernel1_C c Set.univ (grid1.coords t) _ _ _ _ _ _ _ _ _ _ (fun h => h0 ((hcond1_0 t).mp h))
        ((hcond1_1 t).mpr h3) (iblk1 V c 0 t) (iblk1 V c 1 t) (iblk1 V c 2 t)
        (sc1 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · -- a middle step
      rw [Dat.leavesExact_idle (dat1 V c) 3 t (idleAt1_3 t h3) (noFlush1_3 t h3), sc1_step V c t h0]
      iintro ⟨⟨HS, HR, Hg⟩, Ho, ⟨%d0, H0⟩, ⟨%d1, H1⟩, ⟨%d2, H2⟩, H3⟩
      iapply (sound_kernel1_B c Set.univ (grid1.coords t) _ _ _ _ _ _ _ _ _ _ (fun h => h0 ((hcond1_0 t).mp h))
        (fun h => h3 ((hcond1_1 t).mp h)) (iblk1 V c 0 t) (iblk1 V c 1 t)
        (sc1 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = Phi1 V c 0 (Nat.zero_le _) from rfl, Phi1_zero V c 0 _ rfl]

/-- After the last point the invariant gives the class's back: the accumulator's named contents are forgotten. -/
theorem hout1 (c : Dev nD) : (dat1 V c).Φ (Fin.last cfg1.N) ⊢ (Pipeline.ΦA spec1 c : sProp 𝕄) := by
  have hne : (Fin.last cfg1.N).val ≠ 0 := by
    rw [Fin.val_last]; have : cfg1.N = 32 := N_1; omega
  rw [show (dat1 V c).Φ (Fin.last cfg1.N) = Phi1 V c (Fin.last cfg1.N).val (Nat.le_of_lt_succ (Fin.last cfg1.N).isLt) from rfl,
    Phi1_pos V c _ _ hne, PhiA1_eq]
  iintro ⟨HS, HR, Hg⟩
  isplitr [Hg]
  · isplitl [HS]
    · iexists _; iexact HS
    iexact HR
  iexact Hg

end Cert.KernelIdeal.Hand

end
-- ==== Proof.KI.D2.lean ====
/-
  Region 2 (the hidden layer times the second weight matrix): what the pipeline's proof data say.
  The grid is 8 row blocks by one block of the contracted axis, so every point is both the first and the last step of its
  row block: the body resets the accumulator kept in scratch, adds the product of the point's [1024, 256] block and the
  whole [256, 64] right operand into it, adds the bias row (here all zeros) and stores the row block of the result.
-/
import proofs.«121749_j28346784154172_1_alg».proof.Proof.Gen.KernelIdeal.Launch
import proofs.«121749_j28346784154172_1_alg».proof.Proof.Gen.KernelIdeal.Skeleton
import proofs.«121749_j28346784154172_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator's memref. -/
abbrev scM2 : Memref sig .tc .vmem S1024x64 .f32 := Memref.whole cc2_scratch0

/-- What the accumulator holds after the body at point `t`: the point's product added into zero. -/
def sc2 (c : Dev nD) (t : Fin cfg2.N) : Vec F S1024x64 .f32 :=
  k2_pay2 (iblk2 V c 0 t) (iblk2 V c 1 t) k2_pay1

/-- What the body stores into the result's staging buffer at point `t`. -/
def out2 (c : Dev nD) (t : Fin cfg2.N) : Vec F S1024x64 .f32 :=
  k2_pay3 (sc2 V c t) (iblk2 V c 2 t)

/-- The class's invariant with the accumulator as a memref owned at some contents. -/
theorem PhiA2_eq (c : Dev nD) :
    (Pipeline.ΦA spec2 c : sProp 𝕄)
      = iprop(iprop((∃ d, owns (c : Thread nD τ) scM2 fullShare d)
          ∗ Pipeline.scopedRestBut (Ix := Unit) (Name := ℕ) (U := UR sig nD τ) (Lvl := ℕ) (Val := Elt F) spec2 c [cc2_scratch0])
          ∗ (∃ r, prngReg c r)) := by
  unfold Pipeline.ΦA; rw [scopedRest2_split]; simp only [scM2, owns_whole]; rfl

/-- The proof data of pipeline 2 on core `c`: the arrays as the region finds them; after the body each input's buffer at
    its block and the result's at `out2`; the invariant the scoped buffers that are no staging buffer at any contents and the
    generator register at some state; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 V c t
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2 V c t := by dsimp only [dat2]

end Cert.KernelIdeal.Hand

end
-- ==== Proof.KI.B2.lean ====
/-
  Region 2: the kernel body meets the pipeline's obligation at every grid point.
-/
import proofs.«121749_j28346784154172_1_alg».proof.Proof.Gen.KernelIdeal.Launch
import proofs.«121749_j28346784154172_1_alg».proof.Proof.Gen.KernelIdeal.Skeleton
import proofs.«121749_j28346784154172_1_alg».proof.Proof.Gen.KernelIdeal.Points
import proofs.«121749_j28346784154172_1_alg».proof.Proof.KI.D2
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The body's branch conditions -/

/-- The condition of the body's first `scf.if` (the reset of the accumulator), from the grid coordinates. -/
abbrev cond2_0 (i : grid2.Coords) : Prop := (Scalar.cmpi .ne (Scalar.extui (Scalar.cmpi .eq (BitVec.ofNat 32 (i 1).val) 0#32)) 0#32) = 1#1
/-- It holds at every point: the contracted axis has one block. -/
theorem hcond2_0 : ∀ t : Fin cfg2.N, cond2_0 (grid2.coords t) :=
  (by decide +kernel : ∀ t : Fin grid2.N, cond2_0 (grid2.coords t))

/-- The condition of the body's second `scf.if` (the store of the result block), from the grid coordinates. -/
abbrev cond2_1 (i : grid2.Coords) : Prop := k2_cond2 i = 1#1
/-- It holds at every point. -/
theorem hcond2_1 : ∀ t : Fin cfg2.N, cond2_1 (grid2.coords t) :=
  (by decide +kernel : ∀ t : Fin grid2.N, cond2_1 (grid2.coords t))

/-! ## No window is idle at any point -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel

/-! ## The input windows' buffers hold their blocks -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## Whole-rectangle stores and loads -/

theorem offZ2_a : (![0, 0] : Fin 2 → Nat) = fun _ => 0 := funext fun a => by fin_cases a <;> rfl
theorem offZ2_b : (![0] : Fin 1 → Nat) = fun _ => 0 := funext fun a => by fin_cases a <;> rfl

/-- A load of the whole rectangle, after stores the last of which filled the whole rectangle, reads that store's payload. -/
theorem readCov_last2 {S : Shape} {e : EltTy} {κ : Kind} {sp : Space} (v : View sig κ sp S e)
    {off : Fin S.rank → Nat} (h : off = fun _ => 0) (inb : ∀ a, off a + S.size a ≤ S.size a)
    (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

/-- What a buffer holds after stores the last of which filled the whole rectangle: that store's payload. -/
theorem read_writes_last2 {S : Shape} {e : EltTy} {κ : Kind} {sp : Space} (v : View sig κ sp S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

/-- A load of the whole rectangle of a whole memref reads its contents. -/
theorem readAt_whole2 {S : Shape} {e : EltTy} (m : Memref sig .tc .vmem S e) (hm : m.IsWhole)
    {off : Fin S.rank → Nat} (h : off = fun _ => 0) (inb : ∀ a, off a + S.size a ≤ S.size a) (x : S.Idx → Elt F e) :
    View.readAt (Elt F) m.view (Rect.unit off S.size inb).toLoadRect (hm.unread x) = x := by
  rw [View.readAt_eq_ld, hm.read_unread, View.ld_unit_zero h]

/-! ## The body's triple -/

set_option maxHeartbeats 4000000 in
/-- The kernel body at a point where both conditions hold, on whole staging memrefs — the inputs' at contents `x0 x1 x2`, the
    result's and the accumulator's at anything — runs to the continuation holding the inputs' as they were, the accumulator at
    the product of the first two added into zero, and the result's at that plus the broadcast third. -/
theorem sound_kernel2 (c : Dev nD) (E : Set ℕ) (i : grid2.Coords)
    (arg2 : Memref sig .tc .vmem S1024x256 .f32) (harg2 : arg2.IsWhole)
    (arg3 : Memref sig .tc .vmem S256x64 .f32) (harg3 : arg3.IsWhole)
    (arg4 : Memref sig .tc .vmem S64 .f32) (harg4 : arg4.IsWhole)
    (arg5 : Memref sig .tc .vmem S1024x64 .f32) (harg5 : arg5.IsWhole)
    (arg6 : Memref sig .tc .vmem S1024x64 .f32) (harg6 : arg6.IsWhole)
    (hc0 : cond2_0 i) (hc1 : cond2_1 i)
    (x0 : Vec F S1024x256 .f32) (x1 : Vec F S256x64 .f32) (x2 : Vec F S64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k2_pay3 (k2_pay2 x0 x1 k2_pay1) x2)
            ∗ owns (c : Thread nD τ) arg6 fullShare (k2_pay2 x0 x1 k2_pay1)) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%d5, %f5, -, H5⟩, ⟨%d6, %f6, -, H6⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr
    swap; · iexact H5
    ipureintro
    sl_unfold_run_names
    rw [read_writes_last2 _ _ offZ2_a, readCov_last2 _ offZ2_a, readCov_last2 _ offZ2_a,
      readAt_whole2 _ harg2 offZ2_a, readAt_whole2 _ harg3 offZ2_a, readAt_whole2 _ harg4 offZ2_b]
  iexists _; isplitr
  swap; · iexact H6
  ipureintro
  sl_unfold_run_names
  rw [read_writes_last2 _ _ offZ2_a, readCov_last2 _ offZ2_a,
    readAt_whole2 _ harg2 offZ2_a, readAt_whole2 _ harg3 offZ2_a]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

/-- No window is idle at any point, so each current buffer is left at what the proof data name. -/
theorem leaves2_0 (c : Dev nD) (t : Fin cfg2.N) :
    (dat2 V c).leavesExact 0 t = owns (c : Thread nD τ) (st2_0 t) fullShare (iblk2 V c 0 t) := by
  unfold Dat.leavesExact; rw [liveAt2_0 t, after2_0]
theorem leaves2_1 (c : Dev nD) (t : Fin cfg2.N) :
    (dat2 V c).leavesExact 1 t = owns (c : Thread nD τ) (st2_1 t) fullShare (iblk2 V c 1 t) := by
  unfold Dat.leavesExact; rw [liveAt2_1 t, after2_1]
theorem leaves2_2 (c : Dev nD) (t : Fin cfg2.N) :
    (dat2 V c).leavesExact 2 t = owns (c : Thread nD τ) (st2_2 t) fullShare (iblk2 V c 2 t) := by
  unfold Dat.leavesExact; rw [liveAt2_2 t, after2_2]
theorem leaves2_3 (c : Dev nD) (t : Fin cfg2.N) :
    (dat2 V c).leavesExact 3 t = owns (c : Thread nD τ) (st2_3 t) fullShare (out2 V c t) := by
  unfold Dat.leavesExact; rw [liveAt2_3 t, after2_3]

set_option maxHeartbeats 4000000 in
/-- The body at any point: the inputs' memrefs hold their blocks, both conditions hold, so the kernel's triple applies; the
    invariant hands the body the accumulator at some contents and takes it back at some contents; nothing is owed throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [leaves2_0, leaves2_1, leaves2_2, leaves2_3]
  rw [show (dat2 V c).owesAt () t.succ = (dat2 V c).owesAt () t.castSucc from rfl,
    show (dat2 V c).Φ t.succ = Pipeline.ΦA spec2 c from rfl,
    show (dat2 V c).Φ t.castSucc = Pipeline.ΦA spec2 c from rfl, PhiA2_eq]
  unfold out2 sc2
  iintro ⟨⟨⟨HS, Hrest⟩, Hg⟩, Ho, ⟨%d0, H0⟩, ⟨%d1, H1⟩, ⟨%d2, H2⟩, ⟨%d3, H3⟩⟩
  iapply (sound_kernel2 c Set.univ (grid2.coords t) _ _ _ _ _ _ _ _ _ _ (hcond2_0 t) (hcond2_1 t)
    (iblk2 V c 0 t) (iblk2 V c 1 t) (iblk2 V c 2 t) _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS Hrest Hg]
  · isplitl [HS Hrest]
    · isplitl [HS]; · iexists _; iexact HS
      iexact Hrest
    iexact Hg
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.D3.lean ====
/-
  Region 3 (the second product with the adjacency matrix): what the pipeline's proof data say.
  The grid is 8 row blocks by 4 blocks of the contracted axis. At a point the body adds the product of the point's
  [1024, 2048] block of the left operand and [2048, 64] block of the right operand into a [1024, 64] accumulator kept
  in scratch, which it resets at the first of the four steps; at the fourth it adds the bias row and
  stores the row block of the result.
-/
import proofs.«121749_j28346784154172_1_alg».proof.Proof.Gen.KernelIdeal.Launch
import proofs.«121749_j28346784154172_1_alg».proof.Proof.Gen.KernelIdeal.Skeleton
import proofs.«121749_j28346784154172_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The accumulator's memref. -/
abbrev scM3 : Memref sig .tc .vmem S1024x64 .f32 := Memref.whole cc3_scratch0

/-! ## The accumulator and the result block, point by point -/

/-- What the accumulator holds after the body at position `n`: the point's product added into zero at the first of the
    four steps along the contracted axis, into what the step before left at the others. -/
def sc3 (c : Dev nD) : (n : ℕ) → n < cfg3.N → Vec F S1024x64 .f32
  | 0, hn => k3_pay2 (iblk3 V c 0 ⟨0, hn⟩) (iblk3 V c 1 ⟨0, hn⟩) k3_pay1
  | n + 1, hn =>
    if (n + 1) % 4 = 0 then k3_pay2 (iblk3 V c 0 ⟨n + 1, hn⟩) (iblk3 V c 1 ⟨n + 1, hn⟩) k3_pay1
    else k3_pay2 (iblk3 V c 0 ⟨n + 1, hn⟩) (iblk3 V c 1 ⟨n + 1, hn⟩) (sc3 c n (Nat.lt_of_succ_lt hn))

theorem sc3_reset (c : Dev nD) (t : Fin cfg3.N) (h : t.val % 4 = 0) :
    sc3 V c t.val t.isLt = k3_pay2 (iblk3 V c 0 t) (iblk3 V c 1 t) k3_pay1 := by
  obtain ⟨n, hn⟩ := t
  cases n with
  | zero => rfl
  | succ n => exact if_pos h

theorem sc3_step (c : Dev nD) (t : Fin cfg3.N) (h : ¬ t.val % 4 = 0) :
    sc3 V c t.val t.isLt = k3_pay2 (iblk3 V c 0 t) (iblk3 V c 1 t)
      (sc3 V c (t.val - 1) (Nat.lt_of_le_of_lt (Nat.sub_le _ _) t.isLt)) := by
  obtain ⟨n, hn⟩ := t
  cases n with
  | zero => exact absurd (Nat.zero_mod _) h
  | succ n => exact if_neg h

/-- What the body stores into the result's staging buffer at point `t` (consulted only at the fourth steps, where the
    block is stored and written back). -/
def out3 (c : Dev nD) (t : Fin cfg3.N) : Vec F S1024x64 .f32 :=
  k3_pay3 (sc3 V c t.val t.isLt) (iblk3 V c 2 t)

/-! ## The invariant and the proof data -/

/-- The region's invariant before position `n`: at the start the scoped buffers that are no staging buffer at any contents and
    the generator register at some state; afterwards the same with the accumulator at what the point before left. -/
def Phi3 (c : Dev nD) : (n : ℕ) → n ≤ cfg3.N → sProp 𝕄
  | 0, _ => Pipeline.ΦA spec3 c
  | n + 1, hn => iprop(owns (c : Thread nD τ) scM3 fullShare (sc3 V c n hn)
      ∗ Pipeline.scopedRestBut (Ix := Unit) (Name := ℕ) (U := UR sig nD τ) (Lvl := ℕ) (Val := Elt F) spec3 c [cc3_scratch0]
      ∗ (∃ r, prngReg c r))

theorem Phi3_zero (c : Dev nD) (n : ℕ) (h : n ≤ cfg3.N) (hz : n = 0) : Phi3 V c n h = Pipeline.ΦA spec3 c := by
  subst hz; rfl

theorem Phi3_succ (c : Dev nD) (n : ℕ) (hn : n < cfg3.N) :
    Phi3 V c (n + 1) hn = iprop(owns (c : Thread nD τ) scM3 fullShare (sc3 V c n hn)
      ∗ Pipeline.scopedRestBut (Ix := Unit) (Name := ℕ) (U := UR sig nD τ) (Lvl := ℕ) (Val := Elt F) spec3 c [cc3_scratch0]
      ∗ (∃ r, prngReg c r)) := rfl

theorem Phi3_pos (c : Dev nD) (n : ℕ) (h : n ≤ cfg3.N) (hz : n ≠ 0) :
    Phi3 V c n h = iprop(owns (c : Thread nD τ) scM3 fullShare (sc3 V c (n - 1) (by omega))
      ∗ Pipeline.scopedRestBut (Ix := Unit) (Name := ℕ) (U := UR sig nD τ) (Lvl := ℕ) (Val := Elt F) spec3 c [cc3_scratch0]
      ∗ (∃ r, prngReg c r)) := by
  cases n with
  | zero => exact absurd rfl hz
  | succ n => rfl

/-- The class's invariant with the accumulator as a memref owned at some contents. -/
theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0])
          ∗ (∃ r, prngReg c r)) := by
  unfold Pipeline.ΦA; rw [scopedRest3_split]; simp only [scM3, owns_whole]; rfl

/-- The proof data of pipeline 3 on core `c`: the arrays as the region finds them; after the body each input's buffer at
    its block and the result's at `out3`; the invariant carrying the accumulator; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3 V c t
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3 V c t := by dsimp only [dat3]

theorem Phi3_castSucc (c : Dev nD) (t : Fin cfg3.N) :
    (dat3 V c).Φ t.castSucc = Phi3 V c t.val (Nat.le_of_lt t.isLt) := by
  dsimp only [dat3]; simp only [Fin.coe_castSucc]

end Cert.KernelIdeal.Hand

end
-- ==== Proof.KI.B3.lean ====
/-
  Region 3: the kernel body meets the pipeline's obligation at every grid point.
-/
import proofs.«121749_j28346784154172_1_alg».proof.Proof.Gen.KernelIdeal.Launch
import proofs.«121749_j28346784154172_1_alg».proof.Proof.Gen.KernelIdeal.Skeleton
import proofs.«121749_j28346784154172_1_alg».proof.Proof.Gen.KernelIdeal.Points
import proofs.«121749_j28346784154172_1_alg».proof.Proof.KI.D3
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The two conditions of the body, in closed form over the grid -/

/-- The first conditional's test: the step along the contracted axis is the first. -/
abbrev cond3_0 (i : grid3.Coords) : Prop :=
  (Scalar.cmpi .ne (Scalar.extui (Scalar.cmpi .eq (BitVec.ofNat 32 (i 1).val) 0#32)) 0#32) = 1#1

/-- The second conditional's test: the step along the contracted axis is the last. -/
abbrev cond3_1 (i : grid3.Coords) : Prop := k3_cond2 i = 1#1

theorem hcond3_0 : ∀ t : Fin cfg3.N, cond3_0 (grid3.coords t) ↔ t.val % 4 = 0 :=
  (by decide +kernel : ∀ t : Fin grid3.N, cond3_0 (grid3.coords t) ↔ t.val % 4 = 0)

theorem hcond3_1 : ∀ t : Fin cfg3.N, cond3_1 (grid3.coords t) ↔ t.val % 4 = 3 :=
  (by decide +kernel : ∀ t : Fin grid3.N, cond3_1 (grid3.coords t) ↔ t.val % 4 = 3)

/-- The inputs are live at every point. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- The result window is idle exactly off the last steps, and is written back exactly at them. -/
theorem idleAt3_3 : ∀ t : Fin cfg3.N, ¬ t.val % 4 = 3 → cfg3.idle 3 (grid3.coords t) = true := by decide +kernel
theorem liveAt3_3 : ∀ t : Fin cfg3.N, t.val % 4 = 3 → cfg3.idle 3 (grid3.coords t) = false := by decide +kernel
theorem noFlush3_3 : ∀ t : Fin cfg3.N, ¬ t.val % 4 = 3 → (cfg3.win 3).flush t = false := by decide +kernel

/-! ## Whole-rectangle stores and loads

Every access of the body is through the rectangle of the buffer's own sizes at zero offsets. -/

private theorem hz1 : (![0] : Fin 1 → Nat) = fun _ => 0 := funext fun a => by fin_cases a <;> rfl
private theorem hz2 : (![0, 0] : Fin 2 → Nat) = fun _ => 0 := funext fun a => by fin_cases a <;> rfl

section Whole

variable {Val : EltTy → Type} [∀ e, Nonempty (Val e)] {sg : RefSig} {κ : Kind} {sp : Space} {S : Shape} {e : EltTy}

/-- A store through the whole rectangle, made last, leaves its payload, whatever was stored before it. -/
private theorem read_writes_whole_cons (v : View sg κ sp S e) (f : v.ty.Contents Val) {off : Fin S.rank → Nat}
    (hz : off = fun _ => 0) (inb : ∀ a, off a + S.size a ≤ S.size a) (w : S.Idx → Val e)
    (L : List (View.Piece Val S e)) :
    v.read Val (v.writes Val f (⟨Rect.unit off S.size inb, w⟩ :: L)) = w := by
  rw [View.read_writes_eq_canon _ _ _
      (fun y => ⟨_, List.mem_cons_self, View.mem_set_unit_zero hz inb y⟩),
    View.canon_cons_unit_zero hz]

/-- A load through the whole rectangle right after such a store reads the payload back. -/
private theorem readCov_whole_cons (v : View sg κ sp S e) {off : Fin S.rank → Nat}
    (hz : off = fun _ => 0) (inb : ∀ a, off a + S.size a ≤ S.size a) (w : S.Idx → Val e)
    (L : List (View.Piece Val S e)) :
    v.readCov (⟨Rect.unit off S.size inb, w⟩ :: L) (Rect.unit off S.size inb).toLoadRect = w := by
  unfold View.readCov
  rw [View.readAt_eq_ld, read_writes_whole_cons v _ hz inb w L, View.ld_unit_zero hz]

/-- A load through the whole rectangle of a whole memref reads what the memref reads. -/
private theorem readAt_whole_unread {m : Memref sg κ sp S e} (h : m.IsWhole) {off : Fin S.rank → Nat}
    (hz : off = fun _ => 0) (inb : ∀ a, off a + S.size a ≤ S.size a) (X : S.Idx → Val e) :
    View.readAt Val m.view (Rect.unit off S.size inb).toLoadRect (h.unread X) = X := by
  rw [View.readAt_eq_ld, h.read_unread, View.ld_unit_zero hz]

end Whole

/-! ## The body on any whole memrefs, case by case -/

set_option maxHeartbeats 4000000 in
/-- First step along the contracted axis: the accumulator, at anything, is zeroed and the point's product added
    into the zeros. The bias row and the result buffer are not touched. -/
theorem sound_kernel3_A (c : Dev nD) (E : Set ℕ) (i : grid3.Coords)
    (arg2 : Memref sig .tc .vmem S1024x2048 .f32) (harg2 : arg2.IsWhole)
    (arg3 : Memref sig .tc .vmem S2048x64 .f32) (harg3 : arg3.IsWhole)
    (arg4 : Memref sig .tc .vmem S64 .f32) (harg4 : arg4.IsWhole)
    (arg5 : Memref sig .tc .vmem S1024x64 .f32) (harg5 : arg5.IsWhole)
    (arg6 : Memref sig .tc .vmem S1024x64 .f32) (harg6 : arg6.IsWhole)
    (hc0 : cond3_0 i) (hc1 : ¬ cond3_1 i)
    (x0 : Vec F S1024x2048 .f32) (x1 : Vec F S2048x64 .f32) (K : PUnit → sProp 𝕄) :
    iprop(owns (c : Thread nD τ) arg2 fullShare x0 ∗ owns (c : Thread nD τ) arg3 fullShare x1
        ∗ (∃ d, owns (c : Thread nD τ) arg6 fullShare d)
        ∗ (iprop(owns (c : Thread nD τ) arg2 fullShare x0 ∗ owns (c : Thread nD τ) arg3 fullShare x1
            ∗ owns (c : Thread nD τ) arg6 fullShare (k3_pay2 x0 x1 k3_pay1)) -∗ K ⟨⟩))
      ⊢ wp frame (wpE (defs₀ (F := F)) Variants.none c none) E
          (cc3_kernel i arg2 harg2 arg3 harg3 arg4 harg4 arg5 harg5 arg6 harg6) K := by
  simp only [cc3_kernel_eq_skeleton]; unfold cc3_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_run_names
  rw [read_writes_whole_cons _ _ hz2, readCov_whole_cons _ hz2,
    readAt_whole_unread harg2 hz2, readAt_whole_unread harg3 hz2]

set_option maxHeartbeats 4000000 in
/-- A middle step: the point's product is added into the accumulator. The bias row and the result buffer are not
    touched. -/
theorem sound_kernel3_B (c : Dev nD) (E : Set ℕ) (i : grid3.Coords)
    (arg2 : Memref sig .tc .vmem S1024x2048 .f32) (harg2 : arg2.IsWhole)
    (arg3 : Memref sig .tc .vmem S2048x64 .f32) (harg3 : arg3.IsWhole)
    (arg4 : Memref sig .tc .vmem S64 .f32) (harg4 : arg4.IsWhole)
    (arg5 : Memref sig .tc .vmem S1024x64 .f32) (harg5 : arg5.IsWhole)
    (arg6 : Memref sig .tc .vmem S1024x64 .f32) (harg6 : arg6.IsWhole)
    (hc0 : ¬ cond3_0 i) (hc1 : ¬ cond3_1 i)
    (x0 : Vec F S1024x2048 .f32) (x1 : Vec F S2048x64 .f32) (xs : Vec F S1024x64 .f32) (K : PUnit → sProp 𝕄) :
    iprop(owns (c : Thread nD τ) arg2 fullShare x0 ∗ owns (c : Thread nD τ) arg3 fullShare x1
        ∗ owns (c : Thread nD τ) arg6 fullShare xs
        ∗ (iprop(owns (c : Thread nD τ) arg2 fullShare x0 ∗ owns (c : Thread nD τ) arg3 fullShare x1
            ∗ owns (c : Thread nD τ) arg6 fullShare (k3_pay2 x0 x1 xs)) -∗ K ⟨⟩))
      ⊢ wp frame (wpE (defs₀ (F := F)) Variants.none c none) E
          (cc3_kernel i arg2 harg2 arg3 harg3 arg4 harg4 arg5 harg5 arg6 harg6) K := by
  simp only [cc3_kernel_eq_skeleton]; unfold cc3_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_run_names
  rw [read_writes_whole_cons _ _ hz2,
    readAt_whole_unread harg2 hz2, readAt_whole_unread harg3 hz2, readAt_whole_unread harg6 hz2]

set_option maxHeartbeats 4000000 in
/-- Last step: the point's product is added into the accumulator, and what the closing payload makes of the new
    accumulator and the bias row is stored into the result buffer, which may hold anything. -/
theorem sound_kernel3_C (c : Dev nD) (E : Set ℕ) (i : grid3.Coords)
    (arg2 : Memref sig .tc .vmem S1024x2048 .f32) (harg2 : arg2.IsWhole)
    (arg3 : Memref sig .tc .vmem S2048x64 .f32) (harg3 : arg3.IsWhole)
    (arg4 : Memref sig .tc .vmem S64 .f32) (harg4 : arg4.IsWhole)
    (arg5 : Memref sig .tc .vmem S1024x64 .f32) (harg5 : arg5.IsWhole)
    (arg6 : Memref sig .tc .vmem S1024x64 .f32) (harg6 : arg6.IsWhole)
    (hc0 : ¬ cond3_0 i) (hc1 : cond3_1 i)
    (x0 : Vec F S1024x2048 .f32) (x1 : Vec F S2048x64 .f32) (x2 : Vec F S64 .f32) (xs : Vec F S1024x64 .f32)
    (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ owns (c : Thread nD τ) arg6 fullShare xs
        ∗ (iprop(owns (c : Thread nD τ) arg2 fullShare x0 ∗ owns (c : Thread nD τ) arg3 fullShare x1
            ∗ owns (c : Thread nD τ) arg4 fullShare x2
            ∗ owns (c : Thread nD τ) arg5 fullShare (k3_pay3 (k3_pay2 x0 x1 xs) x2)
            ∗ owns (c : Thread nD τ) arg6 fullShare (k3_pay2 x0 x1 xs)) -∗ K ⟨⟩))
      ⊢ wp frame (wpE (defs₀ (F := F)) Variants.none c none) E
          (cc3_kernel i arg2 harg2 arg3 harg3 arg4 harg4 arg5 harg5 arg6 harg6) K := by
  simp only [cc3_kernel_eq_skeleton]; unfold cc3_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1
  obtain rfl := harg4.eq_unread hf2; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_run_names
    rw [read_writes_whole_cons _ _ hz2, readCov_whole_cons _ hz2, readAt_whole_unread harg4 hz1,
      readAt_whole_unread harg2 hz2, readAt_whole_unread harg3 hz2, readAt_whole_unread harg6 hz2]
  iexists _; isplitr
  swap; · iexact HS
  ipureintro
  sl_unfold_run_names
  rw [read_writes_whole_cons _ _ hz2,
    readAt_whole_unread harg2 hz2, readAt_whole_unread harg3 hz2, readAt_whole_unread harg6 hz2]

/-! ## What the input windows hold when the body runs -/

/-- The left operand's buffer holds its block at every point. -/
theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)

/-- The right operand's buffer holds its block at every point. -/
theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)

/-- The bias row's buffer, fetched once, holds the row at every point: the block index never moves. -/
theorem before3_2 (c : Dev nD) (t : Fin cfg3.N) (d) : (dat3 V c).before 2 t d = iblk3 V c 2 t :=
  ((dat3 V c).before_in_eq_fetched 2 rfl (fun _ => rfl) (fun _ _ _ => rfl)
      (fun t => by rw [after3_2]; unfold Dat.blockOf iblk3; rw [A_eq3]; try rfl) t d).trans
    (by unfold Dat.fetched Dat.blockOf iblk3; rw [A_eq3]; try rfl)

/-! ## The body obligation at a point -/

/-- What the body is handed at point `t`: the invariant, nothing owed, each window's current buffer. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- What it hands back. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4000000 in
/-- The body at any point. The position along the contracted axis, `t mod 4`, selects the case; the invariant lends
    the accumulator — at anything before the first point, at what the point before left afterwards — and takes it
    back at this point's contents; off the last steps the result buffer goes back as it came. -/
theorem sound_body3 (c : Dev nD) (t : Fin cfg3.N) :
    bodyPre3 V c t ⊢ wp frame (wpE (defs₀ (F := F)) Variants.none c none) Set.univ (bodyAt3 t)
      (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = Phi3 V c (t.val + 1) t.isLt from rfl, Phi3_succ, Phi3_castSucc]
  rw [show (dat3 V c).leavesExact 0 t = owns (c : Thread nD τ) (st3_0 t) fullShare ((dat3 V c).after 0 t) from by
      unfold Dat.leavesExact; rw [liveAt3_0 t], after3_0]
  rw [show (dat3 V c).leavesExact 1 t = owns (c : Thread nD τ) (st3_1 t) fullShare ((dat3 V c).after 1 t) from by
      unfold Dat.leavesExact; rw [liveAt3_1 t], after3_1]
  rw [show (dat3 V c).leavesExact 2 t = owns (c : Thread nD τ) (st3_2 t) fullShare ((dat3 V c).after 2 t) from by
      unfold Dat.leavesExact; rw [liveAt3_2 t], after3_2]
  have hN : t.val < 32 := lt_of_lt_of_eq t.isLt (show cfg3.N = 32 from N_3)
  by_cases h0 : t.val % 4 = 0
  · -- first step: the accumulator is reset
    have h3 : ¬ t.val % 4 = 3 := by omega
    rw [Dat.leavesExact_idle (dat3 V c) 3 t (idleAt3_3 t h3) (noFlush3_3 t h3), sc3_reset V c t h0]
    by_cases hz : t.val = 0
    · rw [Phi3_zero V c _ _ hz, PhiA3_eq]
      iintro ⟨⟨⟨HS, HR⟩, Hg⟩, Ho, ⟨%d0, H0⟩, ⟨%d1, H1⟩, ⟨%d2, H2⟩, H3⟩
      iapply (sound_kernel3_A c Set.univ (grid3.coords t) _ _ _ _ _ _ _ _ _ _ ((hcond3_0 t).mpr h0)
        (fun h => h3 ((hcond3_1 t).mp h)) (iblk3 V c 0 t) (iblk3 V c 1 t) _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · rw [Phi3_pos V c _ _ hz]
      iintro ⟨⟨HS, HR, Hg⟩, Ho, ⟨%d0, H0⟩, ⟨%d1, H1⟩, ⟨%d2, H2⟩, H3⟩
      iapply (sound_kernel3_A c Set.univ (grid3.coords t) _ _ _ _ _ _ _ _ _ _ ((hcond3_0 t).mpr h0)
        (fun h => h3 ((hcond3_1 t).mp h)) (iblk3 V c 0 t) (iblk3 V c 1 t) _)
      isplitl [H0]; · iexact H0
      isplitl [H1]; · iexact H1
      isplitl [HS]; · iexists _; iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
  · have hz : t.val ≠ 0 := fun e => h0 (by rw [e])
    rw [Phi3_pos V c _ _ hz]
    by_cases h3 : t.val % 4 = 3
    · -- last step: the result block is stored
      rw [show (dat3 V c).leavesExact 3 t = owns (c : Thread nD τ) (st3_3 t) fullShare ((dat3 V c).after 3 t) from by
          unfold Dat.leavesExact; rw [liveAt3_3 t h3], after3_3]
      unfold out3
      rw [sc3_step V c t h0]
      iintro ⟨⟨HS, HR, Hg⟩, Ho, ⟨%d0, H0⟩, ⟨%d1, H1⟩, ⟨%d2, H2⟩, ⟨%d3, H3⟩⟩
      iapply (sound_kernel3_C c Set.univ (grid3.coords t) _ _ _ _ _ _ _ _ _ _ (fun h => h0 ((hcond3_0 t).mp h))
        ((hcond3_1 t).mpr h3) (iblk3 V c 0 t) (iblk3 V c 1 t) (iblk3 V c 2 t)
        (sc3 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · -- a middle step
      rw [Dat.leavesExact_idle (dat3 V c) 3 t (idleAt3_3 t h3) (noFlush3_3 t h3), sc3_step V c t h0]
      iintro ⟨⟨HS, HR, Hg⟩, Ho, ⟨%d0, H0⟩, ⟨%d1, H1⟩, ⟨%d2, H2⟩, H3⟩
      iapply (sound_kernel3_B c Set.univ (grid3.coords t) _ _ _ _ _ _ _ _ _ _ (fun h => h0 ((hcond3_0 t).mp h))
        (fun h => h3 ((hcond3_1 t).mp h)) (iblk3 V c 0 t) (iblk3 V c 1 t)
        (sc3 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : (Pipeline.ΦA spec3 c : sProp 𝕄) ⊢ (dat3 V c).Φ 0 := by
  rw [show (dat3 V c).Φ 0 = Phi3 V c 0 (Nat.zero_le _) from rfl, Phi3_zero V c 0 _ rfl]

/-- After the last point the invariant gives the class's back: the accumulator's named contents are forgotten. -/
theorem hout3 (c : Dev nD) : (dat3 V c).Φ (Fin.last cfg3.N) ⊢ (Pipeline.ΦA spec3 c : sProp 𝕄) := by
  have hne : (Fin.last cfg3.N).val ≠ 0 := by
    rw [Fin.val_last]; have : cfg3.N = 32 := N_3; omega
  rw [show (dat3 V c).Φ (Fin.last cfg3.N) = Phi3 V c (Fin.last cfg3.N).val (Nat.le_of_lt_succ (Fin.last cfg3.N).isLt) from rfl,
    Phi3_pos V c _ _ hne, PhiA3_eq]
  iintro ⟨HS, HR, Hg⟩
  isplitr [Hg]
  · isplitl [HS]
    · iexists _; iexact HS
    iexact HR
  iexact Hg

end Cert.KernelIdeal.Hand

end
-- ==== Proof.KI.D4.lean ====
/-
  Region 4 (the decoder): what the pipeline's proof data say.
  The grid is 8 by 8 blocks of the [8192, 8192] result. At point (i, j) the body multiplies row block i of the embedding by
  the transpose of row block j of the same embedding and applies the logistic function. Both input windows read ONE array,
  so each holds half of it.
-/
import proofs.«121749_j28346784154172_1_alg».proof.Proof.Gen.KernelIdeal.Launch
import proofs.«121749_j28346784154172_1_alg».proof.Proof.Gen.KernelIdeal.Skeleton
import proofs.«121749_j28346784154172_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- What the body stores into the result's staging buffer at point `t`. -/
def out4 (c : Dev nD) (t : Fin cfg4.N) : Vec F S1024x1024 .f32 :=
  k4_pay1 (iblk4 V c 0 t) (iblk4 V c 1 t)

/-- The proof data of pipeline 4 on core `c`: the arrays as the region finds them; after the body each input's buffer at
    its block and the result's at `out4`; the class's invariant; nothing owed; the two input windows on the one array hold
    its two halves, the result's window the whole of its array. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4 V c t
  Φ _ := Pipeline.ΦA spec4 c
  q w := match w with
    | ⟨0, _⟩ => fullShare.left
    | ⟨1, _⟩ => fullShare.right
    | ⟨2, _⟩ => fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4 V c t := by dsimp only [dat4]

end Cert.KernelIdeal.Hand

end
-- ==== Proof.KI.B4.lean ====
/-
  Region 4: the kernel body meets the pipeline's obligation at every grid point.
-/
import proofs.«121749_j28346784154172_1_alg».proof.Proof.Gen.KernelIdeal.Launch
import proofs.«121749_j28346784154172_1_alg».proof.Proof.Gen.KernelIdeal.Skeleton
import proofs.«121749_j28346784154172_1_alg».proof.Proof.Gen.KernelIdeal.Points
import proofs.«121749_j28346784154172_1_alg».proof.Proof.KI.D4
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What the body finds in its two input buffers -/

/-- Both input windows are uncut and live at every point, and the body leaves each one's block where it found it. So each
    holds its block of the embedding at every point, whether or not the pipeline moved it there: a window not fetched at a
    point has the block index of the point before. Window 0's block index is the row coordinate, constant along a row of
    the grid; window 1's is the column coordinate. -/
theorem before4_0 (c : Dev nD) (t : Fin cfg4.N) (d) : (dat4 V c).before 0 t d = iblk4 V c 0 t := by
  have hkeep : ∀ s, (cfg4.win 0).cut (cfg4.grid.coords s) ((dat4 V c).after 0 s) = (dat4 V c).blockOf 0 s := fun s => by
    rw [after4_0]; unfold Dat.blockOf iblk4; rw [A_eq4]; try rfl
  rw [(dat4 V c).before_in_eq_fetched 0 rfl (fun _ => rfl) (fun _ _ _ => rfl) hkeep t d]
  unfold Dat.fetched Dat.blockOf iblk4; rw [A_eq4]; try rfl

theorem before4_1 (c : Dev nD) (t : Fin cfg4.N) (d) : (dat4 V c).before 1 t d = iblk4 V c 1 t := by
  have hkeep : ∀ s, (cfg4.win 1).cut (cfg4.grid.coords s) ((dat4 V c).after 1 s) = (dat4 V c).blockOf 1 s := fun s => by
    rw [after4_1]; unfold Dat.blockOf iblk4; rw [A_eq4]; try rfl
  rw [(dat4 V c).before_in_eq_fetched 1 rfl (fun _ => rfl) (fun _ _ _ => rfl) hkeep t d]
  unfold Dat.fetched Dat.blockOf iblk4; rw [A_eq4]; try rfl

/-! ## Whole-buffer accesses -/

/-- The two offsets of every access of this body are zero. -/
theorem zeros4 : (![0, 0] : Fin 2 → ℕ) = fun _ => 0 := by funext a; fin_cases a <;> rfl

/-- A load through the rectangle of a buffer's own extents at zero offsets reads the buffer's contents. -/
theorem readAt_whole4 {S : Shape} {e : EltTy} {κ : Kind} {sp : Space} (v : View sig κ sp S e) (f : v.ty.Contents (Elt F))
    {off : Fin S.rank → ℕ} (hz : off = fun _ => 0) (inb : ∀ a, off a + S.size a ≤ S.size a) :
    View.readAt (Elt F) v (Rect.unit off S.size inb).toLoadRect f = v.read (Elt F) f :=
  View.ld_unit_zero hz inb (v.read (Elt F) f)

/-- One store through that rectangle leaves its payload as the buffer's contents, whatever the buffer held: the
    rectangle holds every index, so the payload is what any read finds. -/
theorem read_write_whole4 {S : Shape} {e : EltTy} {κ : Kind} {sp : Space} (v : View sig κ sp S e) (f : v.ty.Contents (Elt F))
    {off : Fin S.rank → ℕ} (hz : off = fun _ => 0) (inb : ∀ a, off a + S.size a ≤ S.size a) (p : S.Idx → Elt F e) :
    v.read (Elt F) (v.writes (Elt F) f [⟨Rect.unit off S.size inb, p⟩]) = p := by
  have hcov : ∀ y : S.Idx, ∃ pc ∈ ([⟨Rect.unit off S.size inb, p⟩] : List (View.Piece (Elt F) S e)), y ∈ pc.1.set :=
    fun y => ⟨_, List.mem_singleton_self _, View.mem_set_unit_zero hz inb y⟩
  rw [View.read_writes_eq_canon v f _ hcov]
  exact View.canon_unit_zero hz inb p

/-! ## The body's triple -/

set_option maxHeartbeats 1000000 in
/-- The decoder's body on three whole buffers, the inputs' reading `x0` and `x1` and the result's holding anything: it
    loads both inputs, multiplies the first by the transpose of the second, applies the logistic function and stores the
    product over the whole result buffer. The inputs are left as read; the result buffer reads `k4_pay1 x0 x1`. -/
theorem sound_kernel4 (c : Dev nD) (E : Set ℕ) (i : grid4.Coords)
    (arg2 : Memref sig .tc .vmem S1024x64 .f32) (harg2 : arg2.IsWhole)
    (arg3 : Memref sig .tc .vmem S1024x64 .f32) (harg3 : arg3.IsWhole)
    (arg4 : Memref sig .tc .vmem S1024x1024 .f32) (harg4 : arg4.IsWhole)
    (x0 x1 : Vec F S1024x64 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (k4_pay1 x0 x1)) -∗ K ⟨⟩))
      ⊢ wp frame (wpE (defs₀ (F := F)) Variants.none c none) E (cc4_kernel i arg2 harg2 arg3 harg3 arg4 harg4) K := by
  simp only [cc4_kernel_eq_skeleton]; unfold cc4_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [read_write_whole4 arg4.view f2 zeros4, readAt_whole4 arg2.view f0 zeros4, readAt_whole4 arg3.view f1 zeros4]

/-! ## The body obligation, at a generic point -/

/-- What the body is called with at point `t`: the invariant, what the core owes, and each window's current staging
    buffer at what the pipeline left in it, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns: the same invariant and debt, each buffer at what the proof data say the body leaves. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point. The two input buffers hold their blocks (`before4_0`, `before4_1`), the result's holds
    something, so the body's triple applies with `x0`, `x1` the blocks, and what it stores is `out4` by definition. The
    invariant is constant in the point and nothing is owed, so both pass through untouched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  unfold out4
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Fold.lean ====
/-
  The buffers' contents at every boundary between @main's items, as a fold from the launch memory: the host stretch
  that makes the two zero bias rows, then the five regions, each of which changes only its own result buffer — to what
  the pipeline's write-backs leave in it. Every argument buffer reaches the end as launched.
-/
import proofs.«121749_j28346784154172_1_alg».proof.Proof.Gen.KernelIdeal.Launch
import proofs.«121749_j28346784154172_1_alg».proof.Proof.Gen.KernelIdeal.Skeleton
import proofs.«121749_j28346784154172_1_alg».proof.Proof.Gen.KernelIdeal.Points
import proofs.«121749_j28346784154172_1_alg».proof.Proof.Gen.KernelIdeal.Regions
import proofs.«121749_j28346784154172_1_alg».proof.Proof.KI.D0
import proofs.«121749_j28346784154172_1_alg».proof.Proof.KI.D1
import proofs.«121749_j28346784154172_1_alg».proof.Proof.KI.D2
import proofs.«121749_j28346784154172_1_alg».proof.Proof.KI.D3
import proofs.«121749_j28346784154172_1_alg».proof.Proof.KI.D4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The contents at each boundary -/

/-- Core `c`'s buffers at launch. -/
abbrev W0 (c : Dev nD) : Valuation τ sig (Elt F) := fun b => m (c, b)
/-- After the host stretch (region 0's entry). -/
abbrev W1 (c : Dev nD) : Valuation τ sig (Elt F) := StableHlo.after hostOps0 (W0 m c)
/-- The same read at the TensorCore's references. -/
abbrev V1 (c : Dev nD) (b : Ref sig .tc) : Buf (Elt F) ((c : Thread nD τ).loc b) := W1 m c b
/-- After region 0: `main_v2` at what its write-backs leave. -/
def W2 (c : Dev nD) : Valuation τ sig (Elt F) := Function.update (W1 m c) main_v2 ((dat0 (V1 m) c).arrAt 3 cfg0.N)
abbrev V2 (c : Dev nD) (b : Ref sig .tc) : Buf (Elt F) ((c : Thread nD τ).loc b) := W2 m c b
/-- After region 1: `main_v3` at what its write-backs leave. -/
def W3 (c : Dev nD) : Valuation τ sig (Elt F) := Function.update (W2 m c) main_v3 ((dat1 (V2 m) c).arrAt 3 cfg1.N)
abbrev V3 (c : Dev nD) (b : Ref sig .tc) : Buf (Elt F) ((c : Thread nD τ).loc b) := W3 m c b
/-- After region 2: `main_v4` at what its write-backs leave. -/
def W4 (c : Dev nD) : Valuation τ sig (Elt F) := Function.update (W3 m c) main_v4 ((dat2 (V3 m) c).arrAt 3 cfg2.N)
abbrev V4 (c : Dev nD) (b : Ref sig .tc) : Buf (Elt F) ((c : Thread nD τ).loc b) := W4 m c b
/-- After region 3: `main_v5` at what its write-backs leave. -/
def W5 (c : Dev nD) : Valuation τ sig (Elt F) := Function.update (W4 m c) main_v5 ((dat3 (V4 m) c).arrAt 3 cfg3.N)
abbrev V5 (c : Dev nD) (b : Ref sig .tc) : Buf (Elt F) ((c : Thread nD τ).loc b) := W5 m c b
/-- After region 4: `main_v6` at what its write-backs leave. -/
def W6 (c : Dev nD) : Valuation τ sig (Elt F) := Function.update (W5 m c) main_v6 ((dat4 (V5 m) c).arrAt 2 cfg4.N)
abbrev V6 (c : Dev nD) (b : Ref sig .tc) : Buf (Elt F) ((c : Thread nD τ).loc b) := W6 m c b

/-! ## A region changes its result buffer only -/

theorem W2_self (c : Dev nD) : W2 m c main_v2 = (dat0 (V1 m) c).arrAt 3 cfg0.N := by
  unfold W2; exact Function.update_self ..
theorem W2_of_ne (c : Dev nD) (b : Ref sig .tc) (h : b ≠ main_v2) : W2 m c b = W1 m c b := by
  unfold W2; exact Function.update_of_ne (StableHlo.devRef_ne_of_ne h) ..
theorem W3_self (c : Dev nD) : W3 m c main_v3 = (dat1 (V2 m) c).arrAt 3 cfg1.N := by
  unfold W3; exact Function.update_self ..
theorem W3_of_ne (c : Dev nD) (b : Ref sig .tc) (h : b ≠ main_v3) : W3 m c b = W2 m c b := by
  unfold W3; exact Function.update_of_ne (StableHlo.devRef_ne_of_ne h) ..
theorem W4_self (c : Dev nD) : W4 m c main_v4 = (dat2 (V3 m) c).arrAt 3 cfg2.N := by
  unfold W4; exact Function.update_self ..
theorem W4_of_ne (c : Dev nD) (b : Ref sig .tc) (h : b ≠ main_v4) : W4 m c b = W3 m c b := by
  unfold W4; exact Function.update_of_ne (StableHlo.devRef_ne_of_ne h) ..
theorem W5_self (c : Dev nD) : W5 m c main_v5 = (dat3 (V4 m) c).arrAt 3 cfg3.N := by
  unfold W5; exact Function.update_self ..
theorem W5_of_ne (c : Dev nD) (b : Ref sig .tc) (h : b ≠ main_v5) : W5 m c b = W4 m c b := by
  unfold W5; exact Function.update_of_ne (StableHlo.devRef_ne_of_ne h) ..
theorem W6_self (c : Dev nD) : W6 m c main_v6 = (dat4 (V5 m) c).arrAt 2 cfg4.N := by
  unfold W6; exact Function.update_self ..
theorem W6_of_ne (c : Dev nD) (b : Ref sig .tc) (h : b ≠ main_v6) : W6 m c b = W5 m c b := by
  unfold W6; exact Function.update_of_ne (StableHlo.devRef_ne_of_ne h) ..

/-! ## What the host stretch writes -/

/-- A buffer the host stretch does not write holds its launch contents at region 0's entry. -/
theorem W1_of (c : Dev nD) (r : Ref sig .tc) (h : r ∉ Gen.hostOps0_W) : W1 m c r = m ((c : Thread nD τ).loc r) :=
  Gen.V1_of m c r h

/-- The first zero bias row. -/
theorem W1_main_v0 (c : Dev nD) :
    (V1 m c main_v0 : Vec F S256 .f32) = broadcastInDim S256 ![] bcast_S_S256 (constant (F := F) S_ .f32 0x00000000#32) := by
  show StableHlo.after hostOps0 (fun b => m (c, b)) (Proc.devRef .tc main_v0) = _
  after_results

/-- The second zero bias row. -/
theorem W1_main_v1 (c : Dev nD) :
    (V1 m c main_v1 : Vec F S64 .f32) = broadcastInDim S64 ![] bcast_S_S64 (constant (F := F) S_ .f32 0x00000000#32) := by
  show StableHlo.after hostOps0 (fun b => m (c, b)) (Proc.devRef .tc main_v1) = _
  after_results

/-! ## The arguments end as launched -/

theorem W6_arg (c : Dev nD) (r : Ref sig .tc) (h0 : r ∉ Gen.hostOps0_W) (h2 : r ≠ main_v2) (h3 : r ≠ main_v3) (h4 : r ≠ main_v4)
    (h5 : r ≠ main_v5) (h6 : r ≠ main_v6) : W6 m c r = m ((c : Thread nD τ).loc r) :=
  (W6_of_ne m c r h6).trans <| (W5_of_ne m c r h5).trans <| (W4_of_ne m c r h4).trans <| (W3_of_ne m c r h3).trans <|
    (W2_of_ne m c r h2).trans (W1_of m c r h0)

theorem W6_main_arg0 (c : Dev nD) : W6 m c main_arg0 = m ((c : Thread nD τ).loc main_arg0) :=
  W6_arg m c main_arg0 (by decide) (by decide) (by decide) (by decide) (by decide) (by decide)
theorem W6_main_arg1 (c : Dev nD) : W6 m c main_arg1 = m ((c : Thread nD τ).loc main_arg1) :=
  W6_arg m c main_arg1 (by decide) (by decide) (by decide) (by decide) (by decide) (by decide)
theorem W6_main_arg2 (c : Dev nD) : W6 m c main_arg2 = m ((c : Thread nD τ).loc main_arg2) :=
  W6_arg m c main_arg2 (by decide) (by decide) (by decide) (by decide) (by decide) (by decide)
theorem W6_main_arg3 (c : Dev nD) : W6 m c main_arg3 = m ((c : Thread nD τ).loc main_arg3) :=
  W6_arg m c main_arg3 (by decide) (by decide) (by decide) (by decide) (by decide) (by decide)
theorem W6_main_arg4 (c : Dev nD) : W6 m c main_arg4 = m ((c : Thread nD τ).loc main_arg4) :=
  W6_arg m c main_arg4 (by decide) (by decide) (by decide) (by decide) (by decide) (by decide)
theorem W6_main_arg5 (c : Dev nD) : W6 m c main_arg5 = m ((c : Thread nD τ).loc main_arg5) :=
  W6_arg m c main_arg5 (by decide) (by decide) (by decide) (by decide) (by decide) (by decide)

/-! ## At a region's exit: its arrays hold what the pipeline leaves, every other buffer what it held at entry -/

theorem hF0 (c : Dev nD) (w : Fin cfg0.W) : (dat0 (V1 m) c).arrAt w cfg0.N = V2 m c (Pipeline.arrRef spec0 w) := by
  match w with
  | ⟨0, _⟩ => exact (((dat0 (V1 m) c).arrAt_in 0 rfl _).trans (A_eq0 (V1 m) c 0)).trans (W2_of_ne m c _ (by decide)).symm
  | ⟨1, _⟩ => exact (((dat0 (V1 m) c).arrAt_in 1 rfl _).trans (A_eq0 (V1 m) c 1)).trans (W2_of_ne m c _ (by decide)).symm
  | ⟨2, _⟩ => exact (((dat0 (V1 m) c).arrAt_in 2 rfl _).trans (A_eq0 (V1 m) c 2)).trans (W2_of_ne m c _ (by decide)).symm
  | ⟨3, _⟩ => exact (W2_self m c).symm
theorem hrest0 (c : Dev nD) : ∀ b, b ∉ Finset.univ.image (Pipeline.arrRef spec0) → V2 m c b = V1 m c b :=
  fun b hb => W2_of_ne m c b fun e => hb (Finset.mem_image.mpr ⟨3, Finset.mem_univ _, e.symm⟩)

theorem hF1 (c : Dev nD) (w : Fin cfg1.W) : (dat1 (V2 m) c).arrAt w cfg1.N = V3 m c (Pipeline.arrRef spec1 w) := by
  match w with
  | ⟨0, _⟩ => exact (((dat1 (V2 m) c).arrAt_in 0 rfl _).trans (A_eq1 (V2 m) c 0)).trans (W3_of_ne m c _ (by decide)).symm
  | ⟨1, _⟩ => exact (((dat1 (V2 m) c).arrAt_in 1 rfl _).trans (A_eq1 (V2 m) c 1)).trans (W3_of_ne m c _ (by decide)).symm
  | ⟨2, _⟩ => exact (((dat1 (V2 m) c).arrAt_in 2 rfl _).trans (A_eq1 (V2 m) c 2)).trans (W3_of_ne m c _ (by decide)).symm
  | ⟨3, _⟩ => exact (W3_self m c).symm
theorem hrest1 (c : Dev nD) : ∀ b, b ∉ Finset.univ.image (Pipeline.arrRef spec1) → V3 m c b = V2 m c b :=
  fun b hb => W3_of_ne m c b fun e => hb (Finset.mem_image.mpr ⟨3, Finset.mem_univ _, e.symm⟩)

theorem hF2 (c : Dev nD) (w : Fin cfg2.W) : (dat2 (V3 m) c).arrAt w cfg2.N = V4 m c (Pipeline.arrRef spec2 w) := by
  match w with
  | ⟨0, _⟩ => exact (((dat2 (V3 m) c).arrAt_in 0 rfl _).trans (A_eq2 (V3 m) c 0)).trans (W4_of_ne m c _ (by decide)).symm
  | ⟨1, _⟩ => exact (((dat2 (V3 m) c).arrAt_in 1 rfl _).trans (A_eq2 (V3 m) c 1)).trans (W4_of_ne m c _ (by decide)).symm
  | ⟨2, _⟩ => exact (((dat2 (V3 m) c).arrAt_in 2 rfl _).trans (A_eq2 (V3 m) c 2)).trans (W4_of_ne m c _ (by decide)).symm
  | ⟨3, _⟩ => exact (W4_self m c).symm
theorem hrest2 (c : Dev nD) : ∀ b, b ∉ Finset.univ.image (Pipeline.arrRef spec2) → V4 m c b = V3 m c b :=
  fun b hb => W4_of_ne m c b fun e => hb (Finset.mem_image.mpr ⟨3, Finset.mem_univ _, e.symm⟩)

theorem hF3 (c : Dev nD) (w : Fin cfg3.W) : (dat3 (V4 m) c).arrAt w cfg3.N = V5 m c (Pipeline.arrRef spec3 w) := by
  match w with
  | ⟨0, _⟩ => exact (((dat3 (V4 m) c).arrAt_in 0 rfl _).trans (A_eq3 (V4 m) c 0)).trans (W5_of_ne m c _ (by decide)).symm
  | ⟨1, _⟩ => exact (((dat3 (V4 m) c).arrAt_in 1 rfl _).trans (A_eq3 (V4 m) c 1)).trans (W5_of_ne m c _ (by decide)).symm
  | ⟨2, _⟩ => exact (((dat3 (V4 m) c).arrAt_in 2 rfl _).trans (A_eq3 (V4 m) c 2)).trans (W5_of_ne m c _ (by decide)).symm
  | ⟨3, _⟩ => exact (W5_self m c).symm
theorem hrest3 (c : Dev nD) : ∀ b, b ∉ Finset.univ.image (Pipeline.arrRef spec3) → V5 m c b = V4 m c b :=
  fun b hb => W5_of_ne m c b fun e => hb (Finset.mem_image.mpr ⟨3, Finset.mem_univ _, e.symm⟩)

theorem hF4 (c : Dev nD) (w : Fin cfg4.W) : (dat4 (V5 m) c).arrAt w cfg4.N = V6 m c (Pipeline.arrRef spec4 w) := by
  match w with
  | ⟨0, _⟩ => exact (((dat4 (V5 m) c).arrAt_in 0 rfl _).trans (A_eq4 (V5 m) c 0)).trans (W6_of_ne m c _ (by decide)).symm
  | ⟨1, _⟩ => exact (((dat4 (V5 m) c).arrAt_in 1 rfl _).trans (A_eq4 (V5 m) c 1)).trans (W6_of_ne m c _ (by decide)).symm
  | ⟨2, _⟩ => exact (W6_self m c).symm
theorem hrest4 (c : Dev nD) : ∀ b, b ∉ Finset.univ.image (Pipeline.arrRef spec4) → V6 m c b = V5 m c b :=
  fun b hb => W6_of_ne m c b fun e => hb (Finset.mem_image.mpr ⟨2, Finset.mem_univ _, e.symm⟩)

/-! ## The proof data family and the thread state -/

/-- The prefetched tables' admissible contents: no pipeline has a table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
  | ⟨3, _⟩ => fun c => dat3 (V4 m) c
  | ⟨4, _⟩ => fun c => dat4 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W6 m c) ∗ ∃ r, prngReg c r)

/-! ## What the regions' bodies owe (proved in the regions' own modules) -/

/-- Every region's body obligation at its entry contents, and for the two regions that carry the accumulator across points
    the invariant's two ends. -/
structure Bodies : Prop where
  b0 : ∀ c, BodyObligation (dat0 (F := F) (V1 m) c) (defs₀ (F := F)) Variants.none () Set.univ
  b1 : ∀ c, BodyObligation (dat1 (F := F) (V2 m) c) (defs₀ (F := F)) Variants.none () Set.univ
  in1 : ∀ c, (Pipeline.ΦA spec1 c : sProp 𝕄) ⊢ (dat1 (V2 m) c).Φ 0
  out1 : ∀ c, (dat1 (V2 m) c).Φ (Fin.last cfg1.N) ⊢ (Pipeline.ΦA spec1 c : sProp 𝕄)
  b2 : ∀ c, BodyObligation (dat2 (F := F) (V3 m) c) (defs₀ (F := F)) Variants.none () Set.univ
  b3 : ∀ c, BodyObligation (dat3 (F := F) (V4 m) c) (defs₀ (F := F)) Variants.none () Set.univ
  in3 : ∀ c, (Pipeline.ΦA spec3 c : sProp 𝕄) ⊢ (dat3 (V4 m) c).Φ 0
  out3 : ∀ c, (dat3 (V4 m) c).Φ (Fin.last cfg3.N) ⊢ (Pipeline.ΦA spec3 c : sProp 𝕄)
  b4 : ∀ c, BodyObligation (dat4 (F := F) (V5 m) c) (defs₀ (F := F)) Variants.none () Set.univ

end Cert.KernelIdeal.Hand

end
-- ==== Proof.KI.Seg0.lean ====
/-
  Region 0 as a segment of @main: entered from every unscoped buffer at the contents before it, left at the contents
  after it. Its arrays are split out of the unscoped buffers at entry and put back at what the pipeline leaves at exit;
  the generator register goes into the region's invariant and comes back; nothing is owed; the kernel has no semaphore
  of its own.
-/
import proofs.«121749_j28346784154172_1_alg».proof.Proof.KI.Fold

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 0 over the thread state. -/
def reg0 (hB : Bodies m) : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hB.b0 c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg1.lean ====
/-
  Region 1 as a segment of @main: entered from every unscoped buffer at the contents before it, left at the contents
  after it. Its arrays are split out of the unscoped buffers at entry and put back at what the pipeline leaves at exit;
  the generator register goes into the region's invariant, which carries the accumulator from point to point, and comes back; nothing is owed; the kernel has no semaphore
  of its own.
-/
import proofs.«121749_j28346784154172_1_alg».proof.Proof.KI.Fold

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 1 over the thread state. -/
def reg1 (hB : Bodies m) : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (hB.b1 c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm 1).1
        ∗ Pipeline.scopedRest (Pipeline.pin (pcfgs (F := F)) adm 1).spec c) ⊢ (Pipeline.ΦA spec1 c : sProp 𝕄) := by
      unfold Pipeline.ΦA
      iintro ⟨Hp, -, Hr⟩
      isplitl [Hr]; · iexact Hr
      iexact Hp
    exact h.trans (hB.in1 c)
  hout c := by
    rw [Pipeline.ownSems0_none]
    have h : (Pipeline.ΦA spec1 c : sProp 𝕄) ⊢ iprop((∃ r, prngReg c r) ∗ BI.emp
        ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (hB.out1 c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg2.lean ====
/-
  Region 2 as a segment of @main: entered from every unscoped buffer at the contents before it, left at the contents
  after it. Its arrays are split out of the unscoped buffers at entry and put back at what the pipeline leaves at exit;
  the generator register goes into the region's invariant and comes back; nothing is owed; the kernel has no semaphore
  of its own.
-/
import proofs.«121749_j28346784154172_1_alg».proof.Proof.KI.Fold

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 2 over the thread state. -/
def reg2 (hB : Bodies m) : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (hB.b2 c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg3.lean ====
/-
  Region 3 as a segment of @main: entered from every unscoped buffer at the contents before it, left at the contents
  after it. Its arrays are split out of the unscoped buffers at entry and put back at what the pipeline leaves at exit;
  the generator register goes into the region's invariant, which carries the accumulator from point to point, and comes back; nothing is owed; the kernel has no semaphore
  of its own.
-/
import proofs.«121749_j28346784154172_1_alg».proof.Proof.KI.Fold

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 3 over the thread state. -/
def reg3 (hB : Bodies m) : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (hB.b3 c).loose
  hwaits := Pipeline.hwaits_of_owed_zero _ _ _ _ L lv 3 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec3 c (V4 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 3).pre c (fun _ => fullShare) (adm 3).1
        ∗ Pipeline.scopedRest (Pipeline.pin (pcfgs (F := F)) adm 3).spec c) ⊢ (Pipeline.ΦA spec3 c : sProp 𝕄) := by
      unfold Pipeline.ΦA
      iintro ⟨Hp, -, Hr⟩
      isplitl [Hr]; · iexact Hr
      iexact Hp
    exact h.trans (hB.in3 c)
  hout c := by
    rw [Pipeline.ownSems0_none]
    have h : (Pipeline.ΦA spec3 c : sProp 𝕄) ⊢ iprop((∃ r, prngReg c r) ∗ BI.emp
        ∗ Pipeline.scopedRest (Pipeline.pin (pcfgs (F := F)) adm 3).spec c) := by
      unfold Pipeline.ΦA
      iintro ⟨Hr, Hp⟩
      isplitl [Hp]; · iexact Hp
      isplitr; · iempintro
      iexact Hr
    exact (hB.out3 c).trans h
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V4 m c) (V5 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg4.lean ====
/-
  Region 4 as a segment of @main: entered from every unscoped buffer at the contents before it, left at the contents
  after it. Its two input windows read ONE array: at entry that buffer is split into its two halves, one for each window, and at exit the halves are joined again; the result's array is put back at what the pipeline leaves;
  the generator register goes into the region's invariant and comes back; nothing is owed; the kernel has no semaphore
  of its own.
-/
import proofs.«121749_j28346784154172_1_alg».proof.Proof.KI.Fold

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The one array behind two windows -/

/-- A whole buffer held through its view is the buffer held at every index. -/
theorem pointsTo_whole {sp : Space} {S : Shape} {e : EltTy} (c : Dev nD) (M : Memref sig .tc sp S e) (h : M.IsWhole)
    (q : PosShare TreeShare) (f : Buf (Elt F) (M.view.loc (c : Thread nD τ))) :
    ((M.view.loc (c : Thread nD τ)) ↦[M.view.set]{q} f : sProp 𝕄) = ((M.view.loc (c : Thread nD τ)) ↦{q} f) := by
  rw [h.set_eq_univ]

/-- The pipeline's arrays, window by window: the embedding's two halves and the result whole. -/
theorem arrays4_eq (c : Dev nD) (G : (w : Fin cfg4.W) → Buf (Elt F) ((cfg4.win w).arr.view.loc (c : Thread nD τ))) :
    ((pdats m 4 c).arrays G : sProp 𝕄)
      = iprop((((c : Thread nD τ).loc main_v5) ↦{fullShare.left} G 0) ∗ (((c : Thread nD τ).loc main_v5) ↦{fullShare.right} G 1)
          ∗ (((c : Thread nD τ).loc main_v6) ↦{fullShare} G 2)) := by
  unfold Dat.arrays
  refine (bigSep_W4 _).trans ?_
  exact congrArg₂ _ (pointsTo_whole c _ (arr_whole4 0) _ _) (congrArg₂ _ (pointsTo_whole c _ (arr_whole4 1) _ _) (pointsTo_whole c _ (arr_whole4 2) _ _))

/-- The buffers behind the three windows' arrays are two: the embedding and the result. -/
theorem arrRefs4 : (Finset.univ : Finset (Fin 3)).image (Pipeline.arrRef spec4) = {main_v5, main_v6} := by decide

/-- Those two buffers, each whole at the full share. -/
theorem arrBufs4_eq (c : Dev nD) (V : (b : Ref sig .tc) → Buf (Elt F) ((c : Thread nD τ).loc b)) :
    (Pipeline.arrBufs (Ix := Unit) (Name := ℕ) (U := UR sig nD τ) (Lvl := ℕ) spec4 c V : sProp 𝕄)
      = iprop((((c : Thread nD τ).loc main_v5) ↦{fullShare} V main_v5) ∗ (((c : Thread nD τ).loc main_v6) ↦{fullShare} V main_v6)) := by
  unfold Pipeline.arrBufs
  rw [arrRefs4, bigSep_insert (by decide), bigSep_singleton]
  rfl

/-- The two buffers whole are the pipeline's arrays at contents read off them: the embedding, read by two windows, is held
    as its two halves, one for each, and the halves make the whole again. -/
theorem arrays4_iff (c : Dev nD) (V : (b : Ref sig .tc) → Buf (Elt F) ((c : Thread nD τ).loc b))
    (G : (w : Fin cfg4.W) → Buf (Elt F) ((cfg4.win w).arr.view.loc (c : Thread nD τ)))
    (h0 : G 0 = V main_v5) (h1 : G 1 = V main_v5) (h2 : G 2 = V main_v6) :
    (Pipeline.arrBufs (Ix := Unit) (Name := ℕ) (U := UR sig nD τ) (Lvl := ℕ) spec4 c V : sProp 𝕄) ⊣⊢ (pdats m 4 c).arrays G := by
  rw [arrBufs4_eq, arrays4_eq, h0, h1, h2]
  constructor
  · iintro ⟨H5, H6⟩
    ihave H5 := (pointsTo_share (PosShare.mem_left_op_right fullShare)).1 $$ H5
    icases H5 with ⟨Hl, Hr⟩
    isplitl [Hl]; · iexact Hl
    isplitl [Hr] <;> iassumption
  · iintro ⟨Hl, Hr, H6⟩
    isplitl [Hl Hr]
    · iapply (pointsTo_share (PosShare.mem_left_op_right fullShare)).2
      isplitl [Hl] <;> iassumption
    iexact H6

/-- ENTRY, the arrays' part: the core's unscoped buffers at contents `V` are the pipeline's arrays at contents read off
    `V` and the unscoped rest. -/
theorem arrays4_of_unscopedBufs (c : Dev nD) (V : (b : Ref sig .tc) → Buf (Elt F) ((c : Thread nD τ).loc b))
    (G : (w : Fin cfg4.W) → Buf (Elt F) ((cfg4.win w).arr.view.loc (c : Thread nD τ)))
    (hG : ∀ w, G w = V (Pipeline.arrRef spec4 w)) :
    (unscopedBufs (Ix := Unit) (Name := ℕ) (U := UR sig nD τ) (Lvl := ℕ) c V : sProp 𝕄)
      ⊢ iprop((pdats m 4 c).arrays G ∗ Pipeline.unscopedRest (Ix := Unit) (Name := ℕ) (U := UR sig nD τ) (Lvl := ℕ) spec4 c V) := by
  rw [Pipeline.unscopedBufs_split₀ (Pipeline.pin (pcfgs (F := F)) adm) 4 winFacts₀4.arr_unscoped c V]
  exact sep_mono (arrays4_iff m c V G (hG 0) (hG 1) (hG 2)).1 .rfl

/-- EXIT, the arrays' part: the pipeline's arrays at contents `G` and the unscoped rest at `V` are the core's unscoped
    buffers at any contents `V'` that have the arrays at `G` and agree with `V` off them. -/
theorem unscopedBufs_of_arrays4 (c : Dev nD) (V V' : (b : Ref sig .tc) → Buf (Elt F) ((c : Thread nD τ).loc b))
    (G : (w : Fin cfg4.W) → Buf (Elt F) ((cfg4.win w).arr.view.loc (c : Thread nD τ)))
    (hG : ∀ w, G w = V' (Pipeline.arrRef spec4 w))
    (hrest : ∀ b, b ∉ Finset.univ.image (Pipeline.arrRef spec4) → V' b = V b) :
    iprop((pdats m 4 c).arrays G ∗ Pipeline.unscopedRest (Ix := Unit) (Name := ℕ) (U := UR sig nD τ) (Lvl := ℕ) spec4 c V)
      ⊢ (unscopedBufs (Ix := Unit) (Name := ℕ) (U := UR sig nD τ) (Lvl := ℕ) c V' : sProp 𝕄) := by
  rw [Pipeline.unscopedBufs_split₀ (Pipeline.pin (pcfgs (F := F)) adm) 4 winFacts₀4.arr_unscoped c V']
  refine sep_mono (arrays4_iff m c V' G (hG 0) (hG 1) (hG 2)).2 (Entails.of_eq ?_)
  unfold Pipeline.unscopedRest
  exact bigSep_congr fun b hb => by rw [hrest b (Finset.mem_sdiff.mp hb).2]

/-! ## The segment -/

set_option backward.isDefEq.respectTransparency.types false in
/-- Region 4 over the thread state: the last segment, left at the contents the launch reads at the end. -/
def reg4 (hB : Bodies m) : Pipeline.RegionSeg (pcfgs (F := F)) adm (pdats m) () defs₀ 𝒱₀ L lv 4 where
  win := winFacts₀4
  block_pos := block_pos4
  stage_whole := stage_whole4
  K := PEmpty
  osem k := k.elim
  ho := Pipeline.OwnSemFacts.none _
  hbody c := (hB.b4 c).loose
  hwaits := Pipeline.hwaits_of_owed_zero _ _ _ _ L lv 4 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V5 m c)
  hentry c := by
    rw [Pipeline.ownSems0_none]
    have hsplit := arrays4_of_unscopedBufs m c (V5 m c) ((pdats m 4 c).arrAt · 0) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := unscopedBufs_of_arrays4 m c (V5 m c) (V6 m c) ((pdats m 4 c).arrAt · cfg4.N) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Hand

end
-- ==== Proof.KI.Launch.lean ====
/-
  The launch: @main is its host stretch followed by the five regions, each entered from what the one before it left;
  every weakly fair execution terminates, and the final memory holds every unscoped buffer at the last boundary's
  contents. Read at the arguments this is the frame; read at the result it names what the program computes.
-/
import proofs.«121749_j28346784154172_1_alg».proof.Proof.KI.Seg0
import proofs.«121749_j28346784154172_1_alg».proof.Proof.KI.Seg1
import proofs.«121749_j28346784154172_1_alg».proof.Proof.KI.Seg2
import proofs.«121749_j28346784154172_1_alg».proof.Proof.KI.Seg3
import proofs.«121749_j28346784154172_1_alg».proof.Proof.KI.Seg4

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's six segments in order: the host stretch from the launch contents, then a region per pallas_call. -/
abbrev segs (hB : Bodies m) : List (Pipeline.Seg (pcfgs (F := F)) adm (pdats m) () defs₀ 𝒱₀ L lv) :=
  [ .host (hseg hostOps0 hostOps0_sub Gen.hostOps0_fresh (W0 m)),
    .region (reg0 m hB), .region (reg1 m hB), .region (reg2 m hB), .region (reg3 m hB), .region (reg4 m hB) ]

/-- @main is the run of the segments. -/
theorem main_run (hB : Bodies m) (c : Dev nD) : main (F := F) c = Pipeline.Seg.run (segs m hB) :=
  (main_chain c).trans (by chain_rfl)

set_option backward.isDefEq.respectTransparency.types false in
/-- Every weakly fair execution of @main from memory `m` with zero counters terminates, nothing faulting, and the final
    memory holds every unscoped buffer at the last boundary's contents. -/
theorem run_all (hB : Bodies m) : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m hB)
    (fun c Q => by rw [main_run m hB c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- The frame: every argument buffer ends as launched. -/
theorem frame (hB : Bodies m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c)⟩) (run_all m ρ hB)

/-- The run with the result named: the result buffer ends at what region 4's write-backs leave, the arguments as launched. -/
theorem run_value (hB : Bodies m) : θ_run defs (onTc (τ := τ) (main (F := F))) ⟨m, fun _ => 0, ρ⟩ (fun r => ∀ c : Dev nD,
      r.2.mem ((c.tc : Thread nD τ).loc main_v6) = (dat4 (V5 m) c).arrAt 2 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v6 (by decide))).trans (W6_self m c),
     (h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c)⟩) (run_all m ρ hB)

end Cert.KernelIdeal.Hand

end
-- ==== Proof.KI.All.lean ====
/-
  The five regions' bodies meet their obligations, so the launch's three readings hold outright: every unscoped buffer ends
  at the last boundary's contents; the arguments end as launched; the result buffer ends at what region 4's write-backs leave.
-/
import proofs.«121749_j28346784154172_1_alg».proof.Proof.KI.B0
import proofs.«121749_j28346784154172_1_alg».proof.Proof.KI.B1
import proofs.«121749_j28346784154172_1_alg».proof.Proof.KI.B2
import proofs.«121749_j28346784154172_1_alg».proof.Proof.KI.B3
import proofs.«121749_j28346784154172_1_alg».proof.Proof.KI.B4
import proofs.«121749_j28346784154172_1_alg».proof.Proof.KI.Launch

set_option maxRecDepth 16384

noncomputable section

namespace Cert.KernelIdeal.Hand

open Idealize.ShloMosaic Idealize.ShloMosaic.TcCoe
open Idealize.SL Idealize.SL.Sem
open Idealize.ShloMosaic.Pipeline (Dat Cfg Window BodyObligation)
open Cert.KernelIdeal Cert.KernelIdeal.Gen

variable {F : FTy → Type} [FloatOps F]

variable (m : (ℓ : Loc nD τ sig) → Buf (Elt F) ℓ) (ρ : Dev nD → PrngReg)

/-- Every region's body obligation, each at its region's entry contents. -/
theorem bodies : Bodies (F := F) m where
  b0 c := body_obligation0 (V1 m) c
  b1 c := body_obligation1 (V2 m) c
  in1 c := hin1 (V2 m) c
  out1 c := hout1 (V2 m) c
  b2 c := body_obligation2 (V3 m) c
  b3 c := body_obligation3 (V4 m) c
  in3 c := hin3 (V4 m) c
  out3 c := hout3 (V4 m) c
  b4 c := body_obligation4 (V5 m) c

/-- The frame: every weakly fair execution of @main terminates, nothing faulting, and every argument buffer ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame m ρ (bodies m)

/-- The run with the result named. -/
theorem run_value_all : θ_run defs (onTc (τ := τ) (main (F := F))) ⟨m, fun _ => 0, ρ⟩ (fun r => ∀ c : Dev nD,
      r.2.mem ((c.tc : Thread nD τ).loc main_v6) = (dat4 (V5 m) c).arrAt 2 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_value m ρ (bodies m)

end Cert.KernelIdeal.Hand

end
-- ==== Proof.Spec.lean ====
/-
  The function both programs compute, on the extended reals, index by index.

  `gemmB A B b` is the matrix product of `A` [M, K] and `B` [K, N] with the row `b` [N] added to every row:
  entry (r, j) is (∑ k, A (r, k) · B (k, j)) + b j. `relu` clamps every entry at zero from below. `decode Z` is the
  logistic function of the Gram matrix of the rows of `Z`: entry (r, s) is logistic (∑ k, Z (r, k) · Z (s, k)).
  The two-layer graph convolution with a dot-product decoder is their composition `G`: with
  t₁ = x·W₁, h = relu (adj·t₁ + b₁), t₂ = h·W₂, z = adj·t₂ + b₂, the result is decode z.
-/
import Idealize.ShloMosaic.PureOps.Ideal.Laws
import Idealize.ShloMosaic.Lib.ValueIdx

noncomputable section

open scoped BigOperators
open Idealize.ShloMosaic Idealize.ShloMosaic.ValueIdx

namespace Cert.Spec

/-- The product of `A` [M, K] and `B` [K, N] with the row `b` added to every row. -/
def gemmB {M K N : ℕ} (A : FVec Ideal ⟨2, ![M, K]⟩ .f32) (B : FVec Ideal ⟨2, ![K, N]⟩ .f32) (b : FVec Ideal ⟨1, ![N]⟩ .f32) :
    FVec Ideal ⟨2, ![M, N]⟩ .f32 :=
  fun i => (∑ k : Fin K, A (ix2 (i 0) k) * B (ix2 k (i 1))) + b (ix1 (i 1))

theorem gemmB_apply {M K N : ℕ} (A : FVec Ideal ⟨2, ![M, K]⟩ .f32) (B : FVec Ideal ⟨2, ![K, N]⟩ .f32) (b : FVec Ideal ⟨1, ![N]⟩ .f32)
    (p : Fin M) (q : Fin N) : gemmB A B b (ix2 p q) = (∑ k : Fin K, A (ix2 p k) * B (ix2 k q)) + b (ix1 q) := rfl

/-- Every entry clamped at zero from below. -/
def relu {S : Shape} (X : FVec Ideal S .f32) : FVec Ideal S .f32 := fun i => max (X i) 0

/-- The zero row. -/
def zero1 (N : ℕ) : FVec Ideal ⟨1, ![N]⟩ .f32 := fun _ => 0

/-- The logistic function of the Gram matrix of the rows of `Z`. -/
def decode {N D : ℕ} (Z : FVec Ideal ⟨2, ![N, D]⟩ .f32) : FVec Ideal ⟨2, ![N, N]⟩ .f32 :=
  fun i => Ideal.logistic (∑ k : Fin D, Z (ix2 (i 0) k) * Z (ix2 (i 1) k))

theorem decode_apply {N D : ℕ} (Z : FVec Ideal ⟨2, ![N, D]⟩ .f32) (p q : Fin N) :
    decode Z (ix2 p q) = Ideal.logistic (∑ k : Fin D, Z (ix2 p k) * Z (ix2 q k)) := rfl

/-- The first product: the features times the first weight matrix. -/
def T1 (x : FVec Ideal ⟨2, ![8192, 512]⟩ .f32) (W1 : FVec Ideal ⟨2, ![512, 256]⟩ .f32) : FVec Ideal ⟨2, ![8192, 256]⟩ .f32 :=
  gemmB x W1 (zero1 256)
/-- The hidden layer. -/
def H (adj : FVec Ideal ⟨2, ![8192, 8192]⟩ .f32) (t1 : FVec Ideal ⟨2, ![8192, 256]⟩ .f32) (b1 : FVec Ideal ⟨1, ![256]⟩ .f32) :
    FVec Ideal ⟨2, ![8192, 256]⟩ .f32 := relu (gemmB adj t1 b1)
/-- The hidden layer times the second weight matrix. -/
def T2 (h : FVec Ideal ⟨2, ![8192, 256]⟩ .f32) (W2 : FVec Ideal ⟨2, ![256, 64]⟩ .f32) : FVec Ideal ⟨2, ![8192, 64]⟩ .f32 :=
  gemmB h W2 (zero1 64)
/-- The embedding. -/
def Z (adj : FVec Ideal ⟨2, ![8192, 8192]⟩ .f32) (t2 : FVec Ideal ⟨2, ![8192, 64]⟩ .f32) (b2 : FVec Ideal ⟨1, ![64]⟩ .f32) :
    FVec Ideal ⟨2, ![8192, 64]⟩ .f32 := gemmB adj t2 b2

/-- The whole network. -/
def G (x : FVec Ideal ⟨2, ![8192, 512]⟩ .f32) (adj : FVec Ideal ⟨2, ![8192, 8192]⟩ .f32) (W1 : FVec Ideal ⟨2, ![512, 256]⟩ .f32)
    (b1 : FVec Ideal ⟨1, ![256]⟩ .f32) (W2 : FVec Ideal ⟨2, ![256, 64]⟩ .f32) (b2 : FVec Ideal ⟨1, ![64]⟩ .f32) :
    FVec Ideal ⟨2, ![8192, 8192]⟩ .f32 :=
  decode (Z adj (T2 (H adj (T1 x W1) b1) W2) b2)

end Cert.Spec

end
-- ==== Proof.LibPlainMatmul.lean ====
/-
  A plain matrix product read at an index, at the ideal values.

  For dimension numbers `d` over shapes [M, K] × [K, N] → [M, N] that contract the left operand's axis 1 with the right
  operand's axis 0 and keep the left rows and the right columns — stated here as the four facts about the record's index
  maps that say so, so that the lemma serves any record, whatever its generated name — the product accumulated into the
  zero splat, read at `(p, o)`, is `∑ k, A (p, k) · B (k, o)`: the library's sum over the record's contraction index set,
  re-indexed by that set's one coordinate.
-/
import Idealize.ShloMosaic.PureOps.Ideal.Laws
import Idealize.ShloMosaic.Lib.ValueIdx

noncomputable section

open scoped BigOperators
open Idealize.ShloMosaic Idealize.ShloMosaic.ValueIdx

namespace Cert.LibPlainMatmul

/-- `FloatOps.matmul d prec A B 0 (p, o) = ∑ k : Fin K, A (p, k) * B (k, o)` for a record `d` with one contracted axis of
    extent `K` whose left index at `(i, q)` is `(i 0, q)` and whose right index is `(q, i 1)` (`hl0`, `hl1`, `hr0`, `hr1`:
    for a generated record the first and last are a `dif_neg` / `dif_pos` on its literal axis lists, the middle two are
    `DotDims.lhsIdx_val_of_single` / `rhsIdx_val_of_single`). -/
theorem matmul_zero_apply {M K N : ℕ} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (A : FVec Ideal ⟨2, ![M, K]⟩ φ₁) (B : FVec Ideal ⟨2, ![K, N]⟩ φ₂) (p : Fin M) (o : Fin N) :
    FloatOps.matmul d prec A B (constant (F := Ideal) ⟨2, ![M, N]⟩ .f32 0x00000000#32) (ix2 p o)
      = ∑ k : Fin K, A (ix2 p k) * B (ix2 k o) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 k o := funext fun a => Fin.ext (by
    match a with
    | ⟨0, _⟩ => exact (hr0 _ _).trans hk
    | ⟨1, _⟩ => exact hr1 _ _)
  rw [el, er]

end Cert.LibPlainMatmul

end
-- ==== Proof.KI.Val0.lean ====
/-
  Region 0's result array after the run, on the extended reals: the features' row blocks times the first weight matrix,
  plus the bias row the region is handed — every entry (r, j) is (∑ k, x (r, k) · W₁ (k, j)) + b j. Each grid point writes
  one block of 1024 rows; the eight blocks tile the array.
-/
import proofs.«121749_j28346784154172_1_alg».proof.Proof.KI.D0
import proofs.«121749_j28346784154172_1_alg».proof.Proof.Spec
import proofs.«121749_j28346784154172_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open scoped BigOperators
open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

-- the TensorCore's buffer contents when the region is entered, at the ideal values
variable (V : (c : Dev nD) → (b : Ref sig .tc) → Buf (Elt Ideal) ((c : Thread nD τ).loc b))

/-! ## The product's dimension numbers: which operand entries an output entry and a contraction index name -/

theorem dot0_l0 (i : S1024x256.Idx) (q : dot_S1024x512_S512x256_S1024x256_1_0_0_1_n_n.contr.Idx) :
    (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide),
    dif_pos (show (0 : Fin S1024x512.rank) ∈ dot_S1024x512_S512x256_S1024x256_1_0_0_1_n_n.lhsNonContracting by decide)]
  rfl
theorem dot0_l1 (i : S1024x256.Idx) (q : dot_S1024x512_S512x256_S1024x256_1_0_0_1_n_n.contr.Idx) :
    (dot_S1024x512_S512x256_S1024x256_1_0_0_1_n_n.lhsIdx i q 1).val = (q ⟨0, by decide⟩).val :=
  dot_S1024x512_S512x256_S1024x256_1_0_0_1_n_n.lhsIdx_val_of_single rfl i q
theorem dot0_r0 (i : S1024x256.Idx) (q : dot_S1024x512_S512x256_S1024x256_1_0_0_1_n_n.contr.Idx) :
    (dot_S1024x512_S512x256_S1024x256_1_0_0_1_n_n.rhsIdx i q 0).val = (q ⟨0, by decide⟩).val :=
  dot_S1024x512_S512x256_S1024x256_1_0_0_1_n_n.rhsIdx_val_of_single rfl i q
theorem dot0_r1 (i : S1024x256.Idx) (q : dot_S1024x512_S512x256_S1024x256_1_0_0_1_n_n.contr.Idx) :
    (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide),
    dif_pos (show (1 : Fin S512x256.rank) ∈ dot_S1024x512_S512x256_S1024x256_1_0_0_1_n_n.rhsNonContracting by decide)]
  rfl

/-! ## The body's three stored values, entry by entry -/

/-- The reset value of the accumulator is zero everywhere. -/
theorem pay1_0_apply (j : S1024x256.Idx) : k0_pay1 (F := Ideal) j = 0 := by
  unfold k0_pay1
  show shapeCast S1024x256 (broadcast S1024x256 (Scalar.ofBits (F := Ideal) .f32 0x00000000#32)) shapeCasts_S1024x256_S1024x256 j = 0
  rw [shapeCast_self]
  exact Ideal.ofBits_zero_f32

/-- The accumulator after the product is added: entry (p, q) gains ∑ k, x (p, k) · w (k, q). -/
theorem pay2_0_apply (x : FVec Ideal S1024x512 .f32) (w : FVec Ideal S512x256 .f32) (acc : FVec Ideal S1024x256 .f32)
    (p : Fin 1024) (q : Fin 256) :
    k0_pay2 x w acc (ix2 p q) = acc (ix2 p q) + ∑ k : Fin 512, x (ix2 p k) * w (ix2 k q) := by
  unfold k0_pay2
  show shapeCast S1024x256 (addf acc (matmul dot_S1024x512_S512x256_S1024x256_1_0_0_1_n_n none
      (truncf .bf16 x bitsLt_bf16_f32) (truncf .bf16 w bitsLt_bf16_f32) (constant S1024x256 .f32 0x00000000#32)))
      shapeCasts_S1024x256_S1024x256 (ix2 p q) = _
  rw [shapeCast_self, addf_apply]
  exact congrArg (acc (ix2 p q) + ·)
    (Cert.LibPlainMatmul.matmul_zero_apply dot_S1024x512_S512x256_S1024x256_1_0_0_1_n_n none rfl rfl
      dot0_l0 dot0_l1 dot0_r0 dot0_r1 (truncf .bf16 x bitsLt_bf16_f32) (truncf .bf16 w bitsLt_bf16_f32) p q)

/-- The stored result: the accumulator plus the bias row, the same row under every row of the block. -/
theorem pay3_0_apply (acc : FVec Ideal S1024x256 .f32) (b : FVec Ideal S256 .f32) (p : Fin 1024) (q : Fin 256) :
    k0_pay3 acc b (ix2 p q) = acc (ix2 p q) + b (ix1 q) := by
  unfold k0_pay3
  show addf acc (broadcastTo S1024x256 (shapeCast S1x256 (shapeCast S256 b shapeCasts_S256_S256) shapeCasts_S256_S1x256)
      broadcasts_S1x256_S1024x256) (ix2 p q) = _
  rw [addf_apply, broadcastTo_1b_ab_apply, shapeCast_a_1a_apply, shapeCast_self]

/-! ## The windows' blocks, entry by entry

A block's entry sits in its array, on each axis, at the block index times the block's extent plus the coordinate inside the
block. Over this grid the features' and the result's blocks move down the rows with the point; the weights and the bias
row are one block each. -/

/-- The block indices, decided over the eight points. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

theorem pt0_lt (t : Fin cfg0.N) : t.val < 8 := lt_of_lt_of_eq t.isLt N_0

/-- The array row under row `p` of point `t`'s block. -/
def row0 (t : Fin cfg0.N) (p : Fin 1024) : Fin 8192 := ⟨t.val * 1024 + p.val, by have := pt0_lt t; omega⟩

theorem iblk0_0_apply (c : Dev nD) (t : Fin cfg0.N) (p : Fin 1024) (k : Fin 512) :
    (iblk0 V c 0 t : FVec Ideal S1024x512 .f32) (ix2 p k) = (V c main_arg0 : FVec Ideal S8192x512 .f32) (ix2 (row0 t p) k) := by
  obtain ⟨e0, e1, -⟩ := idx0 t
  show V c main_arg0 (((cfg0.win 0).blk t).view.emb (ix2 p k)) = _
  refine congrArg (V c main_arg0) (funext fun a => Fin.ext ?_)
  match a with
  | ⟨0, _⟩ => show win0_0.index t (0 : Fin 2) * 1024 + 1 * p.val = t.val * 1024 + p.val; omega
  | ⟨1, _⟩ => show win0_0.index t (1 : Fin 2) * 512 + 1 * k.val = k.val; omega

theorem iblk0_1_apply (c : Dev nD) (t : Fin cfg0.N) (k : Fin 512) (q : Fin 256) :
    (iblk0 V c 1 t : FVec Ideal S512x256 .f32) (ix2 k q) = (V c main_arg2 : FVec Ideal S512x256 .f32) (ix2 k q) := by
  obtain ⟨-, -, e0, e1, -⟩ := idx0 t
  show V c main_arg2 (((cfg0.win 1).blk t).view.emb (ix2 k q)) = _
  refine congrArg (V c main_arg2) (funext fun a => Fin.ext ?_)
  match a with
  | ⟨0, _⟩ => show win0_1.index t (0 : Fin 2) * 512 + 1 * k.val = k.val; omega
  | ⟨1, _⟩ => show win0_1.index t (1 : Fin 2) * 256 + 1 * q.val = q.val; omega

theorem iblk0_2_apply (c : Dev nD) (t : Fin cfg0.N) (q : Fin 256) :
    (iblk0 V c 2 t : FVec Ideal S256 .f32) (ix1 q) = (V c main_v0 : FVec Ideal S256 .f32) (ix1 q) := by
  obtain ⟨-, -, -, -, e0, -⟩ := idx0 t
  show V c main_v0 (((cfg0.win 2).blk t).view.emb (ix1 q)) = _
  refine congrArg (V c main_v0) (funext fun a => Fin.ext ?_)
  match a with
  | ⟨0, _⟩ => show win0_2.index t (0 : Fin 1) * 256 + 1 * q.val = q.val; omega

/-! ## What a point stores, and the array after the run -/

/-- Entry (p, q) of what point `t` stores is the product-plus-bias at the array row under it. -/
theorem out0_apply (c : Dev nD) (t : Fin cfg0.N) (p : Fin 1024) (q : Fin 256) :
    (out0 V c t : FVec Ideal S1024x256 .f32) (ix2 p q)
      = Cert.Spec.gemmB (V c main_arg0) (V c main_arg2) (V c main_v0) (ix2 (row0 t p) q) := by
  unfold out0
  refine (pay3_0_apply (sc0 V c t) (iblk0 V c 2 t) p q).trans ?_
  rw [Cert.Spec.gemmB_apply]
  refine congrArg₂ (· + ·) ?_ (iblk0_2_apply V c t q)
  unfold sc0
  refine (pay2_0_apply (iblk0 V c 0 t) (iblk0 V c 1 t) k0_pay1 p q).trans ?_
  rw [pay1_0_apply, zero_add]
  exact Finset.sum_congr rfl fun k _ => congrArg₂ (· * ·) (iblk0_0_apply V c t p k) (iblk0_1_apply V c t k q)

/-- What point `t` writes back is its block of the product-plus-bias of the arrays the region is handed. -/
theorem flushed0_3_eq (c : Dev nD) (t : Fin cfg0.N) :
    (dat0 V c).flushed 3 t
      = ((cfg0.win 3).blk t).view.read (Elt Ideal) (Cert.Spec.gemmB (V c main_arg0) (V c main_arg2) (V c main_v0)) := by
  show (cfg0.win 3).cut (grid0.coords t) ((dat0 V c).after 3 t) = _
  rw [after0_3]
  funext y
  obtain ⟨p, q, rfl⟩ : ∃ (p : Fin 1024) (q : Fin 256), y = ix2 p q := ⟨y 0, y 1, eq_ix2 y⟩
  obtain ⟨-, -, -, -, -, e0, e1⟩ := idx0 t
  show (out0 V c t : FVec Ideal S1024x256 .f32) (ix2 p q)
    = Cert.Spec.gemmB (V c main_arg0) (V c main_arg2) (V c main_v0) (((cfg0.win 3).blk t).view.emb (ix2 p q))
  rw [out0_apply]
  refine congrArg _ (funext fun a => Fin.ext ?_)
  match a with
  | ⟨0, _⟩ => show t.val * 1024 + p.val = win0_3.index t (0 : Fin 2) * 1024 + 1 * p.val; omega
  | ⟨1, _⟩ => show q.val = win0_3.index t (1 : Fin 2) * 256 + 1 * q.val; omega

/-- An entry of the result array is in point `t`'s block iff each coordinate is in the block's range on its axis. -/
theorem mem_blk0_3 (t : Fin cfg0.N) (i : S8192x256.Idx) :
    i ∈ ((cfg0.win 3).blk t).view.set ↔ ∀ a : Fin 2, win0_3.index t a * S1024x256.size a ≤ (i a).val
      ∧ (i a).val < win0_3.index t a * S1024x256.size a + S1024x256.size a := by
  show i ∈ ((View.whole main_v2).slice (win0_3.rect t)).set ↔ _
  rw [View.set_slice_whole, Rect.mem_set_unit]
  exact Iff.rfl

/-- The eight row blocks tile the result array: row `r` is in the block of point `r / 1024`. -/
theorem cover0_3 (i : S8192x256.Idx) :
    ∃ t : Fin cfg0.N, (cfg0.win 3).flush t = true ∧ i ∈ ((cfg0.win 3).blk t).view.set := by
  have hi0 : (i 0).val < 8192 := (i 0).isLt
  have hi1 : (i 1).val < 256 := (i 1).isLt
  obtain ⟨t, ht⟩ : ∃ t : Fin cfg0.N, t.val = (i 0).val / 1024 :=
    ⟨⟨(i 0).val / 1024, lt_of_lt_of_eq (by omega : (i 0).val / 1024 < 8) N_0.symm⟩, rfl⟩
  obtain ⟨-, -, -, -, -, e0, e1⟩ := idx0 t
  refine ⟨t, flush0_3 t, ?_⟩
  rw [mem_blk0_3]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 256 ≤ (i 1).val ∧ (i 1).val < win0_3.index t (1 : Fin 2) * 256 + 256
    omega

theorem val0 (c : Dev nD) :
    ((dat0 (F := Ideal) V c).arrAt 3 cfg0.N : FVec Ideal ⟨2, ![8192, 256]⟩ .f32)
      = Cert.Spec.gemmB (V c main_arg0) (V c main_arg2) (V c main_v0) :=
  (dat0 V c).arrAt_eq_of_cover 3 _ (fun t _ => flushed0_3_eq V c t) cover0_3

end Cert.KernelIdeal.Hand

end
-- ==== Proof.KI.Val1.lean ====
/-
  Region 1's result array after the run, on the extended reals: the adjacency matrix times region 0's result, plus the
  bias row, clamped at zero — entry (r, j) is max ((∑ k, adj (r, k) · t₁ (k, j)) + b₁ j) 0. The contracted axis is
  walked in four blocks of 2048 whose partial sums the accumulator adds up from zero; a sum over 8192 indices is the
  sum of its four blocks' sums, in any grouping (addition of extended reals is commutative and associative).
-/
import proofs.«121749_j28346784154172_1_alg».proof.Proof.KI.D1
import proofs.«121749_j28346784154172_1_alg».proof.Proof.Spec
import proofs.«121749_j28346784154172_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Data.Fintype.BigOperators
import Mathlib.Logic.Equiv.Fin.Basic

set_option maxRecDepth 16384

noncomputable section

namespace Cert.KernelIdeal.Hand

open scoped BigOperators
open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

-- the TensorCore's buffer contents when the region is entered, at the ideal values
variable (V : (c : Dev nD) → (b : Ref sig .tc) → Buf (Elt Ideal) ((c : Thread nD τ).loc b))

/-! ## The payloads read at an index -/

theorem dot1_l0 (i : S1024x256.Idx) (q : dot_S1024x2048_S2048x256_S1024x256_1_0_0_1_n_n.contr.Idx) :
    (dot_S1024x2048_S2048x256_S1024x256_1_0_0_1_n_n.lhsIdx i q 0).val = (i 0).val := by
  unfold DotDims.lhsIdx
  rw [dif_neg (show ¬(0 : Fin S1024x2048.rank) ∈ dot_S1024x2048_S2048x256_S1024x256_1_0_0_1_n_n.lhsBatch by decide), dif_pos (show (0 : Fin S1024x2048.rank) ∈ dot_S1024x2048_S2048x256_S1024x256_1_0_0_1_n_n.lhsNonContracting by decide)]
  rfl
theorem dot1_l1 (i : S1024x256.Idx) (q : dot_S1024x2048_S2048x256_S1024x256_1_0_0_1_n_n.contr.Idx) :
    (dot_S1024x2048_S2048x256_S1024x256_1_0_0_1_n_n.lhsIdx i q 1).val = (q ⟨0, by decide⟩).val :=
  dot_S1024x2048_S2048x256_S1024x256_1_0_0_1_n_n.lhsIdx_val_of_single rfl i q
theorem dot1_r0 (i : S1024x256.Idx) (q : dot_S1024x2048_S2048x256_S1024x256_1_0_0_1_n_n.contr.Idx) :
    (dot_S1024x2048_S2048x256_S1024x256_1_0_0_1_n_n.rhsIdx i q 0).val = (q ⟨0, by decide⟩).val :=
  dot_S1024x2048_S2048x256_S1024x256_1_0_0_1_n_n.rhsIdx_val_of_single rfl i q
theorem dot1_r1 (i : S1024x256.Idx) (q : dot_S1024x2048_S2048x256_S1024x256_1_0_0_1_n_n.contr.Idx) :
    (dot_S1024x2048_S2048x256_S1024x256_1_0_0_1_n_n.rhsIdx i q 1).val = (i 1).val := by
  unfold DotDims.rhsIdx
  rw [dif_neg (show ¬(1 : Fin S2048x256.rank) ∈ dot_S1024x2048_S2048x256_S1024x256_1_0_0_1_n_n.rhsBatch by decide), dif_pos (show (1 : Fin S2048x256.rank) ∈ dot_S1024x2048_S2048x256_S1024x256_1_0_0_1_n_n.rhsNonContracting by decide)]
  rfl

/-- The accumulator's reset value is zero everywhere. -/
theorem pay1_1_apply (p : Fin 1024) (q : Fin 256) : (k1_pay1 (F := Ideal)) (ix2 p q) = 0 := by
  unfold k1_pay1
  rw [shapeCast_self]
  exact Ideal.ofBits_zero_f32

/-- One step of the accumulation at an entry: the entry plus the product's entry, a sum over the block of the contracted axis. -/
theorem pay2_1_apply (x : Vec Ideal S1024x2048 .f32) (w : Vec Ideal S2048x256 .f32) (acc : Vec Ideal S1024x256 .f32)
    (p : Fin 1024) (q : Fin 256) :
    k1_pay2 x w acc (ix2 p q) = acc (ix2 p q) + ∑ κ : Fin 2048, x (ix2 p κ) * w (ix2 κ q) := by
  unfold k1_pay2
  simp only [shapeCast_self]
  rw [addf_apply]
  refine congrArg (acc (ix2 p q) + ·) ?_
  exact Cert.LibPlainMatmul.matmul_zero_apply dot_S1024x2048_S2048x256_S1024x256_1_0_0_1_n_n none rfl rfl dot1_l0 dot1_l1 dot1_r0 dot1_r1 _ _ p q

/-- The stored block at an entry: the accumulator's entry plus the bias row's, clamped at zero. -/
theorem pay3_1_apply (acc : Vec Ideal S1024x256 .f32) (b : Vec Ideal S256 .f32) (p : Fin 1024) (q : Fin 256) :
    k1_pay3 acc b (ix2 p q) = max (acc (ix2 p q) + b (ix1 q)) 0 := by
  unfold k1_pay3
  rw [maximumf_apply, addf_apply, broadcast_apply, broadcastTo_1b_ab_apply, shapeCast_a_1a_apply]
  exact congrArg (max _) Ideal.ofBits_zero_f32

/-! ## A sum over the contracted axis, block by block -/

/-- A sum over 8192 indices is the sum of its four consecutive blocks of 2048, added up from zero in order: the blocks'
    index sets partition the 8192, and addition is commutative and associative. -/
private theorem sum_four_blocks {α : Type*} [AddCommMonoid α] (f : Fin 8192 → α) (g0 g1 g2 g3 : Fin 2048 → α)
    (h0 : ∀ (κ : Fin 2048) (j : Fin 8192), j.val = κ.val → g0 κ = f j)
    (h1 : ∀ (κ : Fin 2048) (j : Fin 8192), j.val = 2048 + κ.val → g1 κ = f j)
    (h2 : ∀ (κ : Fin 2048) (j : Fin 8192), j.val = 4096 + κ.val → g2 κ = f j)
    (h3 : ∀ (κ : Fin 2048) (j : Fin 8192), j.val = 6144 + κ.val → g3 κ = f j) :
    (((0 + ∑ κ, g0 κ) + ∑ κ, g1 κ) + ∑ κ, g2 κ) + ∑ κ, g3 κ = ∑ j, f j := by
  rw [← Equiv.sum_comp (finProdFinEquiv (m := 4) (n := 2048)) f, Fintype.sum_prod_type, Fin.sum_univ_four, zero_add]
  refine congrArg₂ (· + ·) (congrArg₂ (· + ·) (congrArg₂ (· + ·) ?_ ?_) ?_) ?_
  · exact Finset.sum_congr rfl fun κ _ => h0 κ _ (by show κ.val + 2048 * 0 = κ.val; omega)
  · exact Finset.sum_congr rfl fun κ _ => h1 κ _ (by show κ.val + 2048 * 1 = 2048 + κ.val; omega)
  · exact Finset.sum_congr rfl fun κ _ => h2 κ _ (by show κ.val + 2048 * 2 = 4096 + κ.val; omega)
  · exact Finset.sum_congr rfl fun κ _ => h3 κ _ (by show κ.val + 2048 * 3 = 6144 + κ.val; omega)

/-! ## The windows' blocks read at an index -/

/-- The block indices of the three input windows and of the result's window at a point: the point's row block and its block of
    the contracted axis (decided over the grid's 32 points). -/
theorem idx_facts1 : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 1) = 0
    ∧ win1_3.index t (0 : Fin 2) = t.val / 4 ∧ win1_3.index t (1 : Fin 2) = 0 :=
  (by decide +kernel : ∀ t : Fin grid1.N, _)

/-- The left operand's block at a point, at an entry: the array's entry at the point's row block and block of the contracted axis. -/
theorem iblk1_0_apply (c : Dev nD) (t : Fin cfg1.N) (p : Fin 1024) (κ : Fin 2048) (r k : Fin 8192)
    (hr : r.val = 1024 * (t.val / 4) + p.val) (hk : k.val = 2048 * (t.val % 4) + κ.val) :
    iblk1 V c 0 t (ix2 p κ) = V c main_arg1 (ix2 r k) := by
  obtain ⟨e0, e1, -⟩ := idx_facts1 t
  unfold iblk1
  rw [View.read_apply]
  show V c main_arg1 _ = V c main_arg1 _
  congr 1
  funext a
  apply Fin.ext
  match a with
  | ⟨0, _⟩ => show win1_0.index t (0 : Fin 2) * 1024 + 1 * p.val = r.val; omega
  | ⟨1, _⟩ => show win1_0.index t (1 : Fin 2) * 2048 + 1 * κ.val = k.val; omega

/-- The right operand's block at a point, at an entry: the array's entry at the point's block of the contracted axis. -/
theorem iblk1_1_apply (c : Dev nD) (t : Fin cfg1.N) (κ : Fin 2048) (q : Fin 256) (k : Fin 8192)
    (hk : k.val = 2048 * (t.val % 4) + κ.val) :
    iblk1 V c 1 t (ix2 κ q) = V c main_v2 (ix2 k q) := by
  obtain ⟨-, -, e0, e1, -⟩ := idx_facts1 t
  unfold iblk1
  rw [View.read_apply]
  show V c main_v2 _ = V c main_v2 _
  congr 1
  funext a
  apply Fin.ext
  match a with
  | ⟨0, _⟩ => show win1_1.index t (0 : Fin 2) * 2048 + 1 * κ.val = k.val; omega
  | ⟨1, _⟩ => show win1_1.index t (1 : Fin 2) * 256 + 1 * q.val = q.val; omega

/-- The bias row's block at a point is the whole row. -/
theorem iblk1_2_apply (c : Dev nD) (t : Fin cfg1.N) (q : Fin 256) :
    iblk1 V c 2 t (ix1 q) = V c main_arg3 (ix1 q) := by
  obtain ⟨-, -, -, -, e0, -⟩ := idx_facts1 t
  unfold iblk1
  rw [View.read_apply]
  show V c main_arg3 _ = V c main_arg3 _
  congr 1
  funext a
  apply Fin.ext
  match a with
  | ⟨0, _⟩ => show win1_2.index t (0 : Fin 1) * 256 + 1 * q.val = q.val; omega

/-! ## The accumulator at an entry -/

/-- One term of the product of a [1024, 2048] block and a [2048, 256] block at an entry, -/
def dotTerm1 (x : Vec Ideal S1024x2048 .f32) (w : Vec Ideal S2048x256 .f32) (p : Fin 1024) (q : Fin 256) (κ : Fin 2048) : Ideal .f32 :=
  x (ix2 p κ) * w (ix2 κ q)

/-- and the entry: their sum over the block of the contracted axis. -/
def dotAt1 (x : Vec Ideal S1024x2048 .f32) (w : Vec Ideal S2048x256 .f32) (p : Fin 1024) (q : Fin 256) : Ideal .f32 :=
  ∑ κ : Fin 2048, dotTerm1 x w p q κ

/-- One term of the whole product's entry (r, q). -/
def termAt1 (A : FVec Ideal S8192x8192 .f32) (B : FVec Ideal S8192x256 .f32) (r : Fin 8192) (q : Fin 256) (k : Fin 8192) : Ideal .f32 :=
  A (ix2 r k) * B (ix2 k q)

private theorem mul_congr_ideal {a a' b b' : Ideal .f32} (h1 : a = a') (h2 : b = b') : a * b = a' * b' := by rw [h1, h2]

/-- At the first of the four steps the accumulator's entry is zero plus the point's product's entry. -/
theorem sc1_reset_apply (c : Dev nD) (t : Fin cfg1.N) (h : t.val % 4 = 0) (p : Fin 1024) (q : Fin 256) :
    sc1 V c t.val t.isLt (ix2 p q) = 0 + dotAt1 (iblk1 V c 0 t) (iblk1 V c 1 t) p q := by
  rw [sc1_reset V c t h, pay2_1_apply, pay1_1_apply]; rfl

/-- At the other steps it is the entry the step before left plus the point's product's entry. -/
theorem sc1_step_apply (c : Dev nD) (t : Fin cfg1.N) (h : ¬ t.val % 4 = 0) (p : Fin 1024) (q : Fin 256) :
    sc1 V c t.val t.isLt (ix2 p q)
      = sc1 V c (t.val - 1) (Nat.lt_of_le_of_lt (Nat.sub_le _ _) t.isLt) (ix2 p q) + dotAt1 (iblk1 V c 0 t) (iblk1 V c 1 t) p q := by
  rw [sc1_step V c t h, pay2_1_apply]; rfl

/-- A term of a point's product's entry in the arrays' entries: the row is the point's row block's, the contracted index the
    point's block's. -/
theorem prod1_term (c : Dev nD) (t : Fin cfg1.N) (p : Fin 1024) (q : Fin 256) (r : Fin 8192)
    (hr : r.val = 1024 * (t.val / 4) + p.val) (κ : Fin 2048) (j : Fin 8192) (hj : j.val = 2048 * (t.val % 4) + κ.val) :
    dotTerm1 (iblk1 V c 0 t) (iblk1 V c 1 t) p q κ = termAt1 (V c main_arg1) (V c main_v2) r q j :=
  mul_congr_ideal (iblk1_0_apply V c t p κ r j hr hj) (iblk1_1_apply V c t κ q j hj)

/-- After the fourth step the accumulator's entry is the whole sum over the contracted axis: the four points of the row block
    walk its four blocks in order. -/
theorem sc1_fourth (c : Dev nD) (t : Fin cfg1.N) (h3 : t.val % 4 = 3) (p : Fin 1024) (q : Fin 256) (r : Fin 8192)
    (hr : r.val = 1024 * (t.val / 4) + p.val) :
    sc1 V c t.val t.isLt (ix2 p q) = ∑ k : Fin 8192, termAt1 (V c main_arg1) (V c main_v2) r q k := by
  have ht : t.val < 32 := t.isLt
  have b2 : t.val - 1 < cfg1.N := by show _ < 32; omega
  have b1 : t.val - 1 - 1 < cfg1.N := by show _ < 32; omega
  have b0 : t.val - 1 - 1 - 1 < cfg1.N := by show _ < 32; omega
  have e3 := sc1_step_apply V c t (by omega) p q
  have e2 := sc1_step_apply V c ⟨t.val - 1, b2⟩ (by show ¬ (t.val - 1) % 4 = 0; omega) p q
  have e1 := sc1_step_apply V c ⟨t.val - 1 - 1, b1⟩ (by show ¬ (t.val - 1 - 1) % 4 = 0; omega) p q
  have e0 := sc1_reset_apply V c ⟨t.val - 1 - 1 - 1, b0⟩ (by show (t.val - 1 - 1 - 1) % 4 = 0; omega) p q
  refine e3.trans ?_
  refine (congrArg (· + _) (e2.trans (congrArg (· + _) (e1.trans (congrArg (· + _) e0))))).trans ?_
  refine sum_four_blocks (termAt1 (V c main_arg1) (V c main_v2) r q) _ _ _ _ ?_ ?_ ?_ ?_
  · intro κ j hj
    exact prod1_term V c ⟨t.val - 1 - 1 - 1, b0⟩ p q r (by show r.val = 1024 * ((t.val - 1 - 1 - 1) / 4) + p.val; omega) κ j
      (by show j.val = 2048 * ((t.val - 1 - 1 - 1) % 4) + κ.val; omega)
  · intro κ j hj
    exact prod1_term V c ⟨t.val - 1 - 1, b1⟩ p q r (by show r.val = 1024 * ((t.val - 1 - 1) / 4) + p.val; omega) κ j
      (by show j.val = 2048 * ((t.val - 1 - 1) % 4) + κ.val; omega)
  · intro κ j hj
    exact prod1_term V c ⟨t.val - 1, b2⟩ p q r (by show r.val = 1024 * ((t.val - 1) / 4) + p.val; omega) κ j
      (by show j.val = 2048 * ((t.val - 1) % 4) + κ.val; omega)
  · intro κ j hj
    exact prod1_term V c t p q r hr κ j (by omega)

/-! ## The result array -/

/-- What a fourth point writes back is its block of the clamped product-plus-bias of the arrays. -/
theorem flushed1_3_eq (c : Dev nD) (t : Fin cfg1.N) (hf : (cfg1.win 3).flush t = true) :
    (dat1 V c).flushed 3 t
      = ((cfg1.win 3).blk t).view.read (Elt Ideal)
          (Cert.Spec.relu (Cert.Spec.gemmB (V c main_arg1) (V c main_v2) (V c main_arg3))) := by
  have h3 : t.val % 4 = 3 := (flush1_3 t).mp hf
  have ht : t.val < 32 := t.isLt
  obtain ⟨-, -, -, -, -, e0, e1⟩ := idx_facts1 t
  show (cfg1.win 3).cut (grid1.coords t) ((dat1 V c).after 3 t) = _
  rw [after1_3]
  unfold out1
  refine funext fun (y : S1024x256.Idx) => ?_
  obtain ⟨p, q, rfl⟩ : ∃ (p : Fin 1024) (q : Fin 256), y = ix2 p q := ⟨y 0, y 1, eq_ix2 y⟩
  rw [View.read_apply]
  have hemb : ((cfg1.win 3).blk t).view.emb (ix2 p q)
      = (ix2 (⟨1024 * (t.val / 4) + p.val, by omega⟩ : Fin 8192) q : S8192x256.Idx) := by
    funext a
    apply Fin.ext
    match a with
    | ⟨0, _⟩ => show win1_3.index t (0 : Fin 2) * 1024 + 1 * p.val = 1024 * (t.val / 4) + p.val; omega
    | ⟨1, _⟩ => show win1_3.index t (1 : Fin 2) * 256 + 1 * q.val = q.val; omega
  show k1_pay3 (sc1 V c t.val t.isLt) (iblk1 V c 2 t) (ix2 p q)
    = Cert.Spec.relu (Cert.Spec.gemmB (V c main_arg1) (V c main_v2) (V c main_arg3)) (((cfg1.win 3).blk t).view.emb (ix2 p q))
  rw [hemb, pay3_1_apply, sc1_fourth V c t h3 p q ⟨1024 * (t.val / 4) + p.val, by omega⟩ rfl, iblk1_2_apply]
  rfl

/-- An index of the result array is in a point's block iff each coordinate is in the block's range on its axis. -/
theorem mem_blk1_3 (t : Fin cfg1.N) (i : S8192x256.Idx) :
    i ∈ ((cfg1.win 3).blk t).view.set ↔ ∀ a : Fin 2, win1_3.index t a * S1024x256.size a ≤ (i a).val
      ∧ (i a).val < win1_3.index t a * S1024x256.size a + S1024x256.size a := by
  show i ∈ ((View.whole main_v3).slice (win1_3.rect t)).set ↔ _
  rw [View.set_slice_whole, Rect.mem_set_unit]
  exact Iff.rfl

/-- Every index of the result array is in the block of the fourth point of its row block. -/
theorem cover1_3 (i : S8192x256.Idx) :
    ∃ t : Fin cfg1.N, (cfg1.win 3).flush t = true ∧ i ∈ ((cfg1.win 3).blk t).view.set := by
  have hi0 : (i 0).val < 8192 := (i 0).isLt
  have hi1 : (i 1).val < 256 := (i 1).isLt
  have hb : 4 * ((i 0).val / 1024) + 3 < cfg1.N := by show _ < 32; omega
  obtain ⟨-, -, -, -, -, e0, e1⟩ := idx_facts1 ⟨4 * ((i 0).val / 1024) + 3, hb⟩
  have e0' : win1_3.index ⟨4 * ((i 0).val / 1024) + 3, hb⟩ (0 : Fin 2) = (4 * ((i 0).val / 1024) + 3) / 4 := e0
  refine ⟨⟨4 * ((i 0).val / 1024) + 3, hb⟩, (flush1_3 _).mpr (by show (4 * ((i 0).val / 1024) + 3) % 4 = 3; omega), ?_⟩
  rw [mem_blk1_3]
  intro a
  match a with
  | ⟨0, _⟩ =>
    show win1_3.index ⟨4 * ((i 0).val / 1024) + 3, hb⟩ (0 : Fin 2) * 1024 ≤ (i 0).val
      ∧ (i 0).val < win1_3.index ⟨4 * ((i 0).val / 1024) + 3, hb⟩ (0 : Fin 2) * 1024 + 1024
    omega
  | ⟨1, _⟩ =>
    show win1_3.index ⟨4 * ((i 0).val / 1024) + 3, hb⟩ (1 : Fin 2) * 256 ≤ (i 1).val
      ∧ (i 1).val < win1_3.index ⟨4 * ((i 0).val / 1024) + 3, hb⟩ (1 : Fin 2) * 256 + 256
    omega

theorem val1 (c : Dev nD) :
    ((dat1 (F := Ideal) V c).arrAt 3 cfg1.N : FVec Ideal ⟨2, ![8192, 256]⟩ .f32)
      = Cert.Spec.relu (Cert.Spec.gemmB (V c main_arg1) (V c main_v2) (V c main_arg3)) :=
  (dat1 V c).arrAt_eq_of_cover 3 _ (flushed1_3_eq V c) cover1_3

end Cert.KernelIdeal.Hand

end
-- ==== Proof.KI.Val2.lean ====
/-
  Region 2's result array after the run, on the extended reals: the hidden layer's row blocks times the second weight
  matrix, plus the bias row the region is handed — every entry (r, j) is (∑ k, h (r, k) · W₂ (k, j)) + b j.
-/
import proofs.«121749_j28346784154172_1_alg».proof.Proof.KI.D2
import proofs.«121749_j28346784154172_1_alg».proof.Proof.Spec
import proofs.«121749_j28346784154172_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open scoped BigOperators
open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

-- the TensorCore's buffer contents when the region is entered, at the ideal values
variable (V : (c : Dev nD) → (b : Ref sig .tc) → Buf (Elt Ideal) ((c : Thread nD τ).loc b))

/-! ## The product's dimension numbers: which operand entries an output entry and a contraction index name -/

theorem dot2_l0 (i : S1024x64.Idx) (q : dot_S1024x256_S256x64_S1024x64_1_0_0_1_n_n.contr.Idx) :
    (dot_S1024x256_S256x64_S1024x64_1_0_0_1_n_n.lhsIdx i q 0).val = (i 0).val := by
  unfold DotDims.lhsIdx
  rw [dif_neg (show ¬(0 : Fin S1024x256.rank) ∈ dot_S1024x256_S256x64_S1024x64_1_0_0_1_n_n.lhsBatch by decide),
    dif_pos (show (0 : Fin S1024x256.rank) ∈ dot_S1024x256_S256x64_S1024x64_1_0_0_1_n_n.lhsNonContracting by decide)]
  rfl
theorem dot2_l1 (i : S1024x64.Idx) (q : dot_S1024x256_S256x64_S1024x64_1_0_0_1_n_n.contr.Idx) :
    (dot_S1024x256_S256x64_S1024x64_1_0_0_1_n_n.lhsIdx i q 1).val = (q ⟨0, by decide⟩).val :=
  dot_S1024x256_S256x64_S1024x64_1_0_0_1_n_n.lhsIdx_val_of_single rfl i q
theorem dot2_r0 (i : S1024x64.Idx) (q : dot_S1024x256_S256x64_S1024x64_1_0_0_1_n_n.contr.Idx) :
    (dot_S1024x256_S256x64_S1024x64_1_0_0_1_n_n.rhsIdx i q 0).val = (q ⟨0, by decide⟩).val :=
  dot_S1024x256_S256x64_S1024x64_1_0_0_1_n_n.rhsIdx_val_of_single rfl i q
theorem dot2_r1 (i : S1024x64.Idx) (q : dot_S1024x256_S256x64_S1024x64_1_0_0_1_n_n.contr.Idx) :
    (dot_S1024x256_S256x64_S1024x64_1_0_0_1_n_n.rhsIdx i q 1).val = (i 1).val := by
  unfold DotDims.rhsIdx
  rw [dif_neg (show ¬(1 : Fin S256x64.rank) ∈ dot_S1024x256_S256x64_S1024x64_1_0_0_1_n_n.rhsBatch by decide),
    dif_pos (show (1 : Fin S256x64.rank) ∈ dot_S1024x256_S256x64_S1024x64_1_0_0_1_n_n.rhsNonContracting by decide)]
  rfl

/-! ## The body's three stored values, entry by entry -/

/-- The reset value of the accumulator is zero everywhere. -/
theorem pay1_2_apply (j : S1024x64.Idx) : k2_pay1 (F := Ideal) j = 0 := by
  unfold k2_pay1
  show shapeCast S1024x64 (broadcast S1024x64 (Scalar.ofBits (F := Ideal) .f32 0x00000000#32)) shapeCasts_S1024x64_S1024x64 j = 0
  rw [shapeCast_self]
  exact Ideal.ofBits_zero_f32

/-- The accumulator after the product is added: entry (p, q) gains ∑ k, x (p, k) · w (k, q). -/
theorem pay2_2_apply (x : FVec Ideal S1024x256 .f32) (w : FVec Ideal S256x64 .f32) (acc : FVec Ideal S1024x64 .f32)
    (p : Fin 1024) (q : Fin 64) :
    k2_pay2 x w acc (ix2 p q) = acc (ix2 p q) + ∑ k : Fin 256, x (ix2 p k) * w (ix2 k q) := by
  unfold k2_pay2
  show shapeCast S1024x64 (addf acc (matmul dot_S1024x256_S256x64_S1024x64_1_0_0_1_n_n none
      (truncf .bf16 (shapeCast S1024x256 x shapeCasts_S1024x256_S1024x256) bitsLt_bf16_f32) (truncf .bf16 w bitsLt_bf16_f32)
      (constant S1024x64 .f32 0x00000000#32)))
      shapeCasts_S1024x64_S1024x64 (ix2 p q) = _
  rw [shapeCast_self, shapeCast_self, addf_apply]
  exact congrArg (acc (ix2 p q) + ·)
    (Cert.LibPlainMatmul.matmul_zero_apply dot_S1024x256_S256x64_S1024x64_1_0_0_1_n_n none rfl rfl
      dot2_l0 dot2_l1 dot2_r0 dot2_r1 (truncf .bf16 x bitsLt_bf16_f32) (truncf .bf16 w bitsLt_bf16_f32) p q)

/-- The stored result: the accumulator plus the bias row, the same row under every row of the block. -/
theorem pay3_2_apply (acc : FVec Ideal S1024x64 .f32) (b : FVec Ideal S64 .f32) (p : Fin 1024) (q : Fin 64) :
    k2_pay3 acc b (ix2 p q) = acc (ix2 p q) + b (ix1 q) := by
  unfold k2_pay3
  show addf acc (broadcastTo S1024x64 (shapeCast S1x64 (shapeCast S64 b shapeCasts_S64_S64) shapeCasts_S64_S1x64)
      broadcasts_S1x64_S1024x64) (ix2 p q) = _
  rw [addf_apply, broadcastTo_1b_ab_apply, shapeCast_a_1a_apply, shapeCast_self]

/-! ## The windows' blocks, entry by entry

A block's entry sits in its array, on each axis, at the block index times the block's extent plus the coordinate inside the
block. Over this grid the hidden layer's and the result's blocks move down the rows with the point; the weights and the bias
row are one block each. -/

/-- The block indices, decided over the eight points. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

theorem pt2_lt (t : Fin cfg2.N) : t.val < 8 := lt_of_lt_of_eq t.isLt N_2

/-- The array row under row `p` of point `t`'s block. -/
def row2 (t : Fin cfg2.N) (p : Fin 1024) : Fin 8192 := ⟨t.val * 1024 + p.val, by have := pt2_lt t; omega⟩

theorem iblk2_0_apply (c : Dev nD) (t : Fin cfg2.N) (p : Fin 1024) (k : Fin 256) :
    (iblk2 V c 0 t : FVec Ideal S1024x256 .f32) (ix2 p k) = (V c main_v3 : FVec Ideal S8192x256 .f32) (ix2 (row2 t p) k) := by
  obtain ⟨e0, e1, -⟩ := idx2 t
  show V c main_v3 (((cfg2.win 0).blk t).view.emb (ix2 p k)) = _
  refine congrArg (V c main_v3) (funext fun a => Fin.ext ?_)
  match a with
  | ⟨0, _⟩ => show win2_0.index t (0 : Fin 2) * 1024 + 1 * p.val = t.val * 1024 + p.val; omega
  | ⟨1, _⟩ => show win2_0.index t (1 : Fin 2) * 256 + 1 * k.val = k.val; omega

theorem iblk2_1_apply (c : Dev nD) (t : Fin cfg2.N) (k : Fin 256) (q : Fin 64) :
    (iblk2 V c 1 t : FVec Ideal S256x64 .f32) (ix2 k q) = (V c main_arg4 : FVec Ideal S256x64 .f32) (ix2 k q) := by
  obtain ⟨-, -, e0, e1, -⟩ := idx2 t
  show V c main_arg4 (((cfg2.win 1).blk t).view.emb (ix2 k q)) = _
  refine congrArg (V c main_arg4) (funext fun a => Fin.ext ?_)
  match a with
  | ⟨0, _⟩ => show win2_1.index t (0 : Fin 2) * 256 + 1 * k.val = k.val; omega
  | ⟨1, _⟩ => show win2_1.index t (1 : Fin 2) * 64 + 1 * q.val = q.val; omega

theorem iblk2_2_apply (c : Dev nD) (t : Fin cfg2.N) (q : Fin 64) :
    (iblk2 V c 2 t : FVec Ideal S64 .f32) (ix1 q) = (V c main_v1 : FVec Ideal S64 .f32) (ix1 q) := by
  obtain ⟨-, -, -, -, e0, -⟩ := idx2 t
  show V c main_v1 (((cfg2.win 2).blk t).view.emb (ix1 q)) = _
  refine congrArg (V c main_v1) (funext fun a => Fin.ext ?_)
  match a with
  | ⟨0, _⟩ => show win2_2.index t (0 : Fin 1) * 64 + 1 * q.val = q.val; omega

/-! ## What a point stores, and the array after the run -/

/-- Entry (p, q) of what point `t` stores is the product-plus-bias at the array row under it. -/
theorem out2_apply (c : Dev nD) (t : Fin cfg2.N) (p : Fin 1024) (q : Fin 64) :
    (out2 V c t : FVec Ideal S1024x64 .f32) (ix2 p q)
      = Cert.Spec.gemmB (V c main_v3) (V c main_arg4) (V c main_v1) (ix2 (row2 t p) q) := by
  unfold out2
  refine (pay3_2_apply (sc2 V c t) (iblk2 V c 2 t) p q).trans ?_
  rw [Cert.Spec.gemmB_apply]
  refine congrArg₂ (· + ·) ?_ (iblk2_2_apply V c t q)
  unfold sc2
  refine (pay2_2_apply (iblk2 V c 0 t) (iblk2 V c 1 t) k2_pay1 p q).trans ?_
  rw [pay1_2_apply, zero_add]
  exact Finset.sum_congr rfl fun k _ => congrArg₂ (· * ·) (iblk2_0_apply V c t p k) (iblk2_1_apply V c t k q)

/-- What point `t` writes back is its block of the product-plus-bias of the arrays the region is handed. -/
theorem flushed2_3_eq (c : Dev nD) (t : Fin cfg2.N) :
    (dat2 V c).flushed 3 t
      = ((cfg2.win 3).blk t).view.read (Elt Ideal) (Cert.Spec.gemmB (V c main_v3) (V c main_arg4) (V c main_v1)) := by
  show (cfg2.win 3).cut (grid2.coords t) ((dat2 V c).after 3 t) = _
  rw [after2_3]
  funext y
  obtain ⟨p, q, rfl⟩ : ∃ (p : Fin 1024) (q : Fin 64), y = ix2 p q := ⟨y 0, y 1, eq_ix2 y⟩
  obtain ⟨-, -, -, -, -, e0, e1⟩ := idx2 t
  show (out2 V c t : FVec Ideal S1024x64 .f32) (ix2 p q)
    = Cert.Spec.gemmB (V c main_v3) (V c main_arg4) (V c main_v1) (((cfg2.win 3).blk t).view.emb (ix2 p q))
  rw [out2_apply]
  refine congrArg _ (funext fun a => Fin.ext ?_)
  match a with
  | ⟨0, _⟩ => show t.val * 1024 + p.val = win2_3.index t (0 : Fin 2) * 1024 + 1 * p.val; omega
  | ⟨1, _⟩ => show q.val = win2_3.index t (1 : Fin 2) * 64 + 1 * q.val; omega

/-- An entry of the result array is in point `t`'s block iff each coordinate is in the block's range on its axis. -/
theorem mem_blk2_3 (t : Fin cfg2.N) (i : S8192x64.Idx) :
    i ∈ ((cfg2.win 3).blk t).view.set ↔ ∀ a : Fin 2, win2_3.index t a * S1024x64.size a ≤ (i a).val
      ∧ (i a).val < win2_3.index t a * S1024x64.size a + S1024x64.size a := by
  show i ∈ ((View.whole main_v4).slice (win2_3.rect t)).set ↔ _
  rw [View.set_slice_whole, Rect.mem_set_unit]
  exact Iff.rfl

/-- The eight row blocks tile the result array: row `r` is in the block of point `r / 1024`. -/
theorem cover2_3 (i : S8192x64.Idx) :
    ∃ t : Fin cfg2.N, (cfg2.win 3).flush t = true ∧ i ∈ ((cfg2.win 3).blk t).view.set := by
  have hi0 : (i 0).val < 8192 := (i 0).isLt
  have hi1 : (i 1).val < 64 := (i 1).isLt
  obtain ⟨t, ht⟩ : ∃ t : Fin cfg2.N, t.val = (i 0).val / 1024 :=
    ⟨⟨(i 0).val / 1024, lt_of_lt_of_eq (by omega : (i 0).val / 1024 < 8) N_2.symm⟩, rfl⟩
  obtain ⟨-, -, -, -, -, e0, e1⟩ := idx2 t
  refine ⟨t, flush2_3 t, ?_⟩
  rw [mem_blk2_3]
  intro a
  match a with
  | ⟨0, _⟩ =>
    show win2_3.index t (0 : Fin 2) * 1024 ≤ (i 0).val ∧ (i 0).val < win2_3.index t (0 : Fin 2) * 1024 + 1024
    omega
  | ⟨1, _⟩ =>
    show win2_3.index t (1 : Fin 2) * 64 ≤ (i 1).val ∧ (i 1).val < win2_3.index t (1 : Fin 2) * 64 + 64
    omega

theorem val2 (c : Dev nD) :
    ((dat2 (F := Ideal) V c).arrAt 3 cfg2.N : FVec Ideal ⟨2, ![8192, 64]⟩ .f32)
      = Cert.Spec.gemmB (V c main_v3) (V c main_arg4) (V c main_v1) :=
  (dat2 V c).arrAt_eq_of_cover 3 _ (fun t _ => flushed2_3_eq V c t) cover2_3

end Cert.KernelIdeal.Hand

end
-- ==== Proof.KI.Val3.lean ====
/-
  Region 3's result array after the run, on the extended reals: the adjacency matrix times region 2's result, plus the
  bias row — entry (r, j) is (∑ k, adj (r, k) · t₂ (k, j)) + b₂ j, the contracted axis walked in four blocks of 2048
  whose partial sums the accumulator adds up from zero; a sum over 8192 indices is the sum of its four blocks' sums, in
  any grouping (addition of extended reals is commutative and associative).
-/
import proofs.«121749_j28346784154172_1_alg».proof.Proof.KI.D3
import proofs.«121749_j28346784154172_1_alg».proof.Proof.Spec
import proofs.«121749_j28346784154172_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Data.Fintype.BigOperators
import Mathlib.Logic.Equiv.Fin.Basic

set_option maxRecDepth 16384

noncomputable section

namespace Cert.KernelIdeal.Hand

open scoped BigOperators
open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

-- the TensorCore's buffer contents when the region is entered, at the ideal values
variable (V : (c : Dev nD) → (b : Ref sig .tc) → Buf (Elt Ideal) ((c : Thread nD τ).loc b))

/-! ## The payloads read at an index -/

theorem dot3_l0 (i : S1024x64.Idx) (q : dot_S1024x2048_S2048x64_S1024x64_1_0_0_1_n_n.contr.Idx) :
    (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem dot3_l1 (i : S1024x64.Idx) (q : dot_S1024x2048_S2048x64_S1024x64_1_0_0_1_n_n.contr.Idx) :
    (dot_S1024x2048_S2048x64_S1024x64_1_0_0_1_n_n.lhsIdx i q 1).val = (q ⟨0, by decide⟩).val :=
  dot_S1024x2048_S2048x64_S1024x64_1_0_0_1_n_n.lhsIdx_val_of_single rfl i q
theorem dot3_r0 (i : S1024x64.Idx) (q : dot_S1024x2048_S2048x64_S1024x64_1_0_0_1_n_n.contr.Idx) :
    (dot_S1024x2048_S2048x64_S1024x64_1_0_0_1_n_n.rhsIdx i q 0).val = (q ⟨0, by decide⟩).val :=
  dot_S1024x2048_S2048x64_S1024x64_1_0_0_1_n_n.rhsIdx_val_of_single rfl i q
theorem dot3_r1 (i : S1024x64.Idx) (q : dot_S1024x2048_S2048x64_S1024x64_1_0_0_1_n_n.contr.Idx) :
    (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-- The accumulator's reset value is zero everywhere. -/
theorem pay1_3_apply (p : Fin 1024) (q : Fin 64) : (k3_pay1 (F := Ideal)) (ix2 p q) = 0 := by
  unfold k3_pay1
  rw [shapeCast_self]
  exact Ideal.ofBits_zero_f32

/-- One step of the accumulation at an entry: the entry plus the product's entry, a sum over the block of the contracted axis. -/
theorem pay2_3_apply (x : Vec Ideal S1024x2048 .f32) (w : Vec Ideal S2048x64 .f32) (acc : Vec Ideal S1024x64 .f32)
    (p : Fin 1024) (q : Fin 64) :
    k3_pay2 x w acc (ix2 p q) = acc (ix2 p q) + ∑ κ : Fin 2048, x (ix2 p κ) * w (ix2 κ q) := by
  unfold k3_pay2
  simp only [shapeCast_self]
  rw [addf_apply]
  refine congrArg (acc (ix2 p q) + ·) ?_
  exact Cert.LibPlainMatmul.matmul_zero_apply dot_S1024x2048_S2048x64_S1024x64_1_0_0_1_n_n none rfl rfl dot3_l0 dot3_l1 dot3_r0 dot3_r1 _ _ p q

/-- The stored block at an entry: the accumulator's entry plus the bias row's. -/
theorem pay3_3_apply (acc : Vec Ideal S1024x64 .f32) (b : Vec Ideal S64 .f32) (p : Fin 1024) (q : Fin 64) :
    k3_pay3 acc b (ix2 p q) = acc (ix2 p q) + b (ix1 q) := by
  unfold k3_pay3
  rw [addf_apply, broadcastTo_1b_ab_apply, shapeCast_a_1a_apply]

/-! ## A sum over the contracted axis, block by block -/

/-- A sum over 8192 indices is the sum of its four consecutive blocks of 2048, added up from zero in order: the blocks'
    index sets partition the 8192, and addition is commutative and associative. -/
private theorem sum_four_blocks {α : Type*} [AddCommMonoid α] (f : Fin 8192 → α) (g0 g1 g2 g3 : Fin 2048 → α)
    (h0 : ∀ (κ : Fin 2048) (j : Fin 8192), j.val = κ.val → g0 κ = f j)
    (h1 : ∀ (κ : Fin 2048) (j : Fin 8192), j.val = 2048 + κ.val → g1 κ = f j)
    (h2 : ∀ (κ : Fin 2048) (j : Fin 8192), j.val = 4096 + κ.val → g2 κ = f j)
    (h3 : ∀ (κ : Fin 2048) (j : Fin 8192), j.val = 6144 + κ.val → g3 κ = f j) :
    (((0 + ∑ κ, g0 κ) + ∑ κ, g1 κ) + ∑ κ, g2 κ) + ∑ κ, g3 κ = ∑ j, f j := by
  rw [← Equiv.sum_comp (finProdFinEquiv (m := 4) (n := 2048)) f, Fintype.sum_prod_type, Fin.sum_univ_four, zero_add]
  refine congrArg₂ (· + ·) (congrArg₂ (· + ·) (congrArg₂ (· + ·) ?_ ?_) ?_) ?_
  · exact Finset.sum_congr rfl fun κ _ => h0 κ _ (by show κ.val + 2048 * 0 = κ.val; omega)
  · exact Finset.sum_congr rfl fun κ _ => h1 κ _ (by show κ.val + 2048 * 1 = 2048 + κ.val; omega)
  · exact Finset.sum_congr rfl fun κ _ => h2 κ _ (by show κ.val + 2048 * 2 = 4096 + κ.val; omega)
  · exact Finset.sum_congr rfl fun κ _ => h3 κ _ (by show κ.val + 2048 * 3 = 6144 + κ.val; omega)

/-! ## The windows' blocks read at an index -/

/-- The block indices of the three input windows and of the result's window at a point: the point's row block and its block of
    the contracted axis (decided over the grid's 32 points). -/
theorem idx_facts3 : ∀ t : Fin cfg3.N,
    win3_0.index t (0 : Fin 2) = t.val / 4 ∧ win3_0.index t (1 : Fin 2) = t.val % 4
    ∧ win3_1.index t (0 : Fin 2) = t.val % 4 ∧ win3_1.index t (1 : Fin 2) = 0
    ∧ win3_2.index t (0 : Fin 1) = 0
    ∧ win3_3.index t (0 : Fin 2) = t.val / 4 ∧ win3_3.index t (1 : Fin 2) = 0 :=
  (by decide +kernel : ∀ t : Fin grid3.N, _)

/-- The left operand's block at a point, at an entry: the array's entry at the point's row block and block of the contracted axis. -/
theorem iblk3_0_apply (c : Dev nD) (t : Fin cfg3.N) (p : Fin 1024) (κ : Fin 2048) (r k : Fin 8192)
    (hr : r.val = 1024 * (t.val / 4) + p.val) (hk : k.val = 2048 * (t.val % 4) + κ.val) :
    iblk3 V c 0 t (ix2 p κ) = V c main_arg1 (ix2 r k) := by
  obtain ⟨e0, e1, -⟩ := idx_facts3 t
  unfold iblk3
  rw [View.read_apply]
  show V c main_arg1 _ = V c main_arg1 _
  congr 1
  funext a
  apply Fin.ext
  match a with
  | ⟨0, _⟩ => show win3_0.index t (0 : Fin 2) * 1024 + 1 * p.val = r.val; omega
  | ⟨1, _⟩ => show win3_0.index t (1 : Fin 2) * 2048 + 1 * κ.val = k.val; omega

/-- The right operand's block at a point, at an entry: the array's entry at the point's block of the contracted axis. -/
theorem iblk3_1_apply (c : Dev nD) (t : Fin cfg3.N) (κ : Fin 2048) (q : Fin 64) (k : Fin 8192)
    (hk : k.val = 2048 * (t.val % 4) + κ.val) :
    iblk3 V c 1 t (ix2 κ q) = V c main_v4 (ix2 k q) := by
  obtain ⟨-, -, e0, e1, -⟩ := idx_facts3 t
  unfold iblk3
  rw [View.read_apply]
  show V c main_v4 _ = V c main_v4 _
  congr 1
  funext a
  apply Fin.ext
  match a with
  | ⟨0, _⟩ => show win3_1.index t (0 : Fin 2) * 2048 + 1 * κ.val = k.val; omega
  | ⟨1, _⟩ => show win3_1.index t (1 : Fin 2) * 64 + 1 * q.val = q.val; omega

/-- The bias row's block at a point is the whole row. -/
theorem iblk3_2_apply (c : Dev nD) (t : Fin cfg3.N) (q : Fin 64) :
    iblk3 V c 2 t (ix1 q) = V c main_arg5 (ix1 q) := by
  obtain ⟨-, -, -, -, e0, -⟩ := idx_facts3 t
  unfold iblk3
  rw [View.read_apply]
  show V c main_arg5 _ = V c main_arg5 _
  congr 1
  funext a
  apply Fin.ext
  match a with
  | ⟨0, _⟩ => show win3_2.index t (0 : Fin 1) * 64 + 1 * q.val = q.val; omega

/-! ## The accumulator at an entry -/

/-- One term of the product of a [1024, 2048] block and a [2048, 64] block at an entry, -/
def dotTerm3 (x : Vec Ideal S1024x2048 .f32) (w : Vec Ideal S2048x64 .f32) (p : Fin 1024) (q : Fin 64) (κ : Fin 2048) : Ideal .f32 :=
  x (ix2 p κ) * w (ix2 κ q)

/-- and the entry: their sum over the block of the contracted axis. -/
def dotAt3 (x : Vec Ideal S1024x2048 .f32) (w : Vec Ideal S2048x64 .f32) (p : Fin 1024) (q : Fin 64) : Ideal .f32 :=
  ∑ κ : Fin 2048, dotTerm3 x w p q κ

/-- One term of the whole product's entry (r, q). -/
def termAt3 (A : FVec Ideal S8192x8192 .f32) (B : FVec Ideal S8192x64 .f32) (r : Fin 8192) (q : Fin 64) (k : Fin 8192) : Ideal .f32 :=
  A (ix2 r k) * B (ix2 k q)

private theorem mul_congr_ideal {a a' b b' : Ideal .f32} (h1 : a = a') (h2 : b = b') : a * b = a' * b' := by rw [h1, h2]

/-- At the first of the four steps the accumulator's entry is zero plus the point's product's entry. -/
theorem sc3_reset_apply (c : Dev nD) (t : Fin cfg3.N) (h : t.val % 4 = 0) (p : Fin 1024) (q : Fin 64) :
    sc3 V c t.val t.isLt (ix2 p q) = 0 + dotAt3 (iblk3 V c 0 t) (iblk3 V c 1 t) p q := by
  rw [sc3_reset V c t h, pay2_3_apply, pay1_3_apply]; rfl

/-- At the other steps it is the entry the step before left plus the point's product's entry. -/
theorem sc3_step_apply (c : Dev nD) (t : Fin cfg3.N) (h : ¬ t.val % 4 = 0) (p : Fin 1024) (q : Fin 64) :
    sc3 V c t.val t.isLt (ix2 p q)
      = sc3 V c (t.val - 1) (Nat.lt_of_le_of_lt (Nat.sub_le _ _) t.isLt) (ix2 p q) + dotAt3 (iblk3 V c 0 t) (iblk3 V c 1 t) p q := by
  rw [sc3_step V c t h, pay2_3_apply]; rfl

/-- A term of a point's product's entry in the arrays' entries: the row is the point's row block's, the contracted index the
    point's block's. -/
theorem prod3_term (c : Dev nD) (t : Fin cfg3.N) (p : Fin 1024) (q : Fin 64) (r : Fin 8192)
    (hr : r.val = 1024 * (t.val / 4) + p.val) (κ : Fin 2048) (j : Fin 8192) (hj : j.val = 2048 * (t.val % 4) + κ.val) :
    dotTerm3 (iblk3 V c 0 t) (iblk3 V c 1 t) p q κ = termAt3 (V c main_arg1) (V c main_v4) r q j :=
  mul_congr_ideal (iblk3_0_apply V c t p κ r j hr hj) (iblk3_1_apply V c t κ q j hj)

/-- After the fourth step the accumulator's entry is the whole sum over the contracted axis: the four points of the row block
    walk its four blocks in order. -/
theorem sc3_fourth (c : Dev nD) (t : Fin cfg3.N) (h3 : t.val % 4 = 3) (p : Fin 1024) (q : Fin 64) (r : Fin 8192)
    (hr : r.val = 1024 * (t.val / 4) + p.val) :
    sc3 V c t.val t.isLt (ix2 p q) = ∑ k : Fin 8192, termAt3 (V c main_arg1) (V c main_v4) r q k := by
  have ht : t.val < 32 := t.isLt
  have b2 : t.val - 1 < cfg3.N := by show _ < 32; omega
  have b1 : t.val - 1 - 1 < cfg3.N := by show _ < 32; omega
  have b0 : t.val - 1 - 1 - 1 < cfg3.N := by show _ < 32; omega
  have e3 := sc3_step_apply V c t (by omega) p q
  have e2 := sc3_step_apply V c ⟨t.val - 1, b2⟩ (by show ¬ (t.val - 1) % 4 = 0; omega) p q
  have e1 := sc3_step_apply V c ⟨t.val - 1 - 1, b1⟩ (by show ¬ (t.val - 1 - 1) % 4 = 0; omega) p q
  have e0 := sc3_reset_apply V c ⟨t.val - 1 - 1 - 1, b0⟩ (by show (t.val - 1 - 1 - 1) % 4 = 0; omega) p q
  refine e3.trans ?_
  refine (congrArg (· + _) (e2.trans (congrArg (· + _) (e1.trans (congrArg (· + _) e0))))).trans ?_
  refine sum_four_blocks (termAt3 (V c main_arg1) (V c main_v4) r q) _ _ _ _ ?_ ?_ ?_ ?_
  · intro κ j hj
    exact prod3_term V c ⟨t.val - 1 - 1 - 1, b0⟩ p q r (by show r.val = 1024 * ((t.val - 1 - 1 - 1) / 4) + p.val; omega) κ j
      (by show j.val = 2048 * ((t.val - 1 - 1 - 1) % 4) + κ.val; omega)
  · intro κ j hj
    exact prod3_term V c ⟨t.val - 1 - 1, b1⟩ p q r (by show r.val = 1024 * ((t.val - 1 - 1) / 4) + p.val; omega) κ j
      (by show j.val = 2048 * ((t.val - 1 - 1) % 4) + κ.val; omega)
  · intro κ j hj
    exact prod3_term V c ⟨t.val - 1, b2⟩ p q r (by show r.val = 1024 * ((t.val - 1) / 4) + p.val; omega) κ j
      (by show j.val = 2048 * ((t.val - 1) % 4) + κ.val; omega)
  · intro κ j hj
    exact prod3_term V c t p q r hr κ j (by omega)

/-! ## The result array -/

/-- What a fourth point writes back is its block of the product-plus-bias of the arrays. -/
theorem flushed3_3_eq (c : Dev nD) (t : Fin cfg3.N) (hf : (cfg3.win 3).flush t = true) :
    (dat3 V c).flushed 3 t
      = ((cfg3.win 3).blk t).view.read (Elt Ideal)
          (Cert.Spec.gemmB (V c main_arg1) (V c main_v4) (V c main_arg5)) := by
  have h3 : t.val % 4 = 3 := (flush3_3 t).mp hf
  have ht : t.val < 32 := t.isLt
  obtain ⟨-, -, -, -, -, e0, e1⟩ := idx_facts3 t
  show (cfg3.win 3).cut (grid3.coords t) ((dat3 V c).after 3 t) = _
  rw [after3_3]
  unfold out3
  refine funext fun (y : S1024x64.Idx) => ?_
  obtain ⟨p, q, rfl⟩ : ∃ (p : Fin 1024) (q : Fin 64), y = ix2 p q := ⟨y 0, y 1, eq_ix2 y⟩
  rw [View.read_apply]
  have hemb : ((cfg3.win 3).blk t).view.emb (ix2 p q)
      = (ix2 (⟨1024 * (t.val / 4) + p.val, by omega⟩ : Fin 8192) q : S8192x64.Idx) := by
    funext a
    apply Fin.ext
    match a with
    | ⟨0, _⟩ => show win3_3.index t (0 : Fin 2) * 1024 + 1 * p.val = 1024 * (t.val / 4) + p.val; omega
    | ⟨1, _⟩ => show win3_3.index t (1 : Fin 2) * 64 + 1 * q.val = q.val; omega
  show k3_pay3 (sc3 V c t.val t.isLt) (iblk3 V c 2 t) (ix2 p q)
    = Cert.Spec.gemmB (V c main_arg1) (V c main_v4) (V c main_arg5) (((cfg3.win 3).blk t).view.emb (ix2 p q))
  rw [hemb, pay3_3_apply, sc3_fourth V c t h3 p q ⟨1024 * (t.val / 4) + p.val, by omega⟩ rfl, iblk3_2_apply]
  rfl

/-- An index of the result array is in a point's block iff each coordinate is in the block's range on its axis. -/
theorem mem_blk3_3 (t : Fin cfg3.N) (i : S8192x64.Idx) :
    i ∈ ((cfg3.win 3).blk t).view.set ↔ ∀ a : Fin 2, win3_3.index t a * S1024x64.size a ≤ (i a).val
      ∧ (i a).val < win3_3.index t a * S1024x64.size a + S1024x64.size a := by
  show i ∈ ((View.whole main_v5).slice (win3_3.rect t)).set ↔ _
  rw [View.set_slice_whole, Rect.mem_set_unit]
  exact Iff.rfl

/-- Every index of the result array is in the block of the fourth point of its row block. -/
theorem cover3_3 (i : S8192x64.Idx) :
    ∃ t : Fin cfg3.N, (cfg3.win 3).flush t = true ∧ i ∈ ((cfg3.win 3).blk t).view.set := by
  have hi0 : (i 0).val < 8192 := (i 0).isLt
  have hi1 : (i 1).val < 64 := (i 1).isLt
  have hb : 4 * ((i 0).val / 1024) + 3 < cfg3.N := by show _ < 32; omega
  obtain ⟨-, -, -, -, -, e0, e1⟩ := idx_facts3 ⟨4 * ((i 0).val / 1024) + 3, hb⟩
  have e0' : win3_3.index ⟨4 * ((i 0).val / 1024) + 3, hb⟩ (0 : Fin 2) = (4 * ((i 0).val / 1024) + 3) / 4 := e0
  refine ⟨⟨4 * ((i 0).val / 1024) + 3, hb⟩, (flush3_3 _).mpr (by show (4 * ((i 0).val / 1024) + 3) % 4 = 3; omega), ?_⟩
  rw [mem_blk3_3]
  intro a
  match a with
  | ⟨0, _⟩ =>
    show win3_3.index ⟨4 * ((i 0).val / 1024) + 3, hb⟩ (0 : Fin 2) * 1024 ≤ (i 0).val
      ∧ (i 0).val < win3_3.index ⟨4 * ((i 0).val / 1024) + 3, hb⟩ (0 : Fin 2) * 1024 + 1024
    omega
  | ⟨1, _⟩ =>
    show win3_3.index ⟨4 * ((i 0).val / 1024) + 3, hb⟩ (1 : Fin 2) * 64 ≤ (i 1).val
      ∧ (i 1).val < win3_3.index ⟨4 * ((i 0).val / 1024) + 3, hb⟩ (1 : Fin 2) * 64 + 64
    omega

theorem val3 (c : Dev nD) :
    ((dat3 (F := Ideal) V c).arrAt 3 cfg3.N : FVec Ideal ⟨2, ![8192, 64]⟩ .f32)
      = Cert.Spec.gemmB (V c main_arg1) (V c main_v4) (V c main_arg5) :=
  (dat3 V c).arrAt_eq_of_cover 3 _ (flushed3_3_eq V c) cover3_3

end Cert.KernelIdeal.Hand

end
-- ==== Proof.LibMatmulNT.lean ====
/-
  A matrix product against a transposed right operand, read at an index, at the ideal values.

  For dimension numbers `d` over shapes [M, K] × [N, K] → [M, N] that contract the left operand's axis 1 with the right
  operand's axis 1 and keep the left rows and the right rows — stated here as the four facts about the record's index
  maps that say so, so that the lemma serves any such record — the product accumulated into the
  zero splat, read at `(p, o)`, is `∑ k, A (p, k) · B (o, k)`: the library's sum over the record's contraction index set,
  re-indexed by that set's one coordinate.
-/
import Idealize.ShloMosaic.PureOps.Ideal.Laws
import Idealize.ShloMosaic.Lib.ValueIdx

noncomputable section

open scoped BigOperators
open Idealize.ShloMosaic Idealize.ShloMosaic.ValueIdx

namespace Cert.LibMatmulNT

/-- `FloatOps.matmul d prec A B 0 (p, o) = ∑ k : Fin K, A (p, k) * B (o, k)` for a record `d` with one contracted axis of
    extent `K` whose left index at `(i, q)` is `(i 0, q)` and whose right index is `(i 1, q)` (`hl0`, `hl1`, `hr0`, `hr1`:
    for a record given by literal axis lists the kept axes are a `dif_neg` / `dif_pos` on those lists, the contracted ones are
    `DotDims.lhsIdx_val_of_single` / `rhsIdx_val_of_single`). -/
theorem matmul_zero_apply_nt {M K N : ℕ} {φ₁ φ₂ : FTy}
    (d : DotDims ⟨2, ![M, K]⟩ ⟨2, ![N, K]⟩ ⟨2, ![M, N]⟩) (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (i 1).val)
    (hr1 : ∀ (i : (⟨2, ![M, N]⟩ : Shape).Idx) (q : d.contr.Idx), (d.rhsIdx i q 1).val = (q ⟨0, by omega⟩).val)
    (A : FVec Ideal ⟨2, ![M, K]⟩ φ₁) (B : FVec Ideal ⟨2, ![N, K]⟩ φ₂) (p : Fin M) (o : Fin N) :
    FloatOps.matmul d prec A B (constant (F := Ideal) ⟨2, ![M, N]⟩ .f32 0x00000000#32) (ix2 p o)
      = ∑ k : Fin K, A (ix2 p k) * B (ix2 o k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 o k := funext fun a => Fin.ext (by
    match a with
    | ⟨0, _⟩ => exact hr0 _ _
    | ⟨1, _⟩ => exact (hr1 _ _).trans hk)
  rw [el, er]

end Cert.LibMatmulNT

end
-- ==== Proof.KI.Val4.lean ====
/-
  Region 4's result array after the run, on the extended reals: the logistic function of the Gram matrix of the
  embedding's rows — entry (r, s) is logistic (∑ k, z (r, k) · z (s, k)). Point (i, j) writes block (i, j) of 1024 by
  1024 entries; the 64 blocks tile the array.
-/
import proofs.«121749_j28346784154172_1_alg».proof.Proof.KI.D4
import proofs.«121749_j28346784154172_1_alg».proof.Proof.Spec
import proofs.«121749_j28346784154172_1_alg».proof.Proof.LibPlainMatmul
import proofs.«121749_j28346784154172_1_alg».proof.Proof.LibMatmulNT
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open scoped BigOperators
open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

-- the TensorCore's buffer contents when the region is entered, at the ideal values
variable (V : (c : Dev nD) → (b : Ref sig .tc) → Buf (Elt Ideal) ((c : Thread nD τ).loc b))

/-! ## The product's index maps -/

theorem lhs4_0 (i : S1024x1024.Idx) (q : dot_S1024x64_S1024x64_S1024x1024_1_1_0_0_n_n.contr.Idx) :
    (dot_S1024x64_S1024x64_S1024x1024_1_1_0_0_n_n.lhsIdx i q 0).val = (i 0).val := by
  unfold DotDims.lhsIdx
  rw [dif_neg (show ¬(0 : Fin S1024x64.rank) ∈ dot_S1024x64_S1024x64_S1024x1024_1_1_0_0_n_n.lhsBatch by decide), dif_pos (show (0 : Fin S1024x64.rank) ∈ dot_S1024x64_S1024x64_S1024x1024_1_1_0_0_n_n.lhsNonContracting by decide)]
  rfl
theorem lhs4_1 (i : S1024x1024.Idx) (q : dot_S1024x64_S1024x64_S1024x1024_1_1_0_0_n_n.contr.Idx) :
    (dot_S1024x64_S1024x64_S1024x1024_1_1_0_0_n_n.lhsIdx i q 1).val = (q ⟨0, by decide⟩).val :=
  dot_S1024x64_S1024x64_S1024x1024_1_1_0_0_n_n.lhsIdx_val_of_single rfl i q
theorem rhs4_0 (i : S1024x1024.Idx) (q : dot_S1024x64_S1024x64_S1024x1024_1_1_0_0_n_n.contr.Idx) :
    (dot_S1024x64_S1024x64_S1024x1024_1_1_0_0_n_n.rhsIdx i q 0).val = (i 1).val := by
  unfold DotDims.rhsIdx
  rw [dif_neg (show ¬(0 : Fin S1024x64.rank) ∈ dot_S1024x64_S1024x64_S1024x1024_1_1_0_0_n_n.rhsBatch by decide), dif_pos (show (0 : Fin S1024x64.rank) ∈ dot_S1024x64_S1024x64_S1024x1024_1_1_0_0_n_n.rhsNonContracting by decide)]
  rfl
theorem rhs4_1 (i : S1024x1024.Idx) (q : dot_S1024x64_S1024x64_S1024x1024_1_1_0_0_n_n.contr.Idx) :
    (dot_S1024x64_S1024x64_S1024x1024_1_1_0_0_n_n.rhsIdx i q 1).val = (q ⟨0, by decide⟩).val :=
  dot_S1024x64_S1024x64_S1024x1024_1_1_0_0_n_n.rhsIdx_val_of_single rfl i q

/-- The body's result at an entry: the logistic function of the inner product of a row of each operand. -/
theorem pay4_apply (x0 x1 : Vec Ideal S1024x64 .f32) (p q : Fin 1024) :
    k4_pay1 x0 x1 (ix2 p q) = Ideal.logistic (∑ k : Fin 64, x0 (ix2 p k) * x1 (ix2 q k)) := by
  unfold k4_pay1
  show Ideal.logistic (FloatOps.matmul dot_S1024x64_S1024x64_S1024x1024_1_1_0_0_n_n none _ _ (constant (F := Ideal) ⟨2, ![1024, 1024]⟩ .f32 0x00000000#32) (ix2 p q)) = _
  rw [Cert.LibMatmulNT.matmul_zero_apply_nt (M := 1024) (K := 64) (N := 1024) dot_S1024x64_S1024x64_S1024x1024_1_1_0_0_n_n none rfl rfl lhs4_0 lhs4_1 rhs4_0 rhs4_1]
  rw [shapeCast_self, shapeCast_self]
  rfl

/-! ## The windows' block indices -/

/-- The block indices at point `t = 8 i + j`: window 0 reads row block `i`, window 1 row block `j`, the result's
    window writes block `(i, j)`. -/
theorem idx_facts4 : ∀ t : Fin cfg4.N,
    win4_0.index t (0 : Fin 2) = t.val / 8 ∧ win4_0.index t (1 : Fin 2) = 0
    ∧ win4_1.index t (0 : Fin 2) = t.val % 8 ∧ win4_1.index t (1 : Fin 2) = 0
    ∧ win4_2.index t (0 : Fin 2) = t.val / 8 ∧ win4_2.index t (1 : Fin 2) = t.val % 8 :=
  (by decide +kernel : ∀ t : Fin grid4.N, _)

theorem t_lt4 (t : Fin cfg4.N) : t.val < 64 := t.isLt

/-- Window 0's block at point `t`, entry `(p, k)`, is the embedding's entry `(1024 (t / 8) + p, k)`. -/
theorem iblk4_0_apply (c : Dev nD) (t : Fin cfg4.N) (p : Fin 1024) (k : Fin 64) (hr : 1024 * (t.val / 8) + p.val < 8192) :
    iblk4 V c 0 t (ix2 p k) = (V c main_v5 : FVec Ideal ⟨2, ![8192, 64]⟩ .f32) (ix2 ⟨1024 * (t.val / 8) + p.val, hr⟩ k) := by
  show V c main_v5 (((cfg4.win 0).blk t).view.emb (ix2 p k)) = _
  refine congrArg (V c main_v5) (funext fun a => Fin.ext ?_)
  obtain ⟨e0, e1, -, -, -, -⟩ := idx_facts4 t
  match a with
  | ⟨0, _⟩ => show win4_0.index t (0 : Fin 2) * 1024 + 1 * p.val = 1024 * (t.val / 8) + p.val; rw [e0]; omega
  | ⟨1, _⟩ => show win4_0.index t (1 : Fin 2) * 64 + 1 * k.val = k.val; rw [e1]; omega

/-- Window 1's block at point `t`, entry `(q, k)`, is the embedding's entry `(1024 (t % 8) + q, k)`. -/
theorem iblk4_1_apply (c : Dev nD) (t : Fin cfg4.N) (q : Fin 1024) (k : Fin 64) (hr : 1024 * (t.val % 8) + q.val < 8192) :
    iblk4 V c 1 t (ix2 q k) = (V c main_v5 : FVec Ideal ⟨2, ![8192, 64]⟩ .f32) (ix2 ⟨1024 * (t.val % 8) + q.val, hr⟩ k) := by
  show V c main_v5 (((cfg4.win 1).blk t).view.emb (ix2 q k)) = _
  refine congrArg (V c main_v5) (funext fun a => Fin.ext ?_)
  obtain ⟨-, -, e0, e1, -, -⟩ := idx_facts4 t
  match a with
  | ⟨0, _⟩ => show win4_1.index t (0 : Fin 2) * 1024 + 1 * q.val = 1024 * (t.val % 8) + q.val; rw [e0]; omega
  | ⟨1, _⟩ => show win4_1.index t (1 : Fin 2) * 64 + 1 * k.val = k.val; rw [e1]; omega

/-! ## What each point writes back -/

/-- Point `t` writes back block `t` of the logistic Gram matrix of the embedding. -/
theorem flushed4_eq (c : Dev nD) (t : Fin cfg4.N) :
    (dat4 V c).flushed 2 t = ((cfg4.win 2).blk t).view.read (Elt Ideal) (Cert.Spec.decode (V c main_v5)) := by
  show (cfg4.win 2).cut (grid4.coords t) ((dat4 V c).after 2 t) = _
  rw [after4_2]
  unfold out4
  funext y
  have ht := t_lt4 t
  have hp : (y 0).val < 1024 := (y 0).isLt
  have hq : (y 1).val < 1024 := (y 1).isLt
  have hr : 1024 * (t.val / 8) + (y 0).val < 8192 := by omega
  have hs : 1024 * (t.val % 8) + (y 1).val < 8192 := by omega
  have ey : (cfg4.win 2).xinj (grid4.coords t) y = ix2 (⟨(y 0).val, hp⟩ : Fin 1024) (⟨(y 1).val, hq⟩ : Fin 1024) :=
    funext fun a => Fin.ext (by match a with | ⟨0, _⟩ => rfl | ⟨1, _⟩ => rfl)
  have ez : ((cfg4.win 2).blk t).view.emb y
      = ix2 (⟨1024 * (t.val / 8) + (y 0).val, hr⟩ : Fin 8192) (⟨1024 * (t.val % 8) + (y 1).val, hs⟩ : Fin 8192) := by
    obtain ⟨-, -, -, -, e0, e1⟩ := idx_facts4 t
    refine funext fun a => Fin.ext ?_
    match a with
    | ⟨0, _⟩ => show win4_2.index t (0 : Fin 2) * 1024 + 1 * (y 0).val = 1024 * (t.val / 8) + (y 0).val; rw [e0]; omega
    | ⟨1, _⟩ => show win4_2.index t (1 : Fin 2) * 1024 + 1 * (y 1).val = 1024 * (t.val % 8) + (y 1).val; rw [e1]; omega
  show k4_pay1 (iblk4 V c 0 t) (iblk4 V c 1 t) ((cfg4.win 2).xinj (grid4.coords t) y)
    = Cert.Spec.decode (V c main_v5) (((cfg4.win 2).blk t).view.emb y)
  rw [ey, ez, Cert.Spec.decode_apply]
  refine (pay4_apply _ _ _ _).trans (congrArg Ideal.logistic (Finset.sum_congr rfl fun k _ => ?_))
  exact congrArg₂ (· * ·) (iblk4_0_apply V c t ⟨(y 0).val, hp⟩ k hr) (iblk4_1_apply V c t ⟨(y 1).val, hq⟩ k hs)

/-! ## The blocks tile the array -/

/-- An index of the array is in point `t`'s block iff each coordinate is in the block's range on its axis. -/
theorem mem_blk4 (t : Fin cfg4.N) (i : S8192x8192.Idx) :
    i ∈ ((cfg4.win 2).blk t).view.set ↔ ∀ a : Fin 2, win4_2.index t a * S1024x1024.size a ≤ (i a).val ∧ (i a).val < win4_2.index t a * S1024x1024.size a + S1024x1024.size a := by
  show i ∈ ((View.whole main_v6).slice (win4_2.rect t)).set ↔ _
  rw [View.set_slice_whole, Rect.mem_set_unit]
  exact Iff.rfl

/-- Every index of the result lies in the block of the point `8 (r / 1024) + s / 1024`. -/
theorem cover4 (i : S8192x8192.Idx) :
    ∃ t : Fin cfg4.N, (cfg4.win 2).flush t = true ∧ i ∈ ((cfg4.win 2).blk t).view.set := by
  have hi0 : (i 0).val < 8192 := (i 0).isLt
  have hi1 : (i 1).val < 8192 := (i 1).isLt
  have hN : 8 * ((i 0).val / 1024) + (i 1).val / 1024 < cfg4.N := by
    show 8 * ((i 0).val / 1024) + (i 1).val / 1024 < grid4.N
    rw [N_4]; omega
  refine ⟨⟨8 * ((i 0).val / 1024) + (i 1).val / 1024, hN⟩, flush4_2 _, ?_⟩
  rw [mem_blk4]
  obtain ⟨-, -, -, -, e0, e1⟩ := idx_facts4 ⟨8 * ((i 0).val / 1024) + (i 1).val / 1024, hN⟩
  intro a
  match a with
  | ⟨0, _⟩ =>
    show win4_2.index _ (0 : Fin 2) * 1024 ≤ (i 0).val ∧ (i 0).val < win4_2.index _ (0 : Fin 2) * 1024 + 1024
    rw [e0]; show (8 * ((i 0).val / 1024) + (i 1).val / 1024) / 8 * 1024 ≤ (i 0).val ∧ (i 0).val < (8 * ((i 0).val / 1024) + (i 1).val / 1024) / 8 * 1024 + 1024
    omega
  | ⟨1, _⟩ =>
    show win4_2.index _ (1 : Fin 2) * 1024 ≤ (i 1).val ∧ (i 1).val < win4_2.index _ (1 : Fin 2) * 1024 + 1024
    rw [e1]; show (8 * ((i 0).val / 1024) + (i 1).val / 1024) % 8 * 1024 ≤ (i 1).val ∧ (i 1).val < (8 * ((i 0).val / 1024) + (i 1).val / 1024) % 8 * 1024 + 1024
    omega

theorem val4 (c : Dev nD) :
    ((dat4 (F := Ideal) V c).arrAt 2 cfg4.N : FVec Ideal ⟨2, ![8192, 8192]⟩ .f32)
      = Cert.Spec.decode (V c main_v5) :=
  (dat4 V c).arrAt_eq_of_cover 2 (Cert.Spec.decode (V c main_v5)) (fun t _ => flushed4_eq V c t) cover4

end Cert.KernelIdeal.Hand

end
-- ==== Proof.KI.Value.lean ====
/-
  The kernel's value on the extended reals: chaining the five regions' result arrays through the boundaries of @main, the
  result buffer ends at the specification's function of the arguments.
-/
import proofs.«121749_j28346784154172_1_alg».proof.Proof.KI.Val0
import proofs.«121749_j28346784154172_1_alg».proof.Proof.KI.Val1
import proofs.«121749_j28346784154172_1_alg».proof.Proof.KI.Val2
import proofs.«121749_j28346784154172_1_alg».proof.Proof.KI.Val3
import proofs.«121749_j28346784154172_1_alg».proof.Proof.KI.Val4
import proofs.«121749_j28346784154172_1_alg».proof.Proof.KI.Fold
import proofs.«121749_j28346784154172_1_alg».proof.Proof.Spec

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen

variable (m : (ℓ : Loc nD τ sig) → Buf (Elt Ideal) ℓ)

/-- The zero bias rows the host stretch makes are the zero rows. -/
theorem zero_row256 : (broadcastInDim S256 ![] bcast_S_S256 (constant (F := Ideal) S_ .f32 0x00000000#32) : FVec Ideal ⟨1, ![256]⟩ .f32)
    = Cert.Spec.zero1 256 := by
  funext i
  show Ideal.ofBits .f32 0x00000000#32 = 0
  exact Ideal.ofBits_zero_f32
theorem zero_row64 : (broadcastInDim S64 ![] bcast_S_S64 (constant (F := Ideal) S_ .f32 0x00000000#32) : FVec Ideal ⟨1, ![64]⟩ .f32)
    = Cert.Spec.zero1 64 := by
  funext i
  show Ideal.ofBits .f32 0x00000000#32 = 0
  exact Ideal.ofBits_zero_f32

/-! ## The buffers a region reads, traced back through the boundaries -/

theorem V1_arg0 (c : Dev nD) : V1 m c main_arg0 = m ((c : Thread nD τ).loc main_arg0) := W1_of m c main_arg0 (by decide)
theorem V1_arg2 (c : Dev nD) : V1 m c main_arg2 = m ((c : Thread nD τ).loc main_arg2) := W1_of m c main_arg2 (by decide)
theorem V2_arg1 (c : Dev nD) : V2 m c main_arg1 = m ((c : Thread nD τ).loc main_arg1) :=
  (W2_of_ne m c main_arg1 (by decide)).trans (W1_of m c main_arg1 (by decide))
theorem V2_arg3 (c : Dev nD) : V2 m c main_arg3 = m ((c : Thread nD τ).loc main_arg3) :=
  (W2_of_ne m c main_arg3 (by decide)).trans (W1_of m c main_arg3 (by decide))
theorem V3_arg4 (c : Dev nD) : V3 m c main_arg4 = m ((c : Thread nD τ).loc main_arg4) :=
  (W3_of_ne m c main_arg4 (by decide)).trans <| (W2_of_ne m c main_arg4 (by decide)).trans (W1_of m c main_arg4 (by decide))
theorem V3_v1 (c : Dev nD) : V3 m c main_v1 = V1 m c main_v1 :=
  (W3_of_ne m c main_v1 (by decide)).trans (W2_of_ne m c main_v1 (by decide))
theorem V4_arg1 (c : Dev nD) : V4 m c main_arg1 = m ((c : Thread nD τ).loc main_arg1) :=
  (W4_of_ne m c main_arg1 (by decide)).trans <| (W3_of_ne m c main_arg1 (by decide)).trans <|
    (W2_of_ne m c main_arg1 (by decide)).trans (W1_of m c main_arg1 (by decide))
theorem V4_arg5 (c : Dev nD) : V4 m c main_arg5 = m ((c : Thread nD τ).loc main_arg5) :=
  (W4_of_ne m c main_arg5 (by decide)).trans <| (W3_of_ne m c main_arg5 (by decide)).trans <|
    (W2_of_ne m c main_arg5 (by decide)).trans (W1_of m c main_arg5 (by decide))

/-- THE KERNEL'S VALUE: what region 4's write-backs leave in the result buffer is the specification's function of the
    argument buffers' launch contents — each region's result array is its stage of the network at the contents the region
    before it left. -/
theorem kernel_value  (c : Dev nD) :
    ((dat4 (F := Ideal) (V5 m) c).arrAt 2 cfg4.N : FVec Ideal ⟨2, ![8192, 8192]⟩ .f32)
      = Cert.Spec.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  have e2 : (V2 m c main_v2 : FVec Ideal ⟨2, ![8192, 256]⟩ .f32)
      = Cert.Spec.T1 (m ((c : Thread nD τ).loc main_arg0)) (m ((c : Thread nD τ).loc main_arg2)) := by
    refine (W2_self m c).trans ((val0 (V1 m) c).trans ?_)
    rw [V1_arg0, V1_arg2, W1_main_v0, zero_row256]; rfl
  have e3 : (V3 m c main_v3 : FVec Ideal ⟨2, ![8192, 256]⟩ .f32)
      = Cert.Spec.H (m ((c : Thread nD τ).loc main_arg1)) (Cert.Spec.T1 (m ((c : Thread nD τ).loc main_arg0)) (m ((c : Thread nD τ).loc main_arg2)))
          (m ((c : Thread nD τ).loc main_arg3)) := by
    refine (W3_self m c).trans ((val1 (V2 m) c).trans ?_)
    rw [V2_arg1, V2_arg3, e2]; rfl
  have e4 : (V4 m c main_v4 : FVec Ideal ⟨2, ![8192, 64]⟩ .f32)
      = Cert.Spec.T2 (Cert.Spec.H (m ((c : Thread nD τ).loc main_arg1)) (Cert.Spec.T1 (m ((c : Thread nD τ).loc main_arg0)) (m ((c : Thread nD τ).loc main_arg2)))
          (m ((c : Thread nD τ).loc main_arg3))) (m ((c : Thread nD τ).loc main_arg4)) := by
    refine (W4_self m c).trans ((val2 (V3 m) c).trans ?_)
    rw [V3_arg4, V3_v1, W1_main_v1, zero_row64, e3]; rfl
  have e5 : (V5 m c main_v5 : FVec Ideal ⟨2, ![8192, 64]⟩ .f32)
      = Cert.Spec.Z (m ((c : Thread nD τ).loc main_arg1)) (Cert.Spec.T2 (Cert.Spec.H (m ((c : Thread nD τ).loc main_arg1)) (Cert.Spec.T1 (m ((c : Thread nD τ).loc main_arg0)) (m ((c : Thread nD τ).loc main_arg2)))
          (m ((c : Thread nD τ).loc main_arg3))) (m ((c : Thread nD τ).loc main_arg4))) (m ((c : Thread nD τ).loc main_arg5)) := by
    refine (W5_self m c).trans ((val3 (V4 m) c).trans ?_)
    rw [V4_arg1, V4_arg5, e4]; rfl
  refine (val4 (V5 m) c).trans ?_
  rw [e5]; rfl

end Cert.KernelIdeal.Hand

end
-- ==== Proof.RefRead.lean ====
/-
  The reference's run and its read-at-an-index lemmas, brought into the proof: the host program's result as the composed
  term of its operations, and each operation read at an index.
-/
import proofs.«121749_j28346784154172_1_alg».proof.Proof.Gen.ReferenceIdeal.Read
-- ==== Proof.RefValue.lean ====
/-
  The reference computes the specification's function: read operation by operation at an index on the extended reals, the
  host program's result is decode (adj · (relu (adj · (x · W₁) + b₁) · W₂) + b₂). Its three matrix products are plain sums
  over the contracted index; a product with no bias is the biased product with the zero row (a + 0 = a); the transposed
  right operand of the last product read at (k, s) is the embedding at (s, k); and negate, exponential, add one, divide
  one by it is the logistic function.
-/
import proofs.«121749_j28346784154172_1_alg».proof.Proof.RefRead
import proofs.«121749_j28346784154172_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open scoped BigOperators
open Idealize.ShloMosaic Idealize.ShloMosaic.TcCoe Idealize.ShloMosaic.ValueIdx
open Cert.ReferenceIdeal Cert.ReferenceIdeal.Gen Cert.ReferenceIdeal.Read

/-- Two index functions of a rank-two shape agree when their two coordinates do. -/
local macro "idx2" : tactic =>
  `(tactic| exact funext fun a => Fin.ext (by match a with | ⟨0, _⟩ => rfl | ⟨1, _⟩ => rfl))

/-- The word 0x3F800000 denotes the number one. -/
theorem ofBits_one_f32 : Ideal.ofBits .f32 0x3F800000#32 = 1 := by
  simp [Ideal.ofBits, Ideal.ieee, -EReal.coe_mul]; norm_num

/-! ### The first layer -/

/-- x · W₁: the product with no bias is the biased product with the zero row. -/
theorem v0_eq (x0 : (⟨S8192x512, .f32⟩ : BufTy).Contents (Elt Ideal)) (x2 : (⟨S512x256, .f32⟩ : BufTy).Contents (Elt Ideal)) :
    val_main_v0 (F := Ideal) x0 x2 = Cert.Spec.T1 x0 x2 := by
  funext i
  obtain ⟨p, q, rfl⟩ : ∃ (p : Fin 8192) (q : Fin 256), i = ix2 p q := ⟨i 0, i 1, eq_ix2 i⟩
  rw [val_main_v0_apply]
  show _ = (∑ k : Fin 512, x0 (ix2 p k) * x2 (ix2 k q)) + 0
  rw [add_zero]
  refine Finset.sum_congr rfl fun k _ => ?_
  have e1 : lidx_main_v0 (ix2 p q) k = ix2 p k := by idx2
  have e2 : ridx_main_v0 (ix2 p q) k = ix2 k q := by idx2
  rw [e1, e2]

/-- The bias row b₁ broadcast to every row, read at (p, q), is b₁ at q. -/
theorem v3_at (x3 : (⟨S256, .f32⟩ : BufTy).Contents (Elt Ideal)) (p : Fin 8192) (q : Fin 256) :
    val_main_v3 (F := Ideal) x3 (ix2 p q) = x3 (ix1 q) := by
  rw [val_main_v3_apply, val_main_v2_apply]
  exact congrArg x3 (funext fun a => Fin.ext (by match a with | ⟨0, _⟩ => rfl))

/-- adj · t₁ + b₁. -/
theorem v4_eq (x0 : (⟨S8192x512, .f32⟩ : BufTy).Contents (Elt Ideal)) (x1 : (⟨S8192x8192, .f32⟩ : BufTy).Contents (Elt Ideal))
    (x2 : (⟨S512x256, .f32⟩ : BufTy).Contents (Elt Ideal)) (x3 : (⟨S256, .f32⟩ : BufTy).Contents (Elt Ideal)) :
    val_main_v4 (F := Ideal) x0 x1 x2 x3 = Cert.Spec.gemmB x1 (Cert.Spec.T1 x0 x2) x3 := by
  funext i
  obtain ⟨p, q, rfl⟩ : ∃ (p : Fin 8192) (q : Fin 256), i = ix2 p q := ⟨i 0, i 1, eq_ix2 i⟩
  rw [val_main_v4_apply, val_main_v1_apply, v0_eq, v3_at, Cert.Spec.gemmB_apply]
  show _ + _ = _ + _
  congr 1
  refine Finset.sum_congr rfl fun k _ => ?_
  have e1 : lidx_main_v1 (ix2 p q) k = ix2 p k := by idx2
  have e2 : ridx_main_v1 (ix2 p q) k = ix2 k q := by idx2
  rw [e1, e2]

/-- The broadcast zero of the clamp is zero at every index. -/
theorem call0_v0_at (i : S8192x256.Idx) : val_main_call0_v0 (F := Ideal) i = 0 := by
  rw [val_main_call0_v0_apply, val_main_call0_cst_apply]
  exact Ideal.ofBits_zero_f32

/-- h = relu (adj · t₁ + b₁). -/
theorem v5_eq (x0 : (⟨S8192x512, .f32⟩ : BufTy).Contents (Elt Ideal)) (x1 : (⟨S8192x8192, .f32⟩ : BufTy).Contents (Elt Ideal))
    (x2 : (⟨S512x256, .f32⟩ : BufTy).Contents (Elt Ideal)) (x3 : (⟨S256, .f32⟩ : BufTy).Contents (Elt Ideal)) :
    val_main_v5 (F := Ideal) x0 x1 x2 x3 = Cert.Spec.H x1 (Cert.Spec.T1 x0 x2) x3 := by
  funext i
  rw [val_main_v5_apply, v4_eq, call0_v0_at]
  rfl

/-! ### The second layer -/

/-- h · W₂. -/
theorem v6_eq (x0 : (⟨S8192x512, .f32⟩ : BufTy).Contents (Elt Ideal)) (x1 : (⟨S8192x8192, .f32⟩ : BufTy).Contents (Elt Ideal))
    (x2 : (⟨S512x256, .f32⟩ : BufTy).Contents (Elt Ideal)) (x3 : (⟨S256, .f32⟩ : BufTy).Contents (Elt Ideal))
    (x4 : (⟨S256x64, .f32⟩ : BufTy).Contents (Elt Ideal)) :
    val_main_v6 (F := Ideal) x0 x1 x2 x3 x4 = Cert.Spec.T2 (Cert.Spec.H x1 (Cert.Spec.T1 x0 x2) x3) x4 := by
  funext i
  obtain ⟨p, q, rfl⟩ : ∃ (p : Fin 8192) (q : Fin 64), i = ix2 p q := ⟨i 0, i 1, eq_ix2 i⟩
  rw [val_main_v6_apply, v5_eq]
  show _ = (∑ k : Fin 256, Cert.Spec.H x1 (Cert.Spec.T1 x0 x2) x3 (ix2 p k) * x4 (ix2 k q)) + 0
  rw [add_zero]
  refine Finset.sum_congr rfl fun k _ => ?_
  have e1 : lidx_main_v6 (ix2 p q) k = ix2 p k := by idx2
  have e2 : ridx_main_v6 (ix2 p q) k = ix2 k q := by idx2
  rw [e1, e2]

/-- The bias row b₂ broadcast to every row, read at (p, q), is b₂ at q. -/
theorem v9_at (x5 : (⟨S64, .f32⟩ : BufTy).Contents (Elt Ideal)) (p : Fin 8192) (q : Fin 64) :
    val_main_v9 (F := Ideal) x5 (ix2 p q) = x5 (ix1 q) := by
  rw [val_main_v9_apply, val_main_v8_apply]
  exact congrArg x5 (funext fun a => Fin.ext (by match a with | ⟨0, _⟩ => rfl))

/-- z = adj · t₂ + b₂. -/
theorem v10_eq (x0 : (⟨S8192x512, .f32⟩ : BufTy).Contents (Elt Ideal)) (x1 : (⟨S8192x8192, .f32⟩ : BufTy).Contents (Elt Ideal))
    (x2 : (⟨S512x256, .f32⟩ : BufTy).Contents (Elt Ideal)) (x3 : (⟨S256, .f32⟩ : BufTy).Contents (Elt Ideal))
    (x4 : (⟨S256x64, .f32⟩ : BufTy).Contents (Elt Ideal)) (x5 : (⟨S64, .f32⟩ : BufTy).Contents (Elt Ideal)) :
    val_main_v10 (F := Ideal) x0 x1 x2 x3 x4 x5
      = Cert.Spec.Z x1 (Cert.Spec.T2 (Cert.Spec.H x1 (Cert.Spec.T1 x0 x2) x3) x4) x5 := by
  funext i
  obtain ⟨p, q, rfl⟩ : ∃ (p : Fin 8192) (q : Fin 64), i = ix2 p q := ⟨i 0, i 1, eq_ix2 i⟩
  rw [val_main_v10_apply, val_main_v7_apply, v6_eq, v9_at]
  show _ + _ = (∑ k : Fin 8192, x1 (ix2 p k) * Cert.Spec.T2 (Cert.Spec.H x1 (Cert.Spec.T1 x0 x2) x3) x4 (ix2 k q)) + x5 (ix1 q)
  congr 1
  refine Finset.sum_congr rfl fun k _ => ?_
  have e1 : lidx_main_v7 (ix2 p q) k = ix2 p k := by idx2
  have e2 : ridx_main_v7 (ix2 p q) k = ix2 k q := by idx2
  rw [e1, e2]

/-! ### The decoder -/

/-- z · zᵀ at (p, q) is the sum over k of z (p, k) · z (q, k): the transposed operand at (k, q) is z at (q, k). -/
theorem v12_at (x0 : (⟨S8192x512, .f32⟩ : BufTy).Contents (Elt Ideal)) (x1 : (⟨S8192x8192, .f32⟩ : BufTy).Contents (Elt Ideal))
    (x2 : (⟨S512x256, .f32⟩ : BufTy).Contents (Elt Ideal)) (x3 : (⟨S256, .f32⟩ : BufTy).Contents (Elt Ideal))
    (x4 : (⟨S256x64, .f32⟩ : BufTy).Contents (Elt Ideal)) (x5 : (⟨S64, .f32⟩ : BufTy).Contents (Elt Ideal))
    (p q : Fin 8192) :
    val_main_v12 (F := Ideal) x0 x1 x2 x3 x4 x5 (ix2 p q)
      = ∑ k : Fin 64, val_main_v10 (F := Ideal) x0 x1 x2 x3 x4 x5 (ix2 p k) * val_main_v10 (F := Ideal) x0 x1 x2 x3 x4 x5 (ix2 q k) := by
  rw [val_main_v12_apply]
  refine Finset.sum_congr rfl fun k _ => ?_
  rw [val_main_v11_apply]
  have e1 : lidx_main_v12 (ix2 p q) k = ix2 p k := by idx2
  have e2 : idx_main_v11 (ridx_main_v12 (ix2 p q) k) = ix2 q k := by idx2
  rw [e1, e2]

/-- The broadcast one is one at every index. -/
theorem v15_at (i : S8192x8192.Idx) : val_main_v15 (F := Ideal) i = 1 := by
  rw [val_main_v15_apply, val_main_cst_apply]
  exact ofBits_one_f32

/-- The numerator's broadcast one is one at every index. -/
theorem v17_at (i : S8192x8192.Idx) : val_main_v17 (F := Ideal) i = 1 := by
  rw [val_main_v17_apply, val_main_cst_0_apply]
  exact ofBits_one_f32

/-- Negate, exponential, add one, divide one by it: the logistic function of z · zᵀ. -/
theorem v18_eq (x0 : (⟨S8192x512, .f32⟩ : BufTy).Contents (Elt Ideal)) (x1 : (⟨S8192x8192, .f32⟩ : BufTy).Contents (Elt Ideal))
    (x2 : (⟨S512x256, .f32⟩ : BufTy).Contents (Elt Ideal)) (x3 : (⟨S256, .f32⟩ : BufTy).Contents (Elt Ideal))
    (x4 : (⟨S256x64, .f32⟩ : BufTy).Contents (Elt Ideal)) (x5 : (⟨S64, .f32⟩ : BufTy).Contents (Elt Ideal)) :
    val_main_v18 (F := Ideal) x0 x1 x2 x3 x4 x5 = Cert.Spec.decode (val_main_v10 (F := Ideal) x0 x1 x2 x3 x4 x5) := by
  funext i
  obtain ⟨p, q, rfl⟩ : ∃ (p : Fin 8192) (q : Fin 8192), i = ix2 p q := ⟨i 0, i 1, eq_ix2 i⟩
  rw [val_main_v18_apply, v17_at, val_main_v16_apply, v15_at, val_main_v14_apply, val_main_v13_apply, v12_at,
    Cert.Spec.decode_apply]
  rfl

/-- The reference's result, as the composition of its operations' stages, is the specification's function of the arguments. -/
theorem ref_is_G (x0 : (⟨S8192x512, .f32⟩ : BufTy).Contents (Elt Ideal)) (x1 : (⟨S8192x8192, .f32⟩ : BufTy).Contents (Elt Ideal))
    (x2 : (⟨S512x256, .f32⟩ : BufTy).Contents (Elt Ideal)) (x3 : (⟨S256, .f32⟩ : BufTy).Contents (Elt Ideal))
    (x4 : (⟨S256x64, .f32⟩ : BufTy).Contents (Elt Ideal)) (x5 : (⟨S64, .f32⟩ : BufTy).Contents (Elt Ideal)) :
    val_main_v18 (F := Ideal) x0 x1 x2 x3 x4 x5 = Cert.Spec.G x0 x1 x2 x3 x4 x5 := by
  rw [v18_eq, v10_eq]
  rfl

end Cert.ReferenceIdeal.RefValue

end
-- ==== Proof.lean ====
/-
  The certificate of a two-layer graph convolution with a dot-product decoder, written as five TensorCore regions, against its
  plain reference.

  On the extended reals both programs compute decode (adj · (relu (adj · (x · W₁) + b₁) · W₂) + b₂), where decode z is the logistic
  function of the Gram matrix of z's rows. The kernel forms every product block by block — the two products with the adjacency
  matrix accumulate four partial sums along the contracted axis — rounds its operands to bfloat16 (the identity on the
  extended reals) and adds a zero bias row where the reference adds none; sums of extended reals may be regrouped and a + 0 = a,
  so the results agree index by index, and no finiteness of the inputs is used.
  Each program's frame: the kernel's two programs run region after region, each region entered from the buffer contents the one
  before it left and changing only its own result buffer; the reference is a straight line of host operations.
-/
import proofs.«121749_j28346784154172_1_alg».proof.Defs
import proofs.«121749_j28346784154172_1_alg».proof.Proof.Gen.Kernel
import proofs.«121749_j28346784154172_1_alg».proof.Proof.Gen.KernelIdeal
import proofs.«121749_j28346784154172_1_alg».proof.Proof.Gen.ReferenceIdeal
import proofs.«121749_j28346784154172_1_alg».proof.Proof.Gen.Pre_finite_inputs
import proofs.«121749_j28346784154172_1_alg».proof.Proof.KB.All
import proofs.«121749_j28346784154172_1_alg».proof.Proof.KI.All
import proofs.«121749_j28346784154172_1_alg».proof.Proof.KI.Value
import proofs.«121749_j28346784154172_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_p : Cert.frame_Kernel (hKernel := Cert.Kernel.Gen.facts) (hPre_finite_inputs := Cert.Pre_finite_inputs.Gen.facts) :=
  fun m ρ _ => Cert.Kernel.Hand.frame_all m ρ

/-- The idealized kernel runs and leaves its arguments unchanged. -/
theorem frame_pi : Cert.frame_KernelIdeal (hKernelIdeal := Cert.KernelIdeal.Gen.facts) (hPre_finite_inputs := Cert.Pre_finite_inputs.Gen.facts) :=
  fun m ρ _ => Cert.KernelIdeal.Hand.frame_all m ρ

/-- The reference runs and leaves its arguments unchanged: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- On the extended reals, from memories agreeing on the arguments, both programs end with the specification's function of the
    arguments in their result buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Hand.kernel_value m c), (h c).2⟩)
      (Cert.KernelIdeal.Hand.run_value_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v18_eq, Cert.ReferenceIdeal.RefValue.ref_is_G, (hagree c).1, (hagree c).2.1,
      (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
